-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S64 .f32) (main_arg5 : FVec F S64x3 .f32) (main_arg6 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x3 .f32 := Host.absf main_arg5
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x256 .f32) (main_arg1 : FVec F S256x64 .f32) (main_arg2 : FVec F S64 .f32) (main_arg3 : FVec F S64x64 .f32) (main_arg4 : FVec F S64 .f32) (main_arg5 : FVec F S64x3 .f32) (main_arg6 : FVec F S3 .f32) (main_arg7 : IVec S2x3200000 32) (main_arg8 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x256 : Shape := ⟨2, ![100000, 256]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x1 : Shape := ⟨2, ![100000, 1]⟩
abbrev S1024x64 : Shape := ⟨2, ![1024, 64]⟩
abbrev S2000x64 : Shape := ⟨2, ![2000, 64]⟩
abbrev S2000x1 : Shape := ⟨2, ![2000, 1]⟩
abbrev S2000x1024 : Shape := ⟨2, ![2000, 1024]⟩
abbrev S1024 : Shape := ⟨1, ![1024]⟩
abbrev S1024x1 : Shape := ⟨2, ![1024, 1]⟩
abbrev S1024x3 : Shape := ⟨2, ![1024, 3]⟩
abbrev S1x3 : Shape := ⟨2, ![1, 3]⟩

abbrev nBuf : Space → Nat
  | .hbm => 93
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x64, .f32⟩
  | .hbm, ⟨72, _⟩ => ⟨S3300000x64, .f32⟩
  | .hbm, ⟨73, _⟩ => ⟨S3300000x64, .f32⟩
  | .hbm, ⟨74, _⟩ => ⟨S_, .f32⟩
  | .hbm, ⟨75, _⟩ => ⟨S100000x64, .f32⟩
  | .hbm, ⟨76, _⟩ => ⟨S3300000x1, .i32⟩
  | .hbm, ⟨77, _⟩ => ⟨S100000x64, .f32⟩
  | .hbm, ⟨78, _⟩ => ⟨S100000x1, .i32⟩
  | .hbm, ⟨79, _⟩ => ⟨S1024x64, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S1024, .f32⟩
  | .hbm, ⟨84, _⟩ => ⟨S100000x1, .i32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024x1, .f32⟩
  | .hbm, ⟨90, _⟩ => ⟨S1024x64, .f32⟩
  | .hbm, ⟨91, _⟩ => ⟨S1024x64, .f32⟩
  | .hbm, ⟨92, _⟩ => ⟨S1024x3, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S2000x64, .f32⟩
  | .local _ .vmem, ⟨12, _⟩ => ⟨S2000x64, .f32⟩
  | .local _ .vmem, ⟨13, _⟩ => ⟨S64, .f32⟩
  | .local _ .vmem, ⟨14, _⟩ => ⟨S2000x1, .i32⟩
  | .local _ .vmem, ⟨15, _⟩ => ⟨S2000x1, .i32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S64x3, .f32⟩
  | .local _ .vmem, ⟨20, _⟩ => ⟨S3, .f32⟩
  | .local _ .vmem, ⟨21, _⟩ => ⟨S1024x3, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v26 : BitVec 1 := Scalar.cmpi .eq arg0 c49_i32
  let v27 : BitVec 32 := Scalar.extui v26
  let c0_i32_10 : BitVec 32 := 0#32
  let v28 : BitVec 1 := Scalar.cmpi .ne v27 c0_i32_10
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  iota_S2000x1024_d1_w32 : S2000x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  natLt_1_32 : 1 < 32
  bcast_S_S1024 : S_.BroadcastsInDim S1024 (![] : Fin 0 → Fin S1024.rank)
  bcast_S100000_S100000x1_0 : S100000.BroadcastsInDim S100000x1 (![0] : Fin 1 → Fin S100000x1.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S2000x1024_S2000x64_S1024x64_0_0_1_1_n_n_wf : DotDims.WF S2000x1024 S2000x64 S1024x64 [0] [0] [1] [1] [] []
  scatter_S1024_S100000x1_S100000_n_0_0_1_wf : ScatterDims.WF S1024 S100000x1 S100000 [] [0] [0] 1
  dot_S1024x64_S64x3_S1024x3_1_0_0_1_n_n_wf : DotDims.WF S1024x64 S64x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .i32 = 32 ∨ (Rect.block (s := S100000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S1024x64.size a
  hwx2_3 : ∀ i : grid2.Coords, EltTy.bits .f32 = 32 ∨ (Rect.block (s := S1024x64) S1024x64.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x3.size a ≤ S64x3.size a
  hwx3_1 : ∀ i : grid3.Coords, EltTy.bits .f32 = 32 ∨ (Rect.block (s := S64x3) S64x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3.size a ≤ S3.size a
  hwx3_2 : ∀ i : grid3.Coords, EltTy.bits .f32 = 32 ∨ (Rect.block (s := S3) S3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x3.size a ≤ S1024x3.size a
  hwx3_3 : ∀ i : grid3.Coords, EltTy.bits .f32 = 32 ∨ (Rect.block (s := S1024x3) S1024x3.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1024x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v66) S1024x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1024x3.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x3 : Shape := ⟨2, ![1024, 3]⟩
abbrev S1x3 : Shape := ⟨2, ![1, 3]⟩

abbrev nBuf : Space → Nat
  | .hbm => 110
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x64, .f32⟩
  | .hbm, ⟨79, _⟩ => ⟨S3300000x64, .f32⟩
  | .hbm, ⟨80, _⟩ => ⟨S_, .f32⟩
  | .hbm, ⟨81, _⟩ => ⟨S100000x64, .f32⟩
  | .hbm, ⟨82, _⟩ => ⟨S3300000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S1024x64, .f32⟩
  | .hbm, ⟨92, _⟩ => ⟨S100000x1, .i32⟩
  | .hbm, ⟨93, _⟩ => ⟨S1024x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S1024, .f32⟩
  | .hbm, ⟨98, _⟩ => ⟨S100000x1, .i32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024x1, .f32⟩
  | .hbm, ⟨104, _⟩ => ⟨S1024x64, .f32⟩
  | .hbm, ⟨105, _⟩ => ⟨S1024x64, .f32⟩
  | .hbm, ⟨106, _⟩ => ⟨S1024x3, .f32⟩
  | .hbm, ⟨107, _⟩ => ⟨S1x3, .f32⟩
  | .hbm, ⟨108, _⟩ => ⟨S1024x3, .f32⟩
  | .hbm, ⟨109, _⟩ => ⟨S1024x3, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x3_S1024x3_1_0_0_1_n_n_wf : DotDims.WF S1024x64 S64x3 S1024x3 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf

class Facts : Prop extends Facts₀ where

variable [Facts]
-- ==== Proof.FrameKernel.Region0.lean ====
/-
  Region 0 of the kernel program: the first feature transform, one block of 5000 rows of the node features times the
  whole first weight matrix per grid point. Stated at a parameter `V`, the buffers' contents when the region is
  entered: a window's block at a point is read off its array; the body leaves in the output window's buffer the
  product of the row block and the weights (the skeleton's payload); the proof data keep the inputs' buffers at their
  blocks, name the output's by that product, and carry the scoped rest and the generator register untouched.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights, fetched once, are in their staging buffer at every point: the block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each buffer whole. -/
abbrev rx0 : Rect S5000x256 := Rect.unit (s := S5000x256) ![0, 0] S5000x256.size inb_S5000x256_S5000x256_0_0
abbrev rw0 : Rect S256x64 := Rect.unit (s := S256x64) ![0, 0] S256x64.size inb_S256x64_S256x64_0_0
abbrev ro0 : Rect S5000x64 := Rect.unit (s := S5000x64) ![0, 0] S5000x64.size inb_S5000x64_S5000x64_0_0

/-- What the body leaves in the output window's buffer: its one store, the product of the loaded row block and weights. -/
def out0_2 (x0 : Vec F S5000x256 .f32) (x1 : Vec F S256x64 .f32) : Vec F S5000x64 .f32 :=
  View.canon [⟨ro0, k0_pay1 (View.ld x0 rx0) (View.ld x1 rw0)⟩]

/-- The one store covers the buffer. -/
theorem cover0_2 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs: the inputs' buffers at `x0`, `x1` and the output's at anything run to the inputs'
    unchanged and the output's at `out0_2 x0 x1`. -/
theorem sound_kernel0 (c : Dev nD) (E : Set ℕ) (i : grid0.Coords) (arg1 : Memref sig .tc .vmem S5000x256 .f32) (harg1 : arg1.IsWhole)
    (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.FrameKernel.Region1.lean ====
/-
  Region 1 of the kernel program: bias, rectifier and the second feature transform, one block of 5000 rows of the
  first aggregation per grid point, with the whole first bias and the whole second weight matrix. Stated at a
  parameter `V`, the buffers' contents when the region is entered. The body leaves in the output window's buffer
  the skeleton's payload of the three loaded blocks; the inputs' buffers keep their blocks; the scoped rest and the
  generator register pass through untouched.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregation is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias, fetched once, is in its staging buffer at every point: the block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- So are the weights. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each buffer whole. -/
abbrev rx1 : Rect S5000x64 := Rect.unit (s := S5000x64) ![0, 0] S5000x64.size inb_S5000x64_S5000x64_0_0
abbrev rb1 : Rect S64 := Rect.unit (s := S64) ![0] S64.size inb_S64_S64_0
abbrev rw1 : Rect S64x64 := Rect.unit (s := S64x64) ![0, 0] S64x64.size inb_S64x64_S64x64_0_0

/-- What the body leaves in the output window's buffer: its one store. -/
def out1_3 (x0 : Vec F S5000x64 .f32) (x1 : Vec F S64 .f32) (x2 : Vec F S64x64 .f32) : Vec F S5000x64 .f32 :=
  View.canon [⟨rx1, k1_pay1 (View.ld x0 rx1) (View.ld x1 rb1) (View.ld x2 rw1)⟩]

/-- The one store covers the buffer. -/
theorem cover1_3 (p0 : Vec F S5000x64 .f32) (y : S5000x64.Idx) :
    ∃ pc ∈ ([⟨rx1, p0⟩] : List (View.Piece (Elt F) S5000x64 .f32)), y ∈ pc.1.set :=
  View.cover_of_tiled [⟨rx1, p0⟩] S5000x64.size (by rfl) y

set_option maxHeartbeats 1000000 in
/-- The body on whole staging memrefs: the inputs' buffers at `x0`, `x1`, `x2` and the output's at anything run to the
    inputs' unchanged and the output's at `out1_3 x0 x1 x2`. -/
theorem sound_kernel1 (c : Dev nD) (E : Set ℕ) (i : grid1.Coords) (arg1 : Memref sig .tc .vmem S5000x64 .f32) (harg1 : arg1.IsWhole)
    (arg2 : Memref sig .tc .vmem S64 .f32) (harg2 : arg2.IsWhole) (arg3 : Memref sig .tc .vmem S64x64 .f32) (harg3 : arg3.IsWhole)
    (arg4 : Memref sig .tc .vmem S5000x64 .f32) (harg4 : arg4.IsWhole)
    (x0 : Vec F S5000x64 .f32) (x1 : Vec F S64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.FrameKernel.Region2.lean ====
/-
  Region 2 of the kernel program: bias, rectifier and the sum of node rows per graph, fifty grid points of 2000 node
  rows each. A scratch buffer of one row per graph is set to zero at the first point, gains at every point the
  one-hot matrix of the point's graph ids (transposed) times the point's rectified rows, and is copied to the output
  window at the last point, the only one at which that window is written back. Stated at a parameter `V`, the
  buffers' contents when the region is entered.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The point's block of node rows is in its staging buffer at every point: the window is never idle and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (by decide +kernel) (fun _ _ _ => rfl) (fun t => by rw [hafter]; unfold Dat.blockOf iblk2; rw [hA]; try rfl) t d).trans
    (by unfold Dat.fetched Dat.blockOf iblk2; rw [hA]; try rfl)

/-- The bias, fetched at the first point only, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (by decide +kernel) (fun _ _ _ => rfl) (fun t => by rw [hafter]; unfold Dat.blockOf iblk2; rw [hA]; try rfl) t d).trans
    (by unfold Dat.fetched Dat.blockOf iblk2; rw [hA]; try rfl)

/-- The point's block of graph ids is in its staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (by decide +kernel) (fun _ _ _ => rfl) (fun t => by rw [hafter]; unfold Dat.blockOf iblk2; rw [hA]; try rfl) t d).trans
    (by unfold Dat.fetched Dat.blockOf iblk2; rw [hA]; try rfl)

/-- The body's rectangles: each buffer whole. -/
abbrev rx2 : Rect S2000x64 := Rect.unit (s := S2000x64) ![0, 0] S2000x64.size inb_S2000x64_S2000x64_0_0
abbrev rb2 : Rect S64 := Rect.unit (s := S64) ![0] S64.size inb_S64_S64_0
abbrev ri2 : Rect S2000x1 := Rect.unit (s := S2000x1) ![0, 0] S2000x1.size inb_S2000x1_S2000x1_0_0
abbrev rs2 : Rect S1024x64 := Rect.unit (s := S1024x64) ![0, 0] S1024x64.size inb_S1024x64_S1024x64_0_0

/-- The scratch operand, a whole scoped buffer of the kernel's own. -/
abbrev scM2 : Memref sig .tc .vmem S1024x64 .f32 := Memref.whole cc2_scratch0

/-- The scratch right after the first point's reset. -/
def zeroAcc2 : Vec F S1024x64 .f32 := View.canon [⟨rs2, k2_pay1 (F := F)⟩]

/-- The scratch after a point's update, from the point's three input blocks and the scratch before the update. -/
def poolStep2 (x0 : Vec F S2000x64 .f32) (x1 : Vec F S64 .f32) (x2 : Vec F S2000x1 .i32) (prev : Vec F S1024x64 .f32) : Vec F S1024x64 .f32 :=
  View.canon [⟨rs2, k2_pay2 (View.ld x0 rx2) (View.ld x1 rb2) (View.ld x2 ri2) (View.ld prev rs2)⟩]

/-- The scratch after point `n`: the first point updates the reset scratch, every later one what the point before left. -/
def scratchAt2 (c : Dev nD) : (n : ℕ) → n < cfg2.N → Vec F S1024x64 .f32
  | 0, h => poolStep2 (iblk2 V c 0 ⟨0, h⟩) (iblk2 V c 1 ⟨0, h⟩) (iblk2 V c 2 ⟨0, h⟩) zeroAcc2
  | n + 1, h => poolStep2 (iblk2 V c 0 ⟨n + 1, h⟩) (iblk2 V c 1 ⟨n + 1, h⟩) (iblk2 V c 2 ⟨n + 1, h⟩) (scratchAt2 c n (Nat.lt_of_succ_lt h))

/-- What the output window's buffer holds after a point that copies the scratch out (the last one). -/
def outAt2 (c : Dev nD) (t : Fin cfg2.N) : Vec F S1024x64 .f32 :=
  View.canon [⟨rs2, View.ld (scratchAt2 V c t.val t.isLt) rs2⟩]

/-- The rectangles' offsets are zero. -/
theorem hz2 : (![0, 0] : Fin 2 → Nat) = fun _ => 0 := funext fun a => by fin_cases a <;> rfl

/-- The scratch after the first point: the update of the reset scratch. -/
theorem scratchAt2_first (c : Dev nD) (t : Fin cfg2.N) (h0 : t.val = 0) :
    scratchAt2 V c t.val t.isLt = poolStep2 (iblk2 V c 0 t) (iblk2 V c 1 t) (iblk2 V c 2 t) zeroAcc2 := by
  obtain ⟨n, hn⟩ := t
  cases n with
  | zero => rfl
  | succ n => exact absurd h0 (Nat.succ_ne_zero n)

/-- The scratch after a later point: the update of what the point before left. -/
theorem scratchAt2_pos (c : Dev nD) (t : Fin cfg2.N) (h0 : t.val ≠ 0) :
    scratchAt2 V c t.val t.isLt = poolStep2 (iblk2 V c 0 t) (iblk2 V c 1 t) (iblk2 V c 2 t)
      (scratchAt2 V c (t.val - 1) (Nat.lt_of_le_of_lt (Nat.sub_le _ _) t.isLt)) := by
  obtain ⟨n, hn⟩ := t
  cases n with
  | zero => exact absurd rfl h0
  | succ n => rfl

/-! ## The body's two branches, decided over the grid -/

/-- The first `scf.if`'s condition (the reset), from the grid coordinates. -/
abbrev cond2_0 (i : grid2.Coords) : Prop := (Scalar.cmpi .ne (Scalar.extui (Scalar.cmpi .eq (BitVec.ofNat 32 (i 0).val) 0#32)) 0#32) = 1#1
/-- The second one's (the copy out). -/
abbrev cond2_1 (i : grid2.Coords) : Prop := k2_cond2 i = 1#1

/-- The reset is taken at the first point only, -/
theorem hcond2_0 : ∀ t : Fin cfg2.N, cond2_0 (grid2.coords t) ↔ t.val = 0 :=
  (by decide +kernel : ∀ t : Fin grid2.N, cond2_0 (grid2.coords t) ↔ t.val = 0)
/-- the copy out at the last point only: decided over the fifty points. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last point the output window is idle: the body stores nothing into it, -/
theorem idleAt2_3 : ∀ t : Fin cfg2.N, ¬cond2_1 (grid2.coords t) → cfg2.idle 3 (grid2.coords t) = true := by decide +kernel
/-- and the pipeline does not write its block back. -/
theorem noFlush2_3 : ∀ t : Fin cfg2.N, ¬cond2_1 (grid2.coords t) → (cfg2.win 3).flush t = false := by decide +kernel
/-- At the last point it is live: the body copies the scratch into it. -/
theorem liveAt2_3 : ∀ t : Fin cfg2.N, cond2_1 (grid2.coords t) → cfg2.idle 3 (grid2.coords t) = false := by decide +kernel

/-! ## The body on any whole memrefs, case by case -/

/-- A store through the whole-buffer rectangle, last, covers the buffer whatever was stored before. -/
theorem headCovers2 (w : Vec F S1024x64 .f32) (L : List (View.Piece (Elt F) S1024x64 .f32)) (y : S1024x64.Idx) :
    ∃ pc ∈ ((⟨rs2, w⟩ : View.Piece (Elt F) S1024x64 .f32) :: L), y ∈ pc.1.set :=
  ⟨_, List.mem_cons_self .., View.mem_set_unit_zero (S := S1024x64) hz2 inb_S1024x64_S1024x64_0_0 y⟩

/-- Storing through the whole-buffer rectangle what a load through it reads of a buffer holding `w` leaves `w`. -/
theorem canon_ld_whole2 (w : Vec F S1024x64 .f32) :
    View.canon [⟨rs2, View.ld (View.canon [(⟨rs2, w⟩ : View.Piece (Elt F) S1024x64 .f32)]) rs2⟩] = View.canon [(⟨rs2, w⟩ : View.Piece (Elt F) S1024x64 .f32)] := by
  rw [View.canon_unit_zero (S := S1024x64) hz2 _ w, View.canon_unit_zero (S := S1024x64) hz2, View.ld_unit_zero (S := S1024x64) hz2]

set_option maxHeartbeats 1000000 in
/-- The body at the first point: the scratch, found at anything, is reset and then updated, so it is left at the pooled
    update of the reset scratch; the output window's buffer is not touched. -/
theorem run2_first (c : Dev nD) (E : Set ℕ) (i : grid2.Coords) (hc0 : cond2_0 i) (hc1 : ¬cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xi : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (poolStep2 x0 x1 x2 zeroAcc2)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (headCovers2 _ _), View.canon_cons_unit_zero (S := S1024x64) hz2,
    View.readCov_unit_zero (S := S1024x64) _ hz2]
  unfold poolStep2 zeroAcc2
  simp only [View.canon_unit_zero (S := S1024x64) hz2, View.ld_unit_zero (S := S1024x64) hz2]
  rfl
set_option maxHeartbeats 1000000 in
/-- The body at a point between the first and the last: no reset, no copy out. The scratch, found at `xs`, is left at
    the pooled update of `xs`; the output window's buffer is not touched. -/
theorem run2_mid (c : Dev nD) (E : Set ℕ) (i : grid2.Coords) (hc0 : ¬cond2_0 i) (hc1 : ¬cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xi : Vec F S1024x64 .f32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (poolStep2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (headCovers2 _ _)]
  rfl

set_option maxHeartbeats 1000000 in
/-- The body at the last point: no reset; after the update the scratch is copied into the output window's buffer,
    which held anything. -/
theorem run2_last (c : Dev nD) (E : Set ℕ) (i : grid2.Coords) (hc0 : ¬cond2_0 i) (hc1 : cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (View.canon [⟨rs2, View.ld (poolStep2 x0 x1 x2 xs) rs2⟩])
            ∗ owns (c : Thread nD τ) arg5 fullShare (poolStep2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (headCovers2 _ _), View.readCov_unit_zero (S := S1024x64) _ hz2]
    unfold poolStep2
    rw [canon_ld_whole2]
    rfl
  iexists _; isplitr
  swap; · iexact H5
  ipureintro
  sl_unfold_words
  rw [View.read_writes_eq_canon _ _ _ (headCovers2 _ _)]
  rfl

/-- A scoped buffer of the core, whole, at some contents. -/
abbrev heldSome2 (c : Dev nD) (b : Ref sig .tc) : sProp 𝕄 :=
  iprop(∃ f : Buf (Elt F) ((c : Thread nD τ).loc b), ((c : Thread nD τ).loc b) ↦{fullShare} f)

/-- The scoped buffers of the core that are neither a staging buffer of this region nor its scratch, each at some contents. -/
def othersScoped2 (c : Dev nD) : sProp 𝕄 :=
  iprop(heldSome2 (F := F) c cc0_stg0_0
    ∗ heldSome2 (F := F) c cc0_stg0_1
    ∗ heldSome2 (F := F) c cc0_stg1_0
    ∗ heldSome2 (F := F) c cc0_stg2_0
    ∗ heldSome2 (F := F) c cc0_stg2_1
    ∗ heldSome2 (F := F) c cc1_stg0_0
    ∗ heldSome2 (F := F) c cc1_stg0_1
    ∗ heldSome2 (F := F) c cc1_stg1_0
    ∗ heldSome2 (F := F) c cc1_stg2_0
    ∗ heldSome2 (F := F) c cc1_stg3_0
    ∗ heldSome2 (F := F) c cc1_stg3_1
    ∗ heldSome2 (F := F) c cc3_stg0_0
    ∗ heldSome2 (F := F) c cc3_stg1_0
    ∗ heldSome2 (F := F) c cc3_stg2_0
    ∗ heldSome2 (F := F) c cc3_stg3_0)

/-- What the region is entered with gives the scratch owned at some contents, the other fifteen scoped buffers and the
    generator register at some state: the sixteen scoped buffers listed, the scratch taken out of its place. -/
theorem PhiA2_split (c : Dev nD) :
    (Pipeline.ΦA spec2 c : sProp 𝕄)
      ⊢ iprop((∃ d, owns (c : Thread nD τ) scM2 fullShare d) ∗ othersScoped2 (F := F) c ∗ (∃ r, prngReg c r)) := by
  unfold Pipeline.ΦA; rw [scopedRest2_eq]; simp only [scM2, owns_whole]
  unfold othersScoped2 heldSome2
  iintro ⟨⟨A1, A2, A3, A4, A5, A6, A7, A8, A9, A10, A11, HS, B1, B2, B3, B4⟩, Hg⟩
  isplitl [HS]; · iexact HS
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [B1]; · iexact B1
  isplitl [B2]; · iexact B2
  isplitl [B3]; · iexact B3
  iexact B4

/-- And back: the scratch is put in its place again. -/
theorem PhiA2_join (c : Dev nD) :
    iprop((∃ d, owns (c : Thread nD τ) scM2 fullShare d) ∗ othersScoped2 (F := F) c ∗ (∃ r, prngReg c r))
      ⊢ (Pipeline.ΦA spec2 c : sProp 𝕄) := by
  unfold Pipeline.ΦA; rw [scopedRest2_eq]; simp only [scM2, owns_whole]
  unfold othersScoped2 heldSome2
  iintro ⟨HS, ⟨A1, A2, A3, A4, A5, A6, A7, A8, A9, A10, A11, B1, B2, B3, B4⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [HS]; · iexact HS
  isplitl [B1]; · iexact B1
  isplitl [B2]; · iexact B2
  isplitl [B3]; · iexact B3
  iexact B4

/-- So the two are one proposition. -/
theorem PhiA2_eq (c : Dev nD) :
    (Pipeline.ΦA spec2 c : sProp 𝕄)
      = iprop((∃ d, owns (c : Thread nD τ) scM2 fullShare d) ∗ othersScoped2 (F := F) c ∗ (∃ r, prngReg c r)) :=
  BI.equiv_iff.mp ⟨PhiA2_split c, PhiA2_join c⟩

/-- The region's invariant before position `n`: before the first point whatever the region is entered with; afterwards the
    scratch at what the point before left, the other scoped buffers at some contents, the generator register at some state. -/
def PhiS2 (c : Dev nD) : (n : ℕ) → n ≤ cfg2.N → sProp 𝕄
  | 0, _ => Pipeline.ΦA spec2 c
  | n + 1, hn => iprop(owns (c : Thread nD τ) scM2 fullShare (scratchAt2 V c n hn) ∗ othersScoped2 (F := F) c ∗ (∃ r, prngReg c r))

theorem PhiS2_zero (c : Dev nD) (n : ℕ) (h : n ≤ cfg2.N) (hz : n = 0) : PhiS2 V c n h = Pipeline.ΦA spec2 c := by
  subst hz; rfl

/-- After point `n`: the scratch at that point's contents. -/
theorem PhiS2_succ (c : Dev nD) (n : ℕ) (hn : n < cfg2.N) :
    PhiS2 V c (n + 1) hn = iprop(owns (c : Thread nD τ) scM2 fullShare (scratchAt2 V c n hn) ∗ othersScoped2 (F := F) c ∗ (∃ r, prngReg c r)) := rfl

/-- Before a point that is not the first: the scratch at what the point before left. -/
theorem PhiS2_pos (c : Dev nD) (n : ℕ) (h : n ≤ cfg2.N) (hz : n ≠ 0) :
    PhiS2 V c n h = iprop(owns (c : Thread nD τ) scM2 fullShare (scratchAt2 V c (n - 1) (by omega)) ∗ othersScoped2 (F := F) c ∗ (∃ r, prngReg c r)) := by
  cases n with
  | zero => exact absurd rfl hz
  | succ n => rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the output window's buffer as found where the window is idle. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point. The inputs' memrefs hold their blocks; the point's position says which branches are taken.
    At the first point the invariant hands the scratch over at anything and takes it back at the update of the reset
    scratch; at a later point it hands it over at what the point before left and takes it back at the update of that;
    at the last point the output window's buffer, live there, is left at the copy of the scratch, and before it the
    buffer is handed back as found. The other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [scratchAt2_first V c t h0]
    rw [PhiS2_castSucc V c t, PhiS2_zero V c _ _ h0, PhiA2_eq]
    iintro ⟨⟨HS, Hoth, Hg⟩, Ho, ⟨%d0, H0⟩, ⟨%d1, H1⟩, ⟨%d2, H2⟩, ⟨%d3, H3⟩⟩
    iapply (run2_first c Set.univ (grid2.coords t) hc0 hc1 _ _ _ _ _ _ _ _ _ _ (iblk2 V c 0 t) (iblk2 V c 1 t) (iblk2 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    rw [scratchAt2_pos V c t h0]
    rw [PhiS2_castSucc V c t, PhiS2_pos V c _ _ h0]
    by_cases h1 : t.val = 49
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      unfold outAt2
      rw [scratchAt2_pos V c t h0]
      iintro ⟨⟨HS, Hoth, Hg⟩, Ho, ⟨%d0, H0⟩, ⟨%d1, H1⟩, ⟨%d2, H2⟩, ⟨%d3, H3⟩⟩
      iapply (run2_last c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨HS, Hoth, Hg⟩, Ho, ⟨%d0, H0⟩, ⟨%d1, H1⟩, ⟨%d2, H2⟩, ⟨%d3, H3⟩⟩
      iapply (run2_mid c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region was entered with: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨HS, Hoth, Hg⟩
  isplitl [HS]; · iexists _; iexact HS
  isplitl [Hoth]; · iexact Hoth
  iexact Hg

end Cert.Kernel.Frame

end
-- ==== Proof.FrameKernel.Region3.lean ====
/-
  Region 3 of the kernel program: the classifier, one grid point holding the whole pooled means, the whole last weight
  matrix and the whole last bias. Stated at a parameter `V`, the buffers' contents when the region is entered. The body
  leaves in the output window's buffer the skeleton's payload of the three loaded arrays; the inputs' buffers keep
  their contents; the scoped rest and the generator register pass through untouched.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled means are in their staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- So are the weights, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and the bias. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: each buffer whole. -/
abbrev rg3 : Rect S1024x64 := Rect.unit (s := S1024x64) ![0, 0] S1024x64.size inb_S1024x64_S1024x64_0_0
abbrev rw3 : Rect S64x3 := Rect.unit (s := S64x3) ![0, 0] S64x3.size inb_S64x3_S64x3_0_0
abbrev rb3 : Rect S3 := Rect.unit (s := S3) ![0] S3.size inb_S3_S3_0
abbrev ro3 : Rect S1024x3 := Rect.unit (s := S1024x3) ![0, 0] S1024x3.size inb_S1024x3_S1024x3_0_0

/-- What the body leaves in the output window's buffer: its one store. -/
def out3_3 (x0 : Vec F S1024x64 .f32) (x1 : Vec F S64x3 .f32) (x2 : Vec F S3 .f32) : Vec F S1024x3 .f32 :=
  View.canon [⟨ro3, k3_pay1 (View.ld x0 rg3) (View.ld x1 rw3) (View.ld x2 rb3)⟩]

/-- The one store covers the buffer. -/
theorem cover3_3 (p0 : Vec F S1024x3 .f32) (y : S1024x3.Idx) :
    ∃ pc ∈ ([⟨ro3, p0⟩] : List (View.Piece (Elt F) S1024x3 .f32)), y ∈ pc.1.set :=
  View.cover_of_tiled [⟨ro3, p0⟩] S1024x3.size (by rfl) y

set_option maxHeartbeats 1000000 in
/-- The body on whole staging memrefs: the inputs' buffers at `x0`, `x1`, `x2` and the output's at anything run to the
    inputs' unchanged and the output's at `out3_3 x0 x1 x2`. -/
theorem sound_kernel3 (c : Dev nD) (E : Set ℕ) (i : grid3.Coords) (arg1 : Memref sig .tc .vmem S1024x64 .f32) (harg1 : arg1.IsWhole)
    (arg2 : Memref sig .tc .vmem S64x3 .f32) (harg2 : arg2.IsWhole) (arg3 : Memref sig .tc .vmem S3 .f32) (harg3 : arg3.IsWhole)
    (arg4 : Memref sig .tc .vmem S1024x3 .f32) (harg4 : arg4.IsWhole)
    (x0 : Vec F S1024x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_kernel i arg1 harg1 arg2 harg2 arg3 harg3 arg4 harg4) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at the point: the inputs' memrefs hold their arrays; the invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.FrameKernel.Fold.lean ====
/-
  The buffers' contents at every boundary between two items of the kernel program's main function, a fold from the
  launch memory: a stretch of host operations applies its operations; a region leaves its arrays at what its
  write-backs make of them and every other buffer as it found it. Each region's proof data are taken at the contents
  the region is entered with.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import proofs.«407529_j25701084299499_1_alg».proof.Proof.FrameKernel.Region0
import proofs.«407529_j25701084299499_1_alg».proof.Proof.FrameKernel.Region1
import proofs.«407529_j25701084299499_1_alg».proof.Proof.FrameKernel.Region2
import proofs.«407529_j25701084299499_1_alg».proof.Proof.FrameKernel.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
/-- The same read at the TensorCore's references (what the next region's proof data take). -/
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
/-- The same read at the TensorCore's references (what the next region's proof data take). -/
abbrev V3 : (c : Dev nD) → (b : Ref sig .tc) → Buf (Elt F) ((c : Thread nD τ).loc b) := fun c b => W3 m ρ c b

/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
/-- The same read at the TensorCore's references (what the next region's proof data take). -/
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
/-- The same read at the TensorCore's references (what the next region's proof data take). -/
abbrev V7 : (c : Dev nD) → (b : Ref sig .tc) → Buf (Elt F) ((c : Thread nD τ).loc b) := fun c b => W7 m ρ c b

/-- At region 3's exit: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.Frame

end
-- ==== Proof.FrameKernel.Run.lean ====
/-
  The kernel program's run: its main function as four stretches of host operations and four regions in turn, each
  region entered from every unscoped buffer at the boundary's contents and left at the next boundary's; every weakly
  fair execution terminates, and the final memory holds every unscoped buffer at the last boundary's contents. The
  argument arrays are read back through the fold to the launch memory: no host operation writes one, and a region
  stages one through an input window or leaves it alone.
-/
import proofs.«407529_j25701084299499_1_alg».proof.Proof.Gen.Kernel.Launch
import proofs.«407529_j25701084299499_1_alg».proof.Proof.Gen.Kernel.Skeleton
import proofs.«407529_j25701084299499_1_alg».proof.Proof.Gen.Kernel.Points
import proofs.«407529_j25701084299499_1_alg».proof.Proof.Gen.Kernel.Regions
import proofs.«407529_j25701084299499_1_alg».proof.Proof.FrameKernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## One step back through the fold

A stretch of host operations leaves every buffer outside the list of those it writes; a region leaves an input
window's array as it found it. -/

/-- The first stretch leaves a buffer it does not write. -/
theorem W1_kept (c : Dev nD) (r : Ref sig .tc) (h : r ∉ hostOps0_W) :
    W1 m ρ c (Proc.devRef .tc r) = W0 m ρ c (Proc.devRef .tc r) :=
  StableHlo.after_of_writes_sub hostOps0 _ hostOps0_writes h
/-- The second stretch leaves a buffer it does not write. -/
theorem W3_kept (c : Dev nD) (r : Ref sig .tc) (h : r ∉ hostOps1_W) :
    W3 m ρ c (Proc.devRef .tc r) = W2 m ρ c (Proc.devRef .tc r) :=
  StableHlo.after_of_writes_sub hostOps1 _ hostOps1_writes h
/-- The third stretch leaves a buffer it does not write. -/
theorem W5_kept (c : Dev nD) (r : Ref sig .tc) (h : r ∉ hostOps2_W) :
    W5 m ρ c (Proc.devRef .tc r) = W4 m ρ c (Proc.devRef .tc r) :=
  StableHlo.after_of_writes_sub hostOps2 _ hostOps2_writes h
/-- The fourth stretch leaves a buffer it does not write. -/
theorem W7_kept (c : Dev nD) (r : Ref sig .tc) (h : r ∉ hostOps3_W) :
    W7 m ρ c (Proc.devRef .tc r) = W6 m ρ c (Proc.devRef .tc r) :=
  StableHlo.after_of_writes_sub hostOps3 _ hostOps3_writes h

/-- The feature transform leaves an input window's array as entered. -/
theorem W2_input (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The first layer's bias, rectifier and second transform leave an input window's array as entered. -/
theorem W4_input (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- The pooling region leaves an input window's array as entered. -/
theorem W6_input (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- The classifier leaves an input window's array as entered. -/
theorem W8_input (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments end as launched

The node features and the first weight are the feature transform's two input windows; the first bias and the second
weight are input windows of region 1; the second bias is one of the pooling region; the classifier's weight and bias
are input windows of region 3. The edge index array and the graph ids are read by host operations only: the pooling
region stages a reshaped copy of the ids, not the argument. -/

/-- Argument 0 reaches the end as launched. -/
theorem W8_main_arg0 (c : Dev nD) : W8 m ρ c (Proc.devRef .tc main_arg0) = m ((c : Thread nD τ).loc main_arg0) :=
  (W8_of_ne m ρ c main_arg0 (by decide)).trans <| (W7_kept m ρ c main_arg0 (by decide)).trans <|
  (W6_of_ne m ρ c main_arg0 (by decide)).trans <| (W5_kept m ρ c main_arg0 (by decide)).trans <|
  (W4_of_ne m ρ c main_arg0 (by decide)).trans <| (W3_kept m ρ c main_arg0 (by decide)).trans <|
  (W2_input m ρ c 0 rfl).trans <| (W1_kept m ρ c main_arg0 (by decide)).trans rfl
/-- Argument 1 reaches the end as launched. -/
theorem W8_main_arg1 (c : Dev nD) : W8 m ρ c (Proc.devRef .tc main_arg1) = m ((c : Thread nD τ).loc main_arg1) :=
  (W8_of_ne m ρ c main_arg1 (by decide)).trans <| (W7_kept m ρ c main_arg1 (by decide)).trans <|
  (W6_of_ne m ρ c main_arg1 (by decide)).trans <| (W5_kept m ρ c main_arg1 (by decide)).trans <|
  (W4_of_ne m ρ c main_arg1 (by decide)).trans <| (W3_kept m ρ c main_arg1 (by decide)).trans <|
  (W2_input m ρ c 1 rfl).trans <| (W1_kept m ρ c main_arg1 (by decide)).trans rfl
/-- Argument 2 reaches the end as launched. -/
theorem W8_main_arg2 (c : Dev nD) : W8 m ρ c (Proc.devRef .tc main_arg2) = m ((c : Thread nD τ).loc main_arg2) :=
  (W8_of_ne m ρ c main_arg2 (by decide)).trans <| (W7_kept m ρ c main_arg2 (by decide)).trans <|
  (W6_of_ne m ρ c main_arg2 (by decide)).trans <| (W5_kept m ρ c main_arg2 (by decide)).trans <|
  (W4_input m ρ c 1 rfl).trans <| (W3_kept m ρ c main_arg2 (by decide)).trans <|
  (W2_of_ne m ρ c main_arg2 (by decide)).trans <| (W1_kept m ρ c main_arg2 (by decide)).trans rfl
/-- Argument 3 reaches the end as launched. -/
theorem W8_main_arg3 (c : Dev nD) : W8 m ρ c (Proc.devRef .tc main_arg3) = m ((c : Thread nD τ).loc main_arg3) :=
  (W8_of_ne m ρ c main_arg3 (by decide)).trans <| (W7_kept m ρ c main_arg3 (by decide)).trans <|
  (W6_of_ne m ρ c main_arg3 (by decide)).trans <| (W5_kept m ρ c main_arg3 (by decide)).trans <|
  (W4_input m ρ c 2 rfl).trans <| (W3_kept m ρ c main_arg3 (by decide)).trans <|
  (W2_of_ne m ρ c main_arg3 (by decide)).trans <| (W1_kept m ρ c main_arg3 (by decide)).trans rfl
/-- Argument 4 reaches the end as launched. -/
theorem W8_main_arg4 (c : Dev nD) : W8 m ρ c (Proc.devRef .tc main_arg4) = m ((c : Thread nD τ).loc main_arg4) :=
  (W8_of_ne m ρ c main_arg4 (by decide)).trans <| (W7_kept m ρ c main_arg4 (by decide)).trans <|
  (W6_input m ρ c 1 rfl).trans <| (W5_kept m ρ c main_arg4 (by decide)).trans <|
  (W4_of_ne m ρ c main_arg4 (by decide)).trans <| (W3_kept m ρ c main_arg4 (by decide)).trans <|
  (W2_of_ne m ρ c main_arg4 (by decide)).trans <| (W1_kept m ρ c main_arg4 (by decide)).trans rfl
/-- Argument 5 reaches the end as launched. -/
theorem W8_main_arg5 (c : Dev nD) : W8 m ρ c (Proc.devRef .tc main_arg5) = m ((c : Thread nD τ).loc main_arg5) :=
  (W8_input m ρ c 1 rfl).trans <| (W7_kept m ρ c main_arg5 (by decide)).trans <|
  (W6_of_ne m ρ c main_arg5 (by decide)).trans <| (W5_kept m ρ c main_arg5 (by decide)).trans <|
  (W4_of_ne m ρ c main_arg5 (by decide)).trans <| (W3_kept m ρ c main_arg5 (by decide)).trans <|
  (W2_of_ne m ρ c main_arg5 (by decide)).trans <| (W1_kept m ρ c main_arg5 (by decide)).trans rfl
/-- Argument 6 reaches the end as launched. -/
theorem W8_main_arg6 (c : Dev nD) : W8 m ρ c (Proc.devRef .tc main_arg6) = m ((c : Thread nD τ).loc main_arg6) :=
  (W8_input m ρ c 2 rfl).trans <| (W7_kept m ρ c main_arg6 (by decide)).trans <|
  (W6_of_ne m ρ c main_arg6 (by decide)).trans <| (W5_kept m ρ c main_arg6 (by decide)).trans <|
  (W4_of_ne m ρ c main_arg6 (by decide)).trans <| (W3_kept m ρ c main_arg6 (by decide)).trans <|
  (W2_of_ne m ρ c main_arg6 (by decide)).trans <| (W1_kept m ρ c main_arg6 (by decide)).trans rfl
/-- Argument 7 reaches the end as launched. -/
theorem W8_main_arg7 (c : Dev nD) : W8 m ρ c (Proc.devRef .tc main_arg7) = m ((c : Thread nD τ).loc main_arg7) :=
  (W8_of_ne m ρ c main_arg7 (by decide)).trans <| (W7_kept m ρ c main_arg7 (by decide)).trans <|
  (W6_of_ne m ρ c main_arg7 (by decide)).trans <| (W5_kept m ρ c main_arg7 (by decide)).trans <|
  (W4_of_ne m ρ c main_arg7 (by decide)).trans <| (W3_kept m ρ c main_arg7 (by decide)).trans <|
  (W2_of_ne m ρ c main_arg7 (by decide)).trans <| (W1_kept m ρ c main_arg7 (by decide)).trans rfl
/-- Argument 8 reaches the end as launched. -/
theorem W8_main_arg8 (c : Dev nD) : W8 m ρ c (Proc.devRef .tc main_arg8) = m ((c : Thread nD τ).loc main_arg8) :=
  (W8_of_ne m ρ c main_arg8 (by decide)).trans <| (W7_kept m ρ c main_arg8 (by decide)).trans <|
  (W6_of_ne m ρ c main_arg8 (by decide)).trans <| (W5_kept m ρ c main_arg8 (by decide)).trans <|
  (W4_of_ne m ρ c main_arg8 (by decide)).trans <| (W3_kept m ρ c main_arg8 (by decide)).trans <|
  (W2_of_ne m ρ c main_arg8 (by decide)).trans <| (W1_kept m ρ c main_arg8 (by decide)).trans rfl

/-! ## The four pipelines' proof data, and what a core holds between two items -/

/-- Every pipeline's proof data, each taken at the contents its region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

/-- No body runs under a variant. -/
abbrev 𝒱₀ : Variants := Variants.none
/-- No core owes another anything, so no pair of cores is given a level. -/
abbrev L : GSem nD τ sig → Finset Unit := fun _ => ∅
abbrev lv : GSem nD τ sig → Unit → ℕ := fun _ _ => 0

/-- Beside its buffers a core carries its generator register at some state and the record that it owes nothing. -/
abbrev carried (c : Dev nD) : sProp 𝕄 :=
  iprop((∃ r, prngReg c r) ∗ ∃ W, owes (c : Thread nD τ) (0 : CellTallies nD τ sig Unit) W)

/-- A stretch of host operations run from every unscoped buffer at the contents `W`: it ends with those buffers at
    what the operations make of `W`, the core carrying what it carried. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-- After the classifier: every unscoped buffer at the last boundary's contents, the generator register at some state. -/
abbrev atEnd (c : Dev nD) : sProp 𝕄 :=
  iprop(StableHlo.held (c : Thread nD τ) (Pipeline.ucRefs τ sig) (W8 m ρ c) ∗ ∃ r, prngReg c r)

/-! ## The regions

Each region is entered from every unscoped buffer at the boundary's contents. Its windows' arrays are taken out of
those buffers at the contents the proof data name, the rest bypassing the region; the generator register goes into the
region's invariant with the scoped buffers and comes back out of it; nothing is owed at either end and the kernel has
no semaphore of its own. At the exit the arrays, at what the write-backs left, go back beside the bypassing rest: every
unscoped buffer at the next boundary's contents. -/

-- a library lemma stated over a pinned configuration meets the printed one only if unification may unfold plain
-- definitions inside a metavariable's type
set_option backward.isDefEq.respectTransparency.types false in
/-- The feature transform: entered at `W1`, left at `W2`. -/
def transformSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ carried c)
  post c := iprop(StableHlo.held (c : Thread nD τ) (Pipeline.ucRefs τ sig) (W2 m ρ c) ∗ carried c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have htake := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 0 c).Φ 0 = Pipeline.ΦA spec0 c from rfl]
    unfold Pipeline.ΦA
    iintro ⟨Hgen, -, Hscoped⟩
    isplitl [Hscoped]; · iexact Hscoped
    iexact Hgen
  hout c := by
    rw [Pipeline.ownSems0_none, show (pdats m ρ 0 c).Φ (Fin.last _) = Pipeline.ΦA spec0 c from rfl]
    unfold Pipeline.ΦA
    iintro ⟨Hscoped, Hgen⟩
    isplitl [Hgen]; · iexact Hgen
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The first layer's bias and rectifier with the second transform: entered at `W3`, left at `W4`. -/
def layerSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ carried c)
  post c := iprop(StableHlo.held (c : Thread nD τ) (Pipeline.ucRefs τ sig) (W4 m ρ c) ∗ carried c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have htake := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 1 c).Φ 0 = Pipeline.ΦA spec1 c from rfl]
    unfold Pipeline.ΦA
    iintro ⟨Hgen, -, Hscoped⟩
    isplitl [Hscoped]; · iexact Hscoped
    iexact Hgen
  hout c := by
    rw [Pipeline.ownSems0_none, show (pdats m ρ 1 c).Φ (Fin.last _) = Pipeline.ΦA spec1 c from rfl]
    unfold Pipeline.ΦA
    iintro ⟨Hscoped, Hgen⟩
    isplitl [Hgen]; · iexact Hgen
    isplitr; · iempintro
    iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The second layer's bias and rectifier with the sum of node rows per graph: entered at `W5`, left at `W6`. Its
    invariant is the class invariant only before the first point; afterwards it also holds the kernel's scratch, which the
    region's own two facts take in at the first point and let go after the last. -/
def poolSeg : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ carried c)
  post c := iprop(StableHlo.held (c : Thread nD τ) (Pipeline.ucRefs τ sig) (W6 m ρ c) ∗ carried c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have htake := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 2 c).Φ 0 = (dat2 (V5 m ρ) c).Φ 0 from rfl]
    have hfirst := hin2 (V5 m ρ) c
    refine .trans ?_ hfirst
    unfold Pipeline.ΦA
    iintro ⟨Hgen, -, Hscoped⟩
    isplitl [Hscoped]; · iexact Hscoped
    iexact Hgen
  hout c := by
    rw [Pipeline.ownSems0_none, show (pdats m ρ 2 c).Φ (Fin.last _) = (dat2 (V5 m ρ) c).Φ (Fin.last cfg2.N) from rfl]
    have hlast := hout2 (V5 m ρ) c
    refine hlast.trans ?_
    unfold Pipeline.ΦA
    iintro ⟨Hscoped, Hgen⟩
    isplitl [Hgen]; · iexact Hgen
    isplitr; · iempintro
    iexact Hscoped
  hexit c := by
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The classifier: entered at `W7`, left at `W8`, where the main function returns: the core owing nothing is set
    beside the buffers and the generator register, as the launch reads the end. -/
def classifySeg : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ carried c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have htake := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 3 c).Φ 0 = Pipeline.ΦA spec3 c from rfl]
    unfold Pipeline.ΦA
    iintro ⟨Hgen, -, Hscoped⟩
    isplitl [Hscoped]; · iexact Hscoped
    iexact Hgen
  hout c := by
    rw [Pipeline.ownSems0_none, show (pdats m ρ 3 c).Φ (Fin.last _) = Pipeline.ΦA spec3 c from rfl]
    unfold Pipeline.ΦA
    iintro ⟨Hscoped, Hgen⟩
    isplitl [Hgen]; · iexact Hgen
    isplitr; · iempintro
    iexact Hscoped
  hexit c := by
    have hback := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hback
    iintro ⟨Harr, Howes, Hgen, Hrest⟩
    imodintro
    isplitl [Harr Hrest Hgen]
    · isplitl [Harr Hrest]
      · iapply hback; isplitl [Harr] <;> iassumption
      iexact Hgen
    unfold Pipeline.Dat.owesAt Pipeline.owesWithin
    icases Howes with ⟨%Wt, -, Howes⟩
    iexists Wt
    iexact Howes

/-! ## The main function as eight items, and the launch -/

/-- The main function's eight items in order: each stretch of host operations from the contents at its boundary, each
    kernel call as its region. -/
abbrev items : List (Pipeline.Seg (pcfgs (F := F)) adm (pdats m ρ) () defs₀ 𝒱₀ L lv) :=
  [ .host (stretch hostOps0 hostOps0_sub hostOps0_fresh (W0 m ρ)),
    .region (transformSeg m ρ),
    .host (stretch hostOps1 hostOps1_sub hostOps1_fresh (W2 m ρ)),
    .region (layerSeg m ρ),
    .host (stretch hostOps2 hostOps2_sub hostOps2_fresh (W4 m ρ)),
    .region (poolSeg m ρ),
    .host (stretch hostOps3 hostOps3_sub hostOps3_fresh (W6 m ρ)),
    .region (classifySeg m ρ) ]

-- the launch theorem's implicit arguments are found by unifying its conclusion with this statement, which takes
-- unfolding plain definitions inside a metavariable's type
set_option backward.isDefEq.respectTransparency.types false in
/-- THE RUN: from any memory with zero counters every weakly fair execution of the main function terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (items m ρ)
    (fun c Q => by
      -- the main function is the chain of its items' programs, and so is the run of the item list
      rewrite [main_chain c, Pipeline.Seg.run_eq_chain,
        show (items m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource is left to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ carried c)) (Tₙ := atEnd m ρ)
    -- each item is entered from exactly what the one before it left
    (hch := ⟨fun _ => .rfl, fun _ => .rfl, fun _ => .rfl, fun _ => .rfl, fun _ => .rfl, fun _ => .rfl, fun _ => .rfl,
      fun _ => .rfl, fun _ => .rfl⟩)
    (hinit := by
      -- what the launch deals a core: its unscoped buffers at the launch memory, its generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W8 m ρ c b)
    (hfin := fun c s' => by
      -- buffers held at the last boundary's contents, read against the final state
      iintro ⟨⟨Hbufs, -⟩, HSI⟩
      unfold StableHlo.held
      imodintro
      iapply (pointsTo_read_all (Pipeline.ucRefs τ sig) (fun b => (((c : Thread nD τ)).1, b)) (W8 m ρ c) s')
      isplitl [Hbufs] <;> iassumption)
    (hQ := fun _ h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩) (run_all m ρ)

end Cert.Kernel.Frame

end
-- ==== Proof.FrameKernelIdeal.Region0.lean ====
/-
  Region 0 of the kernel program: the first feature transform, one block of 5000 rows of the node features times the
  whole first weight matrix per grid point. Stated at a parameter `V`, the buffers' contents when the region is
  entered: a window's block at a point is read off its array; the body leaves in the output window's buffer the
  product of the row block and the weights (the skeleton's payload); the proof data keep the inputs' buffers at their
  blocks, name the output's by that product, and carry the scoped rest and the generator register untouched.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights, fetched once, are in their staging buffer at every point: the block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each buffer whole. -/
abbrev rx0 : Rect S5000x256 := Rect.unit (s := S5000x256) ![0, 0] S5000x256.size inb_S5000x256_S5000x256_0_0
abbrev rw0 : Rect S256x64 := Rect.unit (s := S256x64) ![0, 0] S256x64.size inb_S256x64_S256x64_0_0
abbrev ro0 : Rect S5000x64 := Rect.unit (s := S5000x64) ![0, 0] S5000x64.size inb_S5000x64_S5000x64_0_0

/-- What the body leaves in the output window's buffer: its one store, the product of the loaded row block and weights. -/
def out0_2 (x0 : Vec F S5000x256 .f32) (x1 : Vec F S256x64 .f32) : Vec F S5000x64 .f32 :=
  View.canon [⟨ro0, k0_pay1 (View.ld x0 rx0) (View.ld x1 rw0)⟩]

/-- The one store covers the buffer. -/
theorem cover0_2 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs: the inputs' buffers at `x0`, `x1` and the output's at anything run to the inputs'
    unchanged and the output's at `out0_2 x0 x1`. -/
theorem sound_kernel0 (c : Dev nD) (E : Set ℕ) (i : grid0.Coords) (arg1 : Memref sig .tc .vmem S5000x256 .f32) (harg1 : arg1.IsWhole)
    (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameKernelIdeal.Region1.lean ====
/-
  Region 1 of the kernel program: bias, rectifier and the second feature transform, one block of 5000 rows of the
  first aggregation per grid point, with the whole first bias and the whole second weight matrix. Stated at a
  parameter `V`, the buffers' contents when the region is entered. The body leaves in the output window's buffer
  the skeleton's payload of the three loaded blocks; the inputs' buffers keep their blocks; the scoped rest and the
  generator register pass through untouched.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregation is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias, fetched once, is in its staging buffer at every point: the block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- So are the weights. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each buffer whole. -/
abbrev rx1 : Rect S5000x64 := Rect.unit (s := S5000x64) ![0, 0] S5000x64.size inb_S5000x64_S5000x64_0_0
abbrev rb1 : Rect S64 := Rect.unit (s := S64) ![0] S64.size inb_S64_S64_0
abbrev rw1 : Rect S64x64 := Rect.unit (s := S64x64) ![0, 0] S64x64.size inb_S64x64_S64x64_0_0

/-- What the body leaves in the output window's buffer: its one store. -/
def out1_3 (x0 : Vec F S5000x64 .f32) (x1 : Vec F S64 .f32) (x2 : Vec F S64x64 .f32) : Vec F S5000x64 .f32 :=
  View.canon [⟨rx1, k1_pay1 (View.ld x0 rx1) (View.ld x1 rb1) (View.ld x2 rw1)⟩]

/-- The one store covers the buffer. -/
theorem cover1_3 (p0 : Vec F S5000x64 .f32) (y : S5000x64.Idx) :
    ∃ pc ∈ ([⟨rx1, p0⟩] : List (View.Piece (Elt F) S5000x64 .f32)), y ∈ pc.1.set :=
  View.cover_of_tiled [⟨rx1, p0⟩] S5000x64.size (by rfl) y

set_option maxHeartbeats 1000000 in
/-- The body on whole staging memrefs: the inputs' buffers at `x0`, `x1`, `x2` and the output's at anything run to the
    inputs' unchanged and the output's at `out1_3 x0 x1 x2`. -/
theorem sound_kernel1 (c : Dev nD) (E : Set ℕ) (i : grid1.Coords) (arg1 : Memref sig .tc .vmem S5000x64 .f32) (harg1 : arg1.IsWhole)
    (arg2 : Memref sig .tc .vmem S64 .f32) (harg2 : arg2.IsWhole) (arg3 : Memref sig .tc .vmem S64x64 .f32) (harg3 : arg3.IsWhole)
    (arg4 : Memref sig .tc .vmem S5000x64 .f32) (harg4 : arg4.IsWhole)
    (x0 : Vec F S5000x64 .f32) (x1 : Vec F S64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.FrameKernelIdeal.Region2.lean ====
/-
  Region 2 of the kernel program: bias, rectifier and the sum of node rows per graph, fifty grid points of 2000 node
  rows each. A scratch buffer of one row per graph is set to zero at the first point, gains at every point the
  one-hot matrix of the point's graph ids (transposed) times the point's rectified rows, and is copied to the output
  window at the last point, the only one at which that window is written back. Stated at a parameter `V`, the
  buffers' contents when the region is entered.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The point's block of node rows is in its staging buffer at every point: the window is never idle and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (by decide +kernel) (fun _ _ _ => rfl) (fun t => by rw [hafter]; unfold Dat.blockOf iblk2; rw [hA]; try rfl) t d).trans
    (by unfold Dat.fetched Dat.blockOf iblk2; rw [hA]; try rfl)

/-- The bias, fetched at the first point only, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (by decide +kernel) (fun _ _ _ => rfl) (fun t => by rw [hafter]; unfold Dat.blockOf iblk2; rw [hA]; try rfl) t d).trans
    (by unfold Dat.fetched Dat.blockOf iblk2; rw [hA]; try rfl)

/-- The point's block of graph ids is in its staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (by decide +kernel) (fun _ _ _ => rfl) (fun t => by rw [hafter]; unfold Dat.blockOf iblk2; rw [hA]; try rfl) t d).trans
    (by unfold Dat.fetched Dat.blockOf iblk2; rw [hA]; try rfl)

/-- The body's rectangles: each buffer whole. -/
abbrev rx2 : Rect S2000x64 := Rect.unit (s := S2000x64) ![0, 0] S2000x64.size inb_S2000x64_S2000x64_0_0
abbrev rb2 : Rect S64 := Rect.unit (s := S64) ![0] S64.size inb_S64_S64_0
abbrev ri2 : Rect S2000x1 := Rect.unit (s := S2000x1) ![0, 0] S2000x1.size inb_S2000x1_S2000x1_0_0
abbrev rs2 : Rect S1024x64 := Rect.unit (s := S1024x64) ![0, 0] S1024x64.size inb_S1024x64_S1024x64_0_0

/-- The scratch operand, a whole scoped buffer of the kernel's own. -/
abbrev scM2 : Memref sig .tc .vmem S1024x64 .f32 := Memref.whole cc2_scratch0

/-- The scratch right after the first point's reset. -/
def zeroAcc2 : Vec F S1024x64 .f32 := View.canon [⟨rs2, k2_pay1 (F := F)⟩]

/-- The scratch after a point's update, from the point's three input blocks and the scratch before the update. -/
def poolStep2 (x0 : Vec F S2000x64 .f32) (x1 : Vec F S64 .f32) (x2 : Vec F S2000x1 .i32) (prev : Vec F S1024x64 .f32) : Vec F S1024x64 .f32 :=
  View.canon [⟨rs2, k2_pay2 (View.ld x0 rx2) (View.ld x1 rb2) (View.ld x2 ri2) (View.ld prev rs2)⟩]

/-- The scratch after point `n`: the first point updates the reset scratch, every later one what the point before left. -/
def scratchAt2 (c : Dev nD) : (n : ℕ) → n < cfg2.N → Vec F S1024x64 .f32
  | 0, h => poolStep2 (iblk2 V c 0 ⟨0, h⟩) (iblk2 V c 1 ⟨0, h⟩) (iblk2 V c 2 ⟨0, h⟩) zeroAcc2
  | n + 1, h => poolStep2 (iblk2 V c 0 ⟨n + 1, h⟩) (iblk2 V c 1 ⟨n + 1, h⟩) (iblk2 V c 2 ⟨n + 1, h⟩) (scratchAt2 c n (Nat.lt_of_succ_lt h))

/-- What the output window's buffer holds after a point that copies the scratch out (the last one). -/
def outAt2 (c : Dev nD) (t : Fin cfg2.N) : Vec F S1024x64 .f32 :=
  View.canon [⟨rs2, View.ld (scratchAt2 V c t.val t.isLt) rs2⟩]

/-- The rectangles' offsets are zero. -/
theorem hz2 : (![0, 0] : Fin 2 → Nat) = fun _ => 0 := funext fun a => by fin_cases a <;> rfl

/-- The scratch after the first point: the update of the reset scratch. -/
theorem scratchAt2_first (c : Dev nD) (t : Fin cfg2.N) (h0 : t.val = 0) :
    scratchAt2 V c t.val t.isLt = poolStep2 (iblk2 V c 0 t) (iblk2 V c 1 t) (iblk2 V c 2 t) zeroAcc2 := by
  obtain ⟨n, hn⟩ := t
  cases n with
  | zero => rfl
  | succ n => exact absurd h0 (Nat.succ_ne_zero n)

/-- The scratch after a later point: the update of what the point before left. -/
theorem scratchAt2_pos (c : Dev nD) (t : Fin cfg2.N) (h0 : t.val ≠ 0) :
    scratchAt2 V c t.val t.isLt = poolStep2 (iblk2 V c 0 t) (iblk2 V c 1 t) (iblk2 V c 2 t)
      (scratchAt2 V c (t.val - 1) (Nat.lt_of_le_of_lt (Nat.sub_le _ _) t.isLt)) := by
  obtain ⟨n, hn⟩ := t
  cases n with
  | zero => exact absurd rfl h0
  | succ n => rfl

/-! ## The body's two branches, decided over the grid -/

/-- The first `scf.if`'s condition (the reset), from the grid coordinates. -/
abbrev cond2_0 (i : grid2.Coords) : Prop := (Scalar.cmpi .ne (Scalar.extui (Scalar.cmpi .eq (BitVec.ofNat 32 (i 0).val) 0#32)) 0#32) = 1#1
/-- The second one's (the copy out). -/
abbrev cond2_1 (i : grid2.Coords) : Prop := k2_cond2 i = 1#1

/-- The reset is taken at the first point only, -/
theorem hcond2_0 : ∀ t : Fin cfg2.N, cond2_0 (grid2.coords t) ↔ t.val = 0 :=
  (by decide +kernel : ∀ t : Fin grid2.N, cond2_0 (grid2.coords t) ↔ t.val = 0)
/-- the copy out at the last point only: decided over the fifty points. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last point the output window is idle: the body stores nothing into it, -/
theorem idleAt2_3 : ∀ t : Fin cfg2.N, ¬cond2_1 (grid2.coords t) → cfg2.idle 3 (grid2.coords t) = true := by decide +kernel
/-- and the pipeline does not write its block back. -/
theorem noFlush2_3 : ∀ t : Fin cfg2.N, ¬cond2_1 (grid2.coords t) → (cfg2.win 3).flush t = false := by decide +kernel
/-- At the last point it is live: the body copies the scratch into it. -/
theorem liveAt2_3 : ∀ t : Fin cfg2.N, cond2_1 (grid2.coords t) → cfg2.idle 3 (grid2.coords t) = false := by decide +kernel

/-! ## The body on any whole memrefs, case by case -/

/-- A store through the whole-buffer rectangle, last, covers the buffer whatever was stored before. -/
theorem headCovers2 (w : Vec F S1024x64 .f32) (L : List (View.Piece (Elt F) S1024x64 .f32)) (y : S1024x64.Idx) :
    ∃ pc ∈ ((⟨rs2, w⟩ : View.Piece (Elt F) S1024x64 .f32) :: L), y ∈ pc.1.set :=
  ⟨_, List.mem_cons_self .., View.mem_set_unit_zero (S := S1024x64) hz2 inb_S1024x64_S1024x64_0_0 y⟩

/-- Storing through the whole-buffer rectangle what a load through it reads of a buffer holding `w` leaves `w`. -/
theorem canon_ld_whole2 (w : Vec F S1024x64 .f32) :
    View.canon [⟨rs2, View.ld (View.canon [(⟨rs2, w⟩ : View.Piece (Elt F) S1024x64 .f32)]) rs2⟩] = View.canon [(⟨rs2, w⟩ : View.Piece (Elt F) S1024x64 .f32)] := by
  rw [View.canon_unit_zero (S := S1024x64) hz2 _ w, View.canon_unit_zero (S := S1024x64) hz2, View.ld_unit_zero (S := S1024x64) hz2]

set_option maxHeartbeats 1000000 in
/-- The body at the first point: the scratch, found at anything, is reset and then updated, so it is left at the pooled
    update of the reset scratch; the output window's buffer is not touched. -/
theorem run2_first (c : Dev nD) (E : Set ℕ) (i : grid2.Coords) (hc0 : cond2_0 i) (hc1 : ¬cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xi : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (poolStep2 x0 x1 x2 zeroAcc2)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (headCovers2 _ _), View.canon_cons_unit_zero (S := S1024x64) hz2,
    View.readCov_unit_zero (S := S1024x64) _ hz2]
  unfold poolStep2 zeroAcc2
  simp only [View.canon_unit_zero (S := S1024x64) hz2, View.ld_unit_zero (S := S1024x64) hz2]
  rfl
set_option maxHeartbeats 1000000 in
/-- The body at a point between the first and the last: no reset, no copy out. The scratch, found at `xs`, is left at
    the pooled update of `xs`; the output window's buffer is not touched. -/
theorem run2_mid (c : Dev nD) (E : Set ℕ) (i : grid2.Coords) (hc0 : ¬cond2_0 i) (hc1 : ¬cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xi : Vec F S1024x64 .f32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (poolStep2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (headCovers2 _ _)]
  rfl

set_option maxHeartbeats 1000000 in
/-- The body at the last point: no reset; after the update the scratch is copied into the output window's buffer,
    which held anything. -/
theorem run2_last (c : Dev nD) (E : Set ℕ) (i : grid2.Coords) (hc0 : ¬cond2_0 i) (hc1 : cond2_1 i)
    (arg1 : Memref sig .tc .vmem S2000x64 .f32) (harg1 : arg1.IsWhole) (arg2 : Memref sig .tc .vmem S64 .f32) (harg2 : arg2.IsWhole)
    (arg3 : Memref sig .tc .vmem S2000x1 .i32) (harg3 : arg3.IsWhole) (arg4 : Memref sig .tc .vmem S1024x64 .f32) (harg4 : arg4.IsWhole)
    (arg5 : Memref sig .tc .vmem S1024x64 .f32) (harg5 : arg5.IsWhole)
    (x0 : Vec F S2000x64 .f32) (x1 : Vec F S64 .f32) (x2 : Vec F S2000x1 .i32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (View.canon [⟨rs2, View.ld (poolStep2 x0 x1 x2 xs) rs2⟩])
            ∗ owns (c : Thread nD τ) arg5 fullShare (poolStep2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (headCovers2 _ _), View.readCov_unit_zero (S := S1024x64) _ hz2]
    unfold poolStep2
    rw [canon_ld_whole2]
    rfl
  iexists _; isplitr
  swap; · iexact H5
  ipureintro
  sl_unfold_words
  rw [View.read_writes_eq_canon _ _ _ (headCovers2 _ _)]
  rfl

/-- A scoped buffer of the core, whole, at some contents. -/
abbrev heldSome2 (c : Dev nD) (b : Ref sig .tc) : sProp 𝕄 :=
  iprop(∃ f : Buf (Elt F) ((c : Thread nD τ).loc b), ((c : Thread nD τ).loc b) ↦{fullShare} f)

/-- The scoped buffers of the core that are neither a staging buffer of this region nor its scratch, each at some contents. -/
def othersScoped2 (c : Dev nD) : sProp 𝕄 :=
  iprop(heldSome2 (F := F) c cc0_stg0_0
    ∗ heldSome2 (F := F) c cc0_stg0_1
    ∗ heldSome2 (F := F) c cc0_stg1_0
    ∗ heldSome2 (F := F) c cc0_stg2_0
    ∗ heldSome2 (F := F) c cc0_stg2_1
    ∗ heldSome2 (F := F) c cc1_stg0_0
    ∗ heldSome2 (F := F) c cc1_stg0_1
    ∗ heldSome2 (F := F) c cc1_stg1_0
    ∗ heldSome2 (F := F) c cc1_stg2_0
    ∗ heldSome2 (F := F) c cc1_stg3_0
    ∗ heldSome2 (F := F) c cc1_stg3_1
    ∗ heldSome2 (F := F) c cc3_stg0_0
    ∗ heldSome2 (F := F) c cc3_stg1_0
    ∗ heldSome2 (F := F) c cc3_stg2_0
    ∗ heldSome2 (F := F) c cc3_stg3_0)

/-- What the region is entered with gives the scratch owned at some contents, the other fifteen scoped buffers and the
    generator register at some state: the sixteen scoped buffers listed, the scratch taken out of its place. -/
theorem PhiA2_split (c : Dev nD) :
    (Pipeline.ΦA spec2 c : sProp 𝕄)
      ⊢ iprop((∃ d, owns (c : Thread nD τ) scM2 fullShare d) ∗ othersScoped2 (F := F) c ∗ (∃ r, prngReg c r)) := by
  unfold Pipeline.ΦA; rw [scopedRest2_eq]; simp only [scM2, owns_whole]
  unfold othersScoped2 heldSome2
  iintro ⟨⟨A1, A2, A3, A4, A5, A6, A7, A8, A9, A10, A11, HS, B1, B2, B3, B4⟩, Hg⟩
  isplitl [HS]; · iexact HS
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [B1]; · iexact B1
  isplitl [B2]; · iexact B2
  isplitl [B3]; · iexact B3
  iexact B4

/-- And back: the scratch is put in its place again. -/
theorem PhiA2_join (c : Dev nD) :
    iprop((∃ d, owns (c : Thread nD τ) scM2 fullShare d) ∗ othersScoped2 (F := F) c ∗ (∃ r, prngReg c r))
      ⊢ (Pipeline.ΦA spec2 c : sProp 𝕄) := by
  unfold Pipeline.ΦA; rw [scopedRest2_eq]; simp only [scM2, owns_whole]
  unfold othersScoped2 heldSome2
  iintro ⟨HS, ⟨A1, A2, A3, A4, A5, A6, A7, A8, A9, A10, A11, B1, B2, B3, B4⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [HS]; · iexact HS
  isplitl [B1]; · iexact B1
  isplitl [B2]; · iexact B2
  isplitl [B3]; · iexact B3
  iexact B4

/-- So the two are one proposition. -/
theorem PhiA2_eq (c : Dev nD) :
    (Pipeline.ΦA spec2 c : sProp 𝕄)
      = iprop((∃ d, owns (c : Thread nD τ) scM2 fullShare d) ∗ othersScoped2 (F := F) c ∗ (∃ r, prngReg c r)) :=
  BI.equiv_iff.mp ⟨PhiA2_split c, PhiA2_join c⟩

/-- The region's invariant before position `n`: before the first point whatever the region is entered with; afterwards the
    scratch at what the point before left, the other scoped buffers at some contents, the generator register at some state. -/
def PhiS2 (c : Dev nD) : (n : ℕ) → n ≤ cfg2.N → sProp 𝕄
  | 0, _ => Pipeline.ΦA spec2 c
  | n + 1, hn => iprop(owns (c : Thread nD τ) scM2 fullShare (scratchAt2 V c n hn) ∗ othersScoped2 (F := F) c ∗ (∃ r, prngReg c r))

theorem PhiS2_zero (c : Dev nD) (n : ℕ) (h : n ≤ cfg2.N) (hz : n = 0) : PhiS2 V c n h = Pipeline.ΦA spec2 c := by
  subst hz; rfl

/-- After point `n`: the scratch at that point's contents. -/
theorem PhiS2_succ (c : Dev nD) (n : ℕ) (hn : n < cfg2.N) :
    PhiS2 V c (n + 1) hn = iprop(owns (c : Thread nD τ) scM2 fullShare (scratchAt2 V c n hn) ∗ othersScoped2 (F := F) c ∗ (∃ r, prngReg c r)) := rfl

/-- Before a point that is not the first: the scratch at what the point before left. -/
theorem PhiS2_pos (c : Dev nD) (n : ℕ) (h : n ≤ cfg2.N) (hz : n ≠ 0) :
    PhiS2 V c n h = iprop(owns (c : Thread nD τ) scM2 fullShare (scratchAt2 V c (n - 1) (by omega)) ∗ othersScoped2 (F := F) c ∗ (∃ r, prngReg c r)) := by
  cases n with
  | zero => exact absurd rfl hz
  | succ n => rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the output window's buffer as found where the window is idle. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point. The inputs' memrefs hold their blocks; the point's position says which branches are taken.
    At the first point the invariant hands the scratch over at anything and takes it back at the update of the reset
    scratch; at a later point it hands it over at what the point before left and takes it back at the update of that;
    at the last point the output window's buffer, live there, is left at the copy of the scratch, and before it the
    buffer is handed back as found. The other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [scratchAt2_first V c t h0]
    rw [PhiS2_castSucc V c t, PhiS2_zero V c _ _ h0, PhiA2_eq]
    iintro ⟨⟨HS, Hoth, Hg⟩, Ho, ⟨%d0, H0⟩, ⟨%d1, H1⟩, ⟨%d2, H2⟩, ⟨%d3, H3⟩⟩
    iapply (run2_first c Set.univ (grid2.coords t) hc0 hc1 _ _ _ _ _ _ _ _ _ _ (iblk2 V c 0 t) (iblk2 V c 1 t) (iblk2 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    rw [scratchAt2_pos V c t h0]
    rw [PhiS2_castSucc V c t, PhiS2_pos V c _ _ h0]
    by_cases h1 : t.val = 49
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      unfold outAt2
      rw [scratchAt2_pos V c t h0]
      iintro ⟨⟨HS, Hoth, Hg⟩, Ho, ⟨%d0, H0⟩, ⟨%d1, H1⟩, ⟨%d2, H2⟩, ⟨%d3, H3⟩⟩
      iapply (run2_last c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨HS, Hoth, Hg⟩, Ho, ⟨%d0, H0⟩, ⟨%d1, H1⟩, ⟨%d2, H2⟩, ⟨%d3, H3⟩⟩
      iapply (run2_mid c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region was entered with: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨HS, Hoth, Hg⟩
  isplitl [HS]; · iexists _; iexact HS
  isplitl [Hoth]; · iexact Hoth
  iexact Hg

end Cert.KernelIdeal.Frame

end
-- ==== Proof.FrameKernelIdeal.Region3.lean ====
/-
  Region 3 of the kernel program: the classifier, one grid point holding the whole pooled means, the whole last weight
  matrix and the whole last bias. Stated at a parameter `V`, the buffers' contents when the region is entered. The body
  leaves in the output window's buffer the skeleton's payload of the three loaded arrays; the inputs' buffers keep
  their contents; the scoped rest and the generator register pass through untouched.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled means are in their staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- So are the weights, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and the bias. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: each buffer whole. -/
abbrev rg3 : Rect S1024x64 := Rect.unit (s := S1024x64) ![0, 0] S1024x64.size inb_S1024x64_S1024x64_0_0
abbrev rw3 : Rect S64x3 := Rect.unit (s := S64x3) ![0, 0] S64x3.size inb_S64x3_S64x3_0_0
abbrev rb3 : Rect S3 := Rect.unit (s := S3) ![0] S3.size inb_S3_S3_0
abbrev ro3 : Rect S1024x3 := Rect.unit (s := S1024x3) ![0, 0] S1024x3.size inb_S1024x3_S1024x3_0_0

/-- What the body leaves in the output window's buffer: its one store. -/
def out3_3 (x0 : Vec F S1024x64 .f32) (x1 : Vec F S64x3 .f32) (x2 : Vec F S3 .f32) : Vec F S1024x3 .f32 :=
  View.canon [⟨ro3, k3_pay1 (View.ld x0 rg3) (View.ld x1 rw3) (View.ld x2 rb3)⟩]

/-- The one store covers the buffer. -/
theorem cover3_3 (p0 : Vec F S1024x3 .f32) (y : S1024x3.Idx) :
    ∃ pc ∈ ([⟨ro3, p0⟩] : List (View.Piece (Elt F) S1024x3 .f32)), y ∈ pc.1.set :=
  View.cover_of_tiled [⟨ro3, p0⟩] S1024x3.size (by rfl) y

set_option maxHeartbeats 1000000 in
/-- The body on whole staging memrefs: the inputs' buffers at `x0`, `x1`, `x2` and the output's at anything run to the
    inputs' unchanged and the output's at `out3_3 x0 x1 x2`. -/
theorem sound_kernel3 (c : Dev nD) (E : Set ℕ) (i : grid3.Coords) (arg1 : Memref sig .tc .vmem S1024x64 .f32) (harg1 : arg1.IsWhole)
    (arg2 : Memref sig .tc .vmem S64x3 .f32) (harg2 : arg2.IsWhole) (arg3 : Memref sig .tc .vmem S3 .f32) (harg3 : arg3.IsWhole)
    (arg4 : Memref sig .tc .vmem S1024x3 .f32) (harg4 : arg4.IsWhole)
    (x0 : Vec F S1024x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_kernel i arg1 harg1 arg2 harg2 arg3 harg3 arg4 harg4) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at the point: the inputs' memrefs hold their arrays; the invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.FrameKernelIdeal.Fold.lean ====
/-
  The buffers' contents at every boundary between two items of the kernel program's main function, a fold from the
  launch memory: a stretch of host operations applies its operations; a region leaves its arrays at what its
  write-backs make of them and every other buffer as it found it. Each region's proof data are taken at the contents
  the region is entered with.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import proofs.«407529_j25701084299499_1_alg».proof.Proof.FrameKernelIdeal.Region0
import proofs.«407529_j25701084299499_1_alg».proof.Proof.FrameKernelIdeal.Region1
import proofs.«407529_j25701084299499_1_alg».proof.Proof.FrameKernelIdeal.Region2
import proofs.«407529_j25701084299499_1_alg».proof.Proof.FrameKernelIdeal.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
/-- The same read at the TensorCore's references (what the next region's proof data take). -/
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
/-- The same read at the TensorCore's references (what the next region's proof data take). -/
abbrev V3 : (c : Dev nD) → (b : Ref sig .tc) → Buf (Elt F) ((c : Thread nD τ).loc b) := fun c b => W3 m ρ c b

/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
/-- The same read at the TensorCore's references (what the next region's proof data take). -/
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
/-- The same read at the TensorCore's references (what the next region's proof data take). -/
abbrev V7 : (c : Dev nD) → (b : Ref sig .tc) → Buf (Elt F) ((c : Thread nD τ).loc b) := fun c b => W7 m ρ c b

/-- At region 3's exit: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.Frame

end
-- ==== Proof.FrameKernelIdeal.Run.lean ====
/-
  The kernel program's run: its main function as four stretches of host operations and four regions in turn, each
  region entered from every unscoped buffer at the boundary's contents and left at the next boundary's; every weakly
  fair execution terminates, and the final memory holds every unscoped buffer at the last boundary's contents. The
  argument arrays are read back through the fold to the launch memory: no host operation writes one, and a region
  stages one through an input window or leaves it alone.
-/
import proofs.«407529_j25701084299499_1_alg».proof.Proof.Gen.KernelIdeal.Launch
import proofs.«407529_j25701084299499_1_alg».proof.Proof.Gen.KernelIdeal.Skeleton
import proofs.«407529_j25701084299499_1_alg».proof.Proof.Gen.KernelIdeal.Points
import proofs.«407529_j25701084299499_1_alg».proof.Proof.Gen.KernelIdeal.Regions
import proofs.«407529_j25701084299499_1_alg».proof.Proof.FrameKernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## One step back through the fold

A stretch of host operations leaves every buffer outside the list of those it writes; a region leaves an input
window's array as it found it. -/

/-- The first stretch leaves a buffer it does not write. -/
theorem W1_kept (c : Dev nD) (r : Ref sig .tc) (h : r ∉ hostOps0_W) :
    W1 m ρ c (Proc.devRef .tc r) = W0 m ρ c (Proc.devRef .tc r) :=
  StableHlo.after_of_writes_sub hostOps0 _ hostOps0_writes h
/-- The second stretch leaves a buffer it does not write. -/
theorem W3_kept (c : Dev nD) (r : Ref sig .tc) (h : r ∉ hostOps1_W) :
    W3 m ρ c (Proc.devRef .tc r) = W2 m ρ c (Proc.devRef .tc r) :=
  StableHlo.after_of_writes_sub hostOps1 _ hostOps1_writes h
/-- The third stretch leaves a buffer it does not write. -/
theorem W5_kept (c : Dev nD) (r : Ref sig .tc) (h : r ∉ hostOps2_W) :
    W5 m ρ c (Proc.devRef .tc r) = W4 m ρ c (Proc.devRef .tc r) :=
  StableHlo.after_of_writes_sub hostOps2 _ hostOps2_writes h
/-- The fourth stretch leaves a buffer it does not write. -/
theorem W7_kept (c : Dev nD) (r : Ref sig .tc) (h : r ∉ hostOps3_W) :
    W7 m ρ c (Proc.devRef .tc r) = W6 m ρ c (Proc.devRef .tc r) :=
  StableHlo.after_of_writes_sub hostOps3 _ hostOps3_writes h

/-- The feature transform leaves an input window's array as entered. -/
theorem W2_input (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The first layer's bias, rectifier and second transform leave an input window's array as entered. -/
theorem W4_input (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- The pooling region leaves an input window's array as entered. -/
theorem W6_input (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- The classifier leaves an input window's array as entered. -/
theorem W8_input (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments end as launched

The node features and the first weight are the feature transform's two input windows; the first bias and the second
weight are input windows of region 1; the second bias is one of the pooling region; the classifier's weight and bias
are input windows of region 3. The edge index array and the graph ids are read by host operations only: the pooling
region stages a reshaped copy of the ids, not the argument. -/

/-- Argument 0 reaches the end as launched. -/
theorem W8_main_arg0 (c : Dev nD) : W8 m ρ c (Proc.devRef .tc main_arg0) = m ((c : Thread nD τ).loc main_arg0) :=
  (W8_of_ne m ρ c main_arg0 (by decide)).trans <| (W7_kept m ρ c main_arg0 (by decide)).trans <|
  (W6_of_ne m ρ c main_arg0 (by decide)).trans <| (W5_kept m ρ c main_arg0 (by decide)).trans <|
  (W4_of_ne m ρ c main_arg0 (by decide)).trans <| (W3_kept m ρ c main_arg0 (by decide)).trans <|
  (W2_input m ρ c 0 rfl).trans <| (W1_kept m ρ c main_arg0 (by decide)).trans rfl
/-- Argument 1 reaches the end as launched. -/
theorem W8_main_arg1 (c : Dev nD) : W8 m ρ c (Proc.devRef .tc main_arg1) = m ((c : Thread nD τ).loc main_arg1) :=
  (W8_of_ne m ρ c main_arg1 (by decide)).trans <| (W7_kept m ρ c main_arg1 (by decide)).trans <|
  (W6_of_ne m ρ c main_arg1 (by decide)).trans <| (W5_kept m ρ c main_arg1 (by decide)).trans <|
  (W4_of_ne m ρ c main_arg1 (by decide)).trans <| (W3_kept m ρ c main_arg1 (by decide)).trans <|
  (W2_input m ρ c 1 rfl).trans <| (W1_kept m ρ c main_arg1 (by decide)).trans rfl
/-- Argument 2 reaches the end as launched. -/
theorem W8_main_arg2 (c : Dev nD) : W8 m ρ c (Proc.devRef .tc main_arg2) = m ((c : Thread nD τ).loc main_arg2) :=
  (W8_of_ne m ρ c main_arg2 (by decide)).trans <| (W7_kept m ρ c main_arg2 (by decide)).trans <|
  (W6_of_ne m ρ c main_arg2 (by decide)).trans <| (W5_kept m ρ c main_arg2 (by decide)).trans <|
  (W4_input m ρ c 1 rfl).trans <| (W3_kept m ρ c main_arg2 (by decide)).trans <|
  (W2_of_ne m ρ c main_arg2 (by decide)).trans <| (W1_kept m ρ c main_arg2 (by decide)).trans rfl
/-- Argument 3 reaches the end as launched. -/
theorem W8_main_arg3 (c : Dev nD) : W8 m ρ c (Proc.devRef .tc main_arg3) = m ((c : Thread nD τ).loc main_arg3) :=
  (W8_of_ne m ρ c main_arg3 (by decide)).trans <| (W7_kept m ρ c main_arg3 (by decide)).trans <|
  (W6_of_ne m ρ c main_arg3 (by decide)).trans <| (W5_kept m ρ c main_arg3 (by decide)).trans <|
  (W4_input m ρ c 2 rfl).trans <| (W3_kept m ρ c main_arg3 (by decide)).trans <|
  (W2_of_ne m ρ c main_arg3 (by decide)).trans <| (W1_kept m ρ c main_arg3 (by decide)).trans rfl
/-- Argument 4 reaches the end as launched. -/
theorem W8_main_arg4 (c : Dev nD) : W8 m ρ c (Proc.devRef .tc main_arg4) = m ((c : Thread nD τ).loc main_arg4) :=
  (W8_of_ne m ρ c main_arg4 (by decide)).trans <| (W7_kept m ρ c main_arg4 (by decide)).trans <|
  (W6_input m ρ c 1 rfl).trans <| (W5_kept m ρ c main_arg4 (by decide)).trans <|
  (W4_of_ne m ρ c main_arg4 (by decide)).trans <| (W3_kept m ρ c main_arg4 (by decide)).trans <|
  (W2_of_ne m ρ c main_arg4 (by decide)).trans <| (W1_kept m ρ c main_arg4 (by decide)).trans rfl
/-- Argument 5 reaches the end as launched. -/
theorem W8_main_arg5 (c : Dev nD) : W8 m ρ c (Proc.devRef .tc main_arg5) = m ((c : Thread nD τ).loc main_arg5) :=
  (W8_input m ρ c 1 rfl).trans <| (W7_kept m ρ c main_arg5 (by decide)).trans <|
  (W6_of_ne m ρ c main_arg5 (by decide)).trans <| (W5_kept m ρ c main_arg5 (by decide)).trans <|
  (W4_of_ne m ρ c main_arg5 (by decide)).trans <| (W3_kept m ρ c main_arg5 (by decide)).trans <|
  (W2_of_ne m ρ c main_arg5 (by decide)).trans <| (W1_kept m ρ c main_arg5 (by decide)).trans rfl
/-- Argument 6 reaches the end as launched. -/
theorem W8_main_arg6 (c : Dev nD) : W8 m ρ c (Proc.devRef .tc main_arg6) = m ((c : Thread nD τ).loc main_arg6) :=
  (W8_input m ρ c 2 rfl).trans <| (W7_kept m ρ c main_arg6 (by decide)).trans <|
  (W6_of_ne m ρ c main_arg6 (by decide)).trans <| (W5_kept m ρ c main_arg6 (by decide)).trans <|
  (W4_of_ne m ρ c main_arg6 (by decide)).trans <| (W3_kept m ρ c main_arg6 (by decide)).trans <|
  (W2_of_ne m ρ c main_arg6 (by decide)).trans <| (W1_kept m ρ c main_arg6 (by decide)).trans rfl
/-- Argument 7 reaches the end as launched. -/
theorem W8_main_arg7 (c : Dev nD) : W8 m ρ c (Proc.devRef .tc main_arg7) = m ((c : Thread nD τ).loc main_arg7) :=
  (W8_of_ne m ρ c main_arg7 (by decide)).trans <| (W7_kept m ρ c main_arg7 (by decide)).trans <|
  (W6_of_ne m ρ c main_arg7 (by decide)).trans <| (W5_kept m ρ c main_arg7 (by decide)).trans <|
  (W4_of_ne m ρ c main_arg7 (by decide)).trans <| (W3_kept m ρ c main_arg7 (by decide)).trans <|
  (W2_of_ne m ρ c main_arg7 (by decide)).trans <| (W1_kept m ρ c main_arg7 (by decide)).trans rfl
/-- Argument 8 reaches the end as launched. -/
theorem W8_main_arg8 (c : Dev nD) : W8 m ρ c (Proc.devRef .tc main_arg8) = m ((c : Thread nD τ).loc main_arg8) :=
  (W8_of_ne m ρ c main_arg8 (by decide)).trans <| (W7_kept m ρ c main_arg8 (by decide)).trans <|
  (W6_of_ne m ρ c main_arg8 (by decide)).trans <| (W5_kept m ρ c main_arg8 (by decide)).trans <|
  (W4_of_ne m ρ c main_arg8 (by decide)).trans <| (W3_kept m ρ c main_arg8 (by decide)).trans <|
  (W2_of_ne m ρ c main_arg8 (by decide)).trans <| (W1_kept m ρ c main_arg8 (by decide)).trans rfl

/-! ## The four pipelines' proof data, and what a core holds between two items -/

/-- Every pipeline's proof data, each taken at the contents its region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

/-- No body runs under a variant. -/
abbrev 𝒱₀ : Variants := Variants.none
/-- No core owes another anything, so no pair of cores is given a level. -/
abbrev L : GSem nD τ sig → Finset Unit := fun _ => ∅
abbrev lv : GSem nD τ sig → Unit → ℕ := fun _ _ => 0

/-- Beside its buffers a core carries its generator register at some state and the record that it owes nothing. -/
abbrev carried (c : Dev nD) : sProp 𝕄 :=
  iprop((∃ r, prngReg c r) ∗ ∃ W, owes (c : Thread nD τ) (0 : CellTallies nD τ sig Unit) W)

/-- A stretch of host operations run from every unscoped buffer at the contents `W`: it ends with those buffers at
    what the operations make of `W`, the core carrying what it carried. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-- After the classifier: every unscoped buffer at the last boundary's contents, the generator register at some state. -/
abbrev atEnd (c : Dev nD) : sProp 𝕄 :=
  iprop(StableHlo.held (c : Thread nD τ) (Pipeline.ucRefs τ sig) (W8 m ρ c) ∗ ∃ r, prngReg c r)

/-! ## The regions

Each region is entered from every unscoped buffer at the boundary's contents. Its windows' arrays are taken out of
those buffers at the contents the proof data name, the rest bypassing the region; the generator register goes into the
region's invariant with the scoped buffers and comes back out of it; nothing is owed at either end and the kernel has
no semaphore of its own. At the exit the arrays, at what the write-backs left, go back beside the bypassing rest: every
unscoped buffer at the next boundary's contents. -/

-- a library lemma stated over a pinned configuration meets the printed one only if unification may unfold plain
-- definitions inside a metavariable's type
set_option backward.isDefEq.respectTransparency.types false in
/-- The feature transform: entered at `W1`, left at `W2`. -/
def transformSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ carried c)
  post c := iprop(StableHlo.held (c : Thread nD τ) (Pipeline.ucRefs τ sig) (W2 m ρ c) ∗ carried c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have htake := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 0 c).Φ 0 = Pipeline.ΦA spec0 c from rfl]
    unfold Pipeline.ΦA
    iintro ⟨Hgen, -, Hscoped⟩
    isplitl [Hscoped]; · iexact Hscoped
    iexact Hgen
  hout c := by
    rw [Pipeline.ownSems0_none, show (pdats m ρ 0 c).Φ (Fin.last _) = Pipeline.ΦA spec0 c from rfl]
    unfold Pipeline.ΦA
    iintro ⟨Hscoped, Hgen⟩
    isplitl [Hgen]; · iexact Hgen
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The first layer's bias and rectifier with the second transform: entered at `W3`, left at `W4`. -/
def layerSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ carried c)
  post c := iprop(StableHlo.held (c : Thread nD τ) (Pipeline.ucRefs τ sig) (W4 m ρ c) ∗ carried c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have htake := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 1 c).Φ 0 = Pipeline.ΦA spec1 c from rfl]
    unfold Pipeline.ΦA
    iintro ⟨Hgen, -, Hscoped⟩
    isplitl [Hscoped]; · iexact Hscoped
    iexact Hgen
  hout c := by
    rw [Pipeline.ownSems0_none, show (pdats m ρ 1 c).Φ (Fin.last _) = Pipeline.ΦA spec1 c from rfl]
    unfold Pipeline.ΦA
    iintro ⟨Hscoped, Hgen⟩
    isplitl [Hgen]; · iexact Hgen
    isplitr; · iempintro
    iexact Hscoped
  hexit c := by
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The second layer's bias and rectifier with the sum of node rows per graph: entered at `W5`, left at `W6`. Its
    invariant is the class invariant only before the first point; afterwards it also holds the kernel's scratch, which the
    region's own two facts take in at the first point and let go after the last. -/
def poolSeg : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ carried c)
  post c := iprop(StableHlo.held (c : Thread nD τ) (Pipeline.ucRefs τ sig) (W6 m ρ c) ∗ carried c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have htake := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 2 c).Φ 0 = (dat2 (V5 m ρ) c).Φ 0 from rfl]
    have hfirst := hin2 (V5 m ρ) c
    refine .trans ?_ hfirst
    unfold Pipeline.ΦA
    iintro ⟨Hgen, -, Hscoped⟩
    isplitl [Hscoped]; · iexact Hscoped
    iexact Hgen
  hout c := by
    rw [Pipeline.ownSems0_none, show (pdats m ρ 2 c).Φ (Fin.last _) = (dat2 (V5 m ρ) c).Φ (Fin.last cfg2.N) from rfl]
    have hlast := hout2 (V5 m ρ) c
    refine hlast.trans ?_
    unfold Pipeline.ΦA
    iintro ⟨Hscoped, Hgen⟩
    isplitl [Hgen]; · iexact Hgen
    isplitr; · iempintro
    iexact Hscoped
  hexit c := by
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hback
    iintro ⟨Harr, Howes, Hgen, Hrest⟩
    imodintro
    isplitl [Harr Hrest]
    · iapply hback; isplitl [Harr] <;> iassumption
    isplitl [Hgen]; · iexact Hgen
    unfold Pipeline.Dat.owesAt Pipeline.owesWithin
    icases Howes with ⟨%Wt, -, Howes⟩
    iexists Wt
    iexact Howes

set_option backward.isDefEq.respectTransparency.types false in
/-- The classifier: entered at `W7`, left at `W8`, where the main function returns: the core owing nothing is set
    beside the buffers and the generator register, as the launch reads the end. -/
def classifySeg : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ carried c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have htake := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at htake
    iintro ⟨⟨Hbufs, Hgen, Howes⟩, -, -⟩
    ihave Hsplit := htake $$ Hbufs
    icases Hsplit with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%Wt, Howes⟩
      iexists Wt
      isplitr; · ipureintro; exact fun _ _ => Or.inl trivial
      iexact Howes
    isplitl [Hgen]; · iexact Hgen
    iexact Hrest
  hin c := by
    rw [show (pdats m ρ 3 c).Φ 0 = Pipeline.ΦA spec3 c from rfl]
    unfold Pipeline.ΦA
    iintro ⟨Hgen, -, Hscoped⟩
    isplitl [Hscoped]; · iexact Hscoped
    iexact Hgen
  hout c := by
    rw [Pipeline.ownSems0_none, show (pdats m ρ 3 c).Φ (Fin.last _) = Pipeline.ΦA spec3 c from rfl]
    unfold Pipeline.ΦA
    iintro ⟨Hscoped, Hgen⟩
    isplitl [Hgen]; · iexact Hgen
    isplitr; · iempintro
    iexact Hscoped
  hexit c := by
    have hback := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hback
    iintro ⟨Harr, Howes, Hgen, Hrest⟩
    imodintro
    isplitl [Harr Hrest Hgen]
    · isplitl [Harr Hrest]
      · iapply hback; isplitl [Harr] <;> iassumption
      iexact Hgen
    unfold Pipeline.Dat.owesAt Pipeline.owesWithin
    icases Howes with ⟨%Wt, -, Howes⟩
    iexists Wt
    iexact Howes

/-! ## The main function as eight items, and the launch -/

/-- The main function's eight items in order: each stretch of host operations from the contents at its boundary, each
    kernel call as its region. -/
abbrev items : List (Pipeline.Seg (pcfgs (F := F)) adm (pdats m ρ) () defs₀ 𝒱₀ L lv) :=
  [ .host (stretch hostOps0 hostOps0_sub hostOps0_fresh (W0 m ρ)),
    .region (transformSeg m ρ),
    .host (stretch hostOps1 hostOps1_sub hostOps1_fresh (W2 m ρ)),
    .region (layerSeg m ρ),
    .host (stretch hostOps2 hostOps2_sub hostOps2_fresh (W4 m ρ)),
    .region (poolSeg m ρ),
    .host (stretch hostOps3 hostOps3_sub hostOps3_fresh (W6 m ρ)),
    .region (classifySeg m ρ) ]

-- the launch theorem's implicit arguments are found by unifying its conclusion with this statement, which takes
-- unfolding plain definitions inside a metavariable's type
set_option backward.isDefEq.respectTransparency.types false in
/-- THE RUN: from any memory with zero counters every weakly fair execution of the main function terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (items m ρ)
    (fun c Q => by
      -- the main function is the chain of its items' programs, and so is the run of the item list
      rewrite [main_chain c, Pipeline.Seg.run_eq_chain,
        show (items m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource is left to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ carried c)) (Tₙ := atEnd m ρ)
    -- each item is entered from exactly what the one before it left
    (hch := ⟨fun _ => .rfl, fun _ => .rfl, fun _ => .rfl, fun _ => .rfl, fun _ => .rfl, fun _ => .rfl, fun _ => .rfl,
      fun _ => .rfl, fun _ => .rfl⟩)
    (hinit := by
      -- what the launch deals a core: its unscoped buffers at the launch memory, its generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W8 m ρ c b)
    (hfin := fun c s' => by
      -- buffers held at the last boundary's contents, read against the final state
      iintro ⟨⟨Hbufs, -⟩, HSI⟩
      unfold StableHlo.held
      imodintro
      iapply (pointsTo_read_all (Pipeline.ucRefs τ sig) (fun b => (((c : Thread nD τ)).1, b)) (W8 m ρ c) s')
      isplitl [Hbufs] <;> iassumption)
    (hQ := fun _ h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩) (run_all m ρ)

end Cert.KernelIdeal.Frame

end
-- ==== Proof.RefSide.lean ====
/-
  The reference program's side: its run read back as one pure term of the argument arrays, and that term read
  one operation at a time.
-/
import proofs.«407529_j25701084299499_1_alg».proof.Defs
import proofs.«407529_j25701084299499_1_alg».proof.Proof.Gen.ReferenceIdeal.Run
import proofs.«407529_j25701084299499_1_alg».proof.Proof.Gen.ReferenceIdeal.Read
-- ==== Proof.ValueKernelIdeal.Value0.lean ====
/-
  What region 0 leaves in its output array, over the extended reals: row `5000 t + p` of the array is row `p` of the
  block point `t` writes back, and that row is the sum over the 256 features of the node's feature times the weight:
  the whole array is the product of the node features and the first weight matrix, the reference's first product.
-/
import proofs.«407529_j25701084299499_1_alg».proof.Proof.FrameKernelIdeal.Region0
import proofs.«407529_j25701084299499_1_alg».proof.Proof.RefSide
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The body's product at an index -/

/-- On the left operand's row axis the product reads the output's row. -/
theorem blockdot_lhs_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- On the left operand's feature axis it reads the summation index. -/
theorem blockdot_lhs_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
/-- On the right operand's feature axis it reads the summation index. -/
theorem blockdot_rhs_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
/-- On the right operand's column axis it reads the output's column. -/
theorem blockdot_rhs_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Where entry `j` of the product reads its operands at feature `k`: row `j 0` of the row block, column `j 1` of the weights. -/
abbrev rowAt0 (j : S5000x64.Idx) (k : Fin 256) : S5000x256.Idx := fun a => match a with
  | ⟨0, _⟩ => ⟨(j 0).val, (j 0).isLt⟩
  | ⟨1, _⟩ => ⟨k.val, k.isLt⟩
abbrev colAt0 (j : S5000x64.Idx) (k : Fin 256) : S256x64.Idx := fun a => match a with
  | ⟨0, _⟩ => ⟨k.val, k.isLt⟩
  | ⟨1, _⟩ => ⟨(j 1).val, (j 1).isLt⟩

/-- The body's payload at an entry: over the extended reals the two roundings to bf16 are the identity and the product
    onto the zero accumulator is the plain sum over the 256 features. -/
theorem rowblock_product_apply (x0 : Vec Ideal S5000x256 .f32) (x1 : Vec Ideal S256x64 .f32) (j : S5000x64.Idx) :
    k0_pay1 (F := Ideal) x0 x1 j = ∑ k : Fin 256, x0 (rowAt0 j k) * x1 (colAt0 j k) := by
  unfold k0_pay1
  refine (Ideal.matmul_constant_zero_apply dot_S5000x256_S256x64_S5000x64_1_0_0_1_n_n none _ _ j).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = rowAt0 j k := funext fun a => Fin.ext (by
    match a with
    | ⟨0, _⟩ => exact blockdot_lhs_0 _ _
    | ⟨1, _⟩ => exact (blockdot_lhs_1 _ _).trans hk)
  have er : dot_S5000x256_S256x64_S5000x64_1_0_0_1_n_n.rhsIdx j ((ValueIdx.contrEquiv1 dot_S5000x256_S256x64_S5000x64_1_0_0_1_n_n 256 rfl rfl).symm k) = colAt0 j k := funext fun a => Fin.ext (by
    match a with
    | ⟨0, _⟩ => exact (blockdot_rhs_0 _ _).trans hk
    | ⟨1, _⟩ => exact blockdot_rhs_1 _ _)
  rw [el, er]
  rfl

/-! ## The blocks the body finds, read off their arrays -/

/-- The arrays the region reads, at their literal types: the node features and the first weights; -/
abbrev feat0 (c : Dev nD) : FVec Ideal S100000x256 .f32 := V c main_arg0
abbrev wts0 (c : Dev nD) : FVec Ideal S256x64 .f32 := V c main_arg1
/-- and the blocks of them in the body's buffers at point `t`. -/
abbrev featBlk0 (c : Dev nD) (t : Fin cfg0.N) : Vec Ideal S5000x256 .f32 := iblk0 V c 0 t
abbrev wtsBlk0 (c : Dev nD) (t : Fin cfg0.N) : Vec Ideal S256x64 .f32 := iblk0 V c 1 t

theorem zero_offsets0 : (![0, 0] : Fin 2 → Nat) = fun _ => 0 := funext fun a => by fin_cases a <;> rfl

/-- The printed index maps over the 20 points: the feature rows and the output rows are block `t` at point `t`, on the
    other axis block 0; the weights are block (0, 0) throughout. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `5000 t + p` of the features. -/
theorem featBlk0_apply (c : Dev nD) (t : Fin cfg0.N) (y : S5000x256.Idx) (i : S100000x256.Idx)
    (h0 : (i 0).val = 5000 * t.val + (y 0).val) (h1 : (i 1).val = (y 1).val) :
    featBlk0 V c t y = feat0 V c i := by
  obtain ⟨e0, e1, -⟩ := block_indices0 t
  show feat0 V c (((cfg0.win 0).blk t).view.emb y) = feat0 V c i
  refine congrArg (feat0 V c) (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The weights' block at every point is the weights. -/
theorem wtsBlk0_apply (c : Dev nD) (t : Fin cfg0.N) (y : S256x64.Idx) (i : S256x64.Idx)
    (h0 : (i 0).val = (y 0).val) (h1 : (i 1).val = (y 1).val) :
    wtsBlk0 V c t y = wts0 V c i := by
  obtain ⟨-, -, e0, e1, -⟩ := block_indices0 t
  show wts0 V c (((cfg0.win 1).blk t).view.emb y) = wts0 V c i
  refine congrArg (wts0 V c) (funext fun a => Fin.ext ?_)
  match a with
  | ⟨0, _⟩ => show win0_1.index t (0 : Fin 2) * 256 + 1 * (y 0).val = (i 0).val; omega
  | ⟨1, _⟩ => show win0_1.index t (1 : Fin 2) * 64 + 1 * (y 1).val = (i 1).val; omega

/-! ## What a point writes back, and the array after the region -/

/-- Entry `y` of the product of point `t`'s blocks is entry `(5000 t + y 0, y 1)` of the reference's product of the
    whole arrays: the same 256 products, term by term. -/
theorem product_at0 (c : Dev nD) (t : Fin cfg0.N) (y : S5000x64.Idx) (i : S100000x64.Idx)
    (h0 : (i 0).val = 5000 * t.val + (y 0).val) (h1 : (i 1).val = (y 1).val) :
    k0_pay1 (F := Ideal) (featBlk0 V c t) (wtsBlk0 V c t) y
      = Cert.ReferenceIdeal.Read.val_main_v30 (F := Ideal) (feat0 V c) (wts0 V c) i := by
  refine (rowblock_product_apply (featBlk0 V c t) (wtsBlk0 V c t) y).trans ?_
  refine Eq.trans ?_ (Cert.ReferenceIdeal.Read.val_main_v30_apply (feat0 V c) (wts0 V c) i).symm
  refine Finset.sum_congr rfl fun k _ => ?_
  exact congrArg₂ (· * ·)
    (featBlk0_apply V c t (rowAt0 y k) (Cert.ReferenceIdeal.Read.lidx_main_v30 i k) h0 rfl)
    (wtsBlk0_apply V c t (colAt0 y k) (Cert.ReferenceIdeal.Read.ridx_main_v30 i k) rfl h1)

/-- What point `t` writes back is block `t` of the reference's product. -/
theorem flushed0_eq (c : Dev nD) (t : Fin cfg0.N) :
    (dat0 (F := Ideal) V c).flushed 2 t
      = ((cfg0.win 2).blk t).view.read (Elt Ideal)
          (Cert.ReferenceIdeal.Read.val_main_v30 (F := Ideal) (V c main_arg0) (V c main_arg1)) := by
  show (cfg0.win 2).cut (grid0.coords t) ((dat0 (F := Ideal) V c).after 2 t) = _
  rw [after0_2]
  unfold out0_2
  rw [View.canon_unit_zero zero_offsets0]
  simp only [View.ld_unit_zero (S := S5000x256) zero_offsets0, View.ld_unit_zero (S := S256x64) zero_offsets0]
  obtain ⟨-, -, -, -, e0, e1⟩ := block_indices0 t
  funext y
  refine product_at0 V c t ((cfg0.win 2).xinj (grid0.coords t) y) (((cfg0.win 2).blk t).view.emb y) ?_ ?_
  · show win0_2.index t (0 : Fin 2) * 5000 + 1 * (y 0).val = 5000 * t.val + (y 0).val; omega
  · show win0_2.index t (1 : Fin 2) * 64 + 1 * (y 1).val = (y 1).val; omega

/-- An entry of the array is in point `t`'s block iff on each axis its coordinate is in the block's range. -/
theorem mem_outBlk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row of the array is in some point's block: row `r` in the block of point `r / 5000`, which writes back. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e0, e1⟩ := block_indices0 t
  refine ⟨t, flush0_2 t, ?_⟩
  rw [mem_outBlk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region is the reference's product of the two argument arrays the region reads. -/
theorem final0 (c : Dev nD) :
    (dat0 (F := Ideal) V c).arrAt 2 cfg0.N
      = Cert.ReferenceIdeal.Read.val_main_v30 (F := Ideal) (V c main_arg0) (V c main_arg1) :=
  (dat0 (F := Ideal) V c).arrAt_eq_of_cover 2 _ (fun t _ => flushed0_eq V c t) covered0

end Cert.KernelIdeal.Val

end
-- ==== Proof.ValueKernelIdeal.Value1.lean ====
/-
  What region 1 leaves in its output array, over the extended reals: row `5000 t + p` of the array is row `p` of the
  block point `t` writes back: the rectified sum of the aggregation's row and the bias, times the second weight
  matrix. The whole array is the reference's second product, of the rectified biased aggregation and the weights.

  Both sides are read at one entry as the same sum: entry `(r, q)` is the sum over `k` of
  `max (agg (r, k) + bias k) 0 * wts (k, q)`. A point's payload is that sum over its row block, the bias and the
  weights whole; the twenty row blocks tile the array.
-/
import proofs.«407529_j25701084299499_1_alg».proof.Proof.FrameKernelIdeal.Region1
import proofs.«407529_j25701084299499_1_alg».proof.Proof.RefSide
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the region reads, at their literal types: the first aggregation, the first bias, the second weights. -/
abbrev agg1 (c : Dev nD) : FVec Ideal S100000x64 .f32 := V c main_v42
abbrev bias1 (c : Dev nD) : FVec Ideal S64 .f32 := V c main_arg2
abbrev wts1 (c : Dev nD) : FVec Ideal S64x64 .f32 := V c main_arg3

/-! The lemmas that serve the region's one theorem are kept in a namespace of their own. -/
namespace SecondTransform

/-! ## A block's product at an index

Both products contract the left operand's columns against the right operand's rows. Read at row `p`, column `q`,
each is the sum over `k` of the left operand at `(p, k)` times the right at `(k, q)`. -/

/-- The block product's left operand is read at the output's row … -/
theorem blockProduct_lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and at the contracted column; -/
theorem blockProduct_lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s
/-- the right operand at the contracted row … -/
theorem blockProduct_rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s
/-- … and at the output's column. -/
theorem blockProduct_rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block's product into a zero accumulator, at row `p` and column `q`. -/
theorem blockProduct_at (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact blockProduct_lhs_row _ _
    | ⟨1, _⟩ => exact (blockProduct_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (blockProduct_rhs_row _ _).trans hk
    | ⟨1, _⟩ => exact blockProduct_rhs_col _ _)
  rw [el, er]

/-- The reference's product of the whole arrays, at row `r` and column `q`. -/
theorem wholeProduct_at (y : FVec Ideal S100000x64 .f32) (w : FVec Ideal S64x64 .f32) (r : Fin 100000) (q : Fin 64) :
    Host.dotGeneral (F := Ideal) Cert.ReferenceIdeal.dot_S100000x64_S64x64_S100000x64_1_0_0_1_n_n none y w (ix2 r q)
      = ∑ k : Fin 64, y (ix2 r k) * w (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-! ## The rectified, biased operand at an index -/

/-- The bias as a block sees it, one row repeated down the block's rows: at row `p`, column `k`, entry `k` of the bias. -/
theorem blockBias_at (x1 : FVec Ideal S64 .f32) (p : Fin 5000) (k : Fin 64) :
    broadcastTo S5000x64 (shapeCast S1x64 x1 shapeCasts_S64_S1x64) broadcasts_S1x64_S5000x64 (ix2 p k) = x1 (ix1 k) :=
  (broadcastTo_1b_ab_apply _ broadcasts_S1x64_S5000x64 p k).trans (shapeCast_a_1a_apply x1 shapeCasts_S64_S1x64 0 k)

/-- The bias as the reference spreads it over the whole array: at row `r`, column `k`, entry `k` of the bias. -/
theorem wholeBias_at (b : FVec Ideal S64 .f32) (r : Fin 100000) (k : Fin 64) :
    Cert.ReferenceIdeal.Read.val_main_v44 (F := Ideal) b (ix2 r k) = b (ix1 k) := by
  rw [Cert.ReferenceIdeal.Read.val_main_v44_apply, Cert.ReferenceIdeal.Read.val_main_v43_apply]
  exact congrArg b (funext fun a => Fin.ext (by match a with | ⟨0, _⟩ => rfl))

/-- The reference's array of zeros holds the zero word's value everywhere. -/
theorem wholeZero_at (i : S100000x64.Idx) :
    Cert.ReferenceIdeal.Read.val_main_call0_v0 (F := Ideal) i = Ideal.ofBits .f32 0x00000000#32 := by
  rw [Cert.ReferenceIdeal.Read.val_main_call0_v0_apply]
  rfl

/-- What the body computes from its three loaded blocks, at row `p` and column `q` of the block: the sum over `k` of
    the rectified biased entry `(p, k)` of the row block times entry `(k, q)` of the weights. -/
theorem blockPayload_at (x0 : Vec Ideal S5000x64 .f32) (x1 : Vec Ideal S64 .f32) (x2 : Vec Ideal S64x64 .f32)
    (p : Fin 5000) (q : Fin 64) :
    k1_pay1 (F := Ideal) x0 x1 x2 (ix2 p q)
      = ∑ k : Fin 64, max (x0 (ix2 p k) + x1 (ix1 k)) (Ideal.ofBits .f32 0x00000000#32) * x2 (ix2 k q) := by
  unfold k1_pay1
  refine (blockProduct_at _ _ p q).trans ?_
  refine Finset.sum_congr rfl fun k _ => ?_
  show max (shapeCast S5000x64 x0 shapeCasts_S5000x64_S5000x64 (ix2 p k)
      + broadcastTo S5000x64 (shapeCast S1x64 x1 shapeCasts_S64_S1x64) broadcasts_S1x64_S5000x64 (ix2 p k))
      (Ideal.ofBits .f32 0x00000000#32) * x2 (ix2 k q) = _
  rw [shapeCast_self, blockBias_at]

/-- The reference's stage at row `r` and column `q` of the whole array: the same sum over the whole arrays. -/
theorem wholeStage_at (a : FVec Ideal S100000x64 .f32) (b : FVec Ideal S64 .f32) (w : FVec Ideal S64x64 .f32)
    (r : Fin 100000) (q : Fin 64) :
    Host.dotGeneral (F := Ideal) Cert.ReferenceIdeal.dot_S100000x64_S64x64_S100000x64_1_0_0_1_n_n none
        (maximumf (addf a (Cert.ReferenceIdeal.Read.val_main_v44 (F := Ideal) b)) (Cert.ReferenceIdeal.Read.val_main_call0_v0 (F := Ideal)))
        w (ix2 r q)
      = ∑ k : Fin 64, max (a (ix2 r k) + b (ix1 k)) (Ideal.ofBits .f32 0x00000000#32) * w (ix2 k q) := by
  refine (wholeProduct_at _ w r q).trans ?_
  refine Finset.sum_congr rfl fun k _ => ?_
  rw [maximumf_apply, addf_apply, wholeBias_at, wholeZero_at]

/-- The payload of a block whose three operands are read off the whole arrays (rows `5000 T …` of the first, all of the
    bias and of the weights), at an index of the block, is the reference's stage at the matching index of the whole array. -/
theorem written_eq_stage (a : FVec Ideal S100000x64 .f32) (b : FVec Ideal S64 .f32) (w : FVec Ideal S64x64 .f32)
    (x0 : Vec Ideal S5000x64 .f32) (x1 : Vec Ideal S64 .f32) (x2 : Vec Ideal S64x64 .f32) (T : ℕ)
    (h0 : ∀ (p : Fin 5000) (k : Fin 64) (r : Fin 100000), r.val = 5000 * T + p.val → x0 (ix2 p k) = a (ix2 r k))
    (h1 : ∀ k : Fin 64, x1 (ix1 k) = b (ix1 k))
    (h2 : ∀ (k q : Fin 64), x2 (ix2 k q) = w (ix2 k q))
    (j : S5000x64.Idx) (i : S100000x64.Idx) (hi0 : (i 0).val = 5000 * T + (j 0).val) (hi1 : (i 1).val = (j 1).val) :
    k1_pay1 (F := Ideal) x0 x1 x2 j
      = Host.dotGeneral (F := Ideal) Cert.ReferenceIdeal.dot_S100000x64_S64x64_S100000x64_1_0_0_1_n_n none
          (maximumf (addf a (Cert.ReferenceIdeal.Read.val_main_v44 (F := Ideal) b)) (Cert.ReferenceIdeal.Read.val_main_call0_v0 (F := Ideal)))
          w i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q = q' := (Fin.ext hi1).symm
  rw [blockPayload_at, wholeStage_at]
  refine Finset.sum_congr rfl fun k _ => ?_
  rw [h0 p k r hi0, h1 k, h2 k q]

/-! ## The blocks a point reads, as rows of the arrays

At point `t` the first window holds rows `5000 t … 5000 t + 4999` of the aggregation; the bias and the weights are
whole, their block index zero on every axis; the output window's block is the same rows of the output array. -/

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The grid has twenty points. -/
theorem point_lt (t : Fin cfg1.N) : t.val < 20 := lt_of_lt_of_eq t.isLt N_1

/-- The printed index maps at every point: the row-block windows move with the point, the others stay. -/
theorem blockIndex1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three blocks at a point, at their literal types. -/
abbrev aggBlock (c : Dev nD) (t : Fin cfg1.N) : Vec Ideal S5000x64 .f32 := iblk1 V c 0 t
abbrev biasBlock (c : Dev nD) (t : Fin cfg1.N) : Vec Ideal S64 .f32 := iblk1 V c 1 t
abbrev wtsBlock (c : Dev nD) (t : Fin cfg1.N) : Vec Ideal S64x64 .f32 := iblk1 V c 2 t

/-- Row `p` of the row block at point `t` is row `5000 t + p` of the aggregation. -/
theorem aggBlock_at (c : Dev nD) (t : Fin cfg1.N) (p : Fin 5000) (k : Fin 64) (r : Fin 100000)
    (hr : r.val = 5000 * t.val + p.val) : aggBlock V c t (ix2 p k) = agg1 V c (ix2 r k) := by
  obtain ⟨e0, e1, -⟩ := blockIndex1 t
  show V c main_v42 (((cfg1.win 0).blk t).view.emb (ix2 p k)) = V c main_v42 (ix2 r k)
  refine congrArg (V c main_v42) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The bias block is the bias. -/
theorem biasBlock_at (c : Dev nD) (t : Fin cfg1.N) (k : Fin 64) : biasBlock V c t (ix1 k) = bias1 V c (ix1 k) := by
  obtain ⟨-, -, e, -⟩ := blockIndex1 t
  show V c main_arg2 (((cfg1.win 1).blk t).view.emb (ix1 k)) = V c main_arg2 (ix1 k)
  refine congrArg (V c main_arg2) (funext fun a => Fin.ext ?_)
  match a with
  | ⟨0, _⟩ => show win1_1.index t (0 : Fin 1) * 64 + 1 * k.val = k.val; rw [e]; omega

/-- The weights block is the weights. -/
theorem wtsBlock_at (c : Dev nD) (t : Fin cfg1.N) (k q : Fin 64) : wtsBlock V c t (ix2 k q) = wts1 V c (ix2 k q) := by
  obtain ⟨-, -, -, e0, e1, -⟩ := blockIndex1 t
  show V c main_arg3 (((cfg1.win 2).blk t).view.emb (ix2 k q)) = V c main_arg3 (ix2 k q)
  refine congrArg (V c main_arg3) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-! ## From the blocks to the array -/

/-- What point `t` writes back is block `t` of the reference's stage of the whole arrays. -/
theorem flushed1_eq (c : Dev nD) (t : Fin cfg1.N) :
    (dat1 (F := Ideal) V c).flushed 3 t
      = ((cfg1.win 3).blk t).view.read (Elt Ideal)
          (Host.dotGeneral (F := Ideal) Cert.ReferenceIdeal.dot_S100000x64_S64x64_S100000x64_1_0_0_1_n_n none
            (maximumf (addf (agg1 V c) (Cert.ReferenceIdeal.Read.val_main_v44 (F := Ideal) (bias1 V c)))
              (Cert.ReferenceIdeal.Read.val_main_call0_v0 (F := Ideal)))
            (wts1 V c)) := by
  show (cfg1.win 3).cut (grid1.coords t) ((dat1 V c).after 3 t) = _
  rw [after1_3]
  unfold out1_3
  rw [View.canon_unit_zero zeroOffsets2]
  simp only [View.ld_unit_zero (S := S5000x64) zeroOffsets2, View.ld_unit_zero (S := S64) zeroOffsets1,
    View.ld_unit_zero (S := S64x64) zeroOffsets2]
  obtain ⟨-, -, -, -, -, e0, e1⟩ := blockIndex1 t
  funext j
  refine written_eq_stage (agg1 V c) (bias1 V c) (wts1 V c) (aggBlock V c t) (biasBlock V c t) (wtsBlock V c t) t.val
    (aggBlock_at V c t) (biasBlock_at V c t) (wtsBlock_at V c t) j (((cfg1.win 3).blk t).view.emb j) ?_ ?_
  · show win1_3.index t (0 : Fin 2) * 5000 + 1 * (j 0).val = 5000 * t.val + (j 0).val; rw [e0]; omega
  · show win1_3.index t (1 : Fin 2) * 64 + 1 * (j 1).val = (j 1).val; rw [e1]; omega

/-- An index of the output array is in point `t`'s block iff each coordinate is in the block's range on its axis. -/
theorem mem_block1 (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v43).slice (win1_3.rect t)).set ↔ _
  rw [View.set_slice_whole, Rect.mem_set_unit]
  exact Iff.rfl

/-- Row `r` of the output array lies in the block of point `r / 5000`, which writes its block back. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, e0, e1⟩ := blockIndex1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

end SecondTransform

/-- The output array after the region is the reference's product of the rectified, biased first array the region reads
    and the weights. -/
theorem final1 (c : Dev nD) :
    (dat1 (F := Ideal) V c).arrAt 3 cfg1.N
      = Host.dotGeneral (F := Ideal) Cert.ReferenceIdeal.dot_S100000x64_S64x64_S100000x64_1_0_0_1_n_n none
          (maximumf (addf (agg1 V c) (Cert.ReferenceIdeal.Read.val_main_v44 (F := Ideal) (bias1 V c)))
            (Cert.ReferenceIdeal.Read.val_main_call0_v0 (F := Ideal)))
          (wts1 V c) :=
  (dat1 (F := Ideal) V c).arrAt_eq_of_cover 3 _ (fun t _ => SecondTransform.flushed1_eq V c t) SecondTransform.covered1

end Cert.KernelIdeal.Val

end
-- ==== Proof.ValueKernelIdeal.Value2.lean ====
/-
  What region 2 leaves in its output array, over the extended reals. The scratch after point `t` holds, at graph `g`
  and feature `f`, the sum over the node rows of the points up to `t` whose graph id is `g` of the rectified biased
  feature: a one-hot entry is one or zero, one times a value is the value and zero times a value is zero, so each
  point's product adds exactly the rows of its graph. After the last point this is the sum over all rows with graph id
  `g`, which is the reference's accumulating scatter of the rectified biased rows at the graph ids, onto zeros.
-/
import proofs.«407529_j25701084299499_1_alg».proof.Proof.FrameKernelIdeal.Region2
import proofs.«407529_j25701084299499_1_alg».proof.Proof.RefSide
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx
open scoped BigOperators

/-! ## Words and sums: the one-hot entry, a product with it, the points' partial sums, rows by point -/

/-- A 32-bit word is the word of a graph number below 1024 exactly when, read signed, it is that number. -/
theorem word_eq_iff_toInt (x : BitVec 32) (g : Fin 1024) : x = BitVec.ofNat 32 g.val ↔ x.toInt = (g.val : ℤ) := by
  have hg : (BitVec.ofNat 32 g.val).toInt = (g.val : ℤ) := by
    have hlt := g.isLt
    rw [BitVec.toInt_eq_toNat_cond, BitVec.toNat_ofNat, Nat.mod_eq_of_lt (by omega), if_pos (by omega)]
  constructor
  · rintro rfl; exact hg
  · intro h; exact BitVec.eq_of_toInt_eq (h.trans hg.symm)

/-- An equality compare of two words answers the bit one exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := by simpa using h
    rw [hb]
    exact ⟨fun e => absurd e (by decide), fun e => absurd e h⟩

/-- A one-bit word widened unsigned to 32 bits and converted is one where the bit is set, zero where it is not. -/
theorem sitofp_extui_bit (b : BitVec 1) :
    FloatOps.sitofp (F := Ideal) .f32 (b.setWidth 32) = if b = 1#1 then (1 : EReal) else 0 := by
  rcases BitVec.eq_zero_or_eq_one b with h | h
  · subst h
    have e : (BitVec.setWidth 32 (0#1)).toInt = 0 := by decide
    show (((BitVec.setWidth 32 (0#1)).toInt : ℝ) : EReal) = _
    rw [e, if_neg (by decide)]; simp
  · subst h
    have e : (BitVec.setWidth 32 (1#1)).toInt = 1 := by decide
    show (((BitVec.setWidth 32 (1#1)).toInt : ℝ) : EReal) = _
    rw [e, if_pos rfl]; simp

/-- A sum of products with a zero-or-one factor keeps the terms where the factor is one: one times a value is the value
    and zero times a value is zero, for every extended real. -/
theorem sum_indicator_mul {ι : Type} [Fintype ι] (p : ι → Prop) [DecidablePred p] (v : ι → EReal) :
    ∑ r, (if p r then (1 : EReal) else 0) * v r = ∑ r, if p r then v r else 0 :=
  Finset.sum_congr rfl fun r _ => by
    by_cases h : p r
    · rw [if_pos h, if_pos h, one_mul]
    · rw [if_neg h, if_neg h, zero_mul]

/-- The partial sum over the points up to the first is the first point's term. -/
theorem sum_upto_zero {N : ℕ} (S : Fin N → EReal) (h : 0 < N) :
    (∑ t : Fin N, if t.val ≤ 0 then S t else 0) = S ⟨0, h⟩ := by
  have e : ∀ t : Fin N, (if t.val ≤ 0 then S t else 0) = if t = ⟨0, h⟩ then S t else 0 := fun t => by
    by_cases h0 : t.val ≤ 0
    · rw [if_pos h0, if_pos (Fin.ext (by show t.val = 0; omega))]
    · rw [if_neg h0, if_neg (fun e => h0 (by rw [e]))]
  rw [Finset.sum_congr rfl fun t _ => e t, Finset.sum_ite_eq' Finset.univ (⟨0, h⟩ : Fin N) S, if_pos (Finset.mem_univ _)]

/-- The partial sum over the points up to the next one adds the next point's term. -/
theorem sum_upto_succ {N : ℕ} (S : Fin N → EReal) (n : ℕ) (h : n + 1 < N) :
    (∑ t : Fin N, if t.val ≤ n + 1 then S t else 0) = (∑ t : Fin N, if t.val ≤ n then S t else 0) + S ⟨n + 1, h⟩ := by
  have e : ∀ t : Fin N, (if t.val ≤ n + 1 then S t else 0)
      = (if t.val ≤ n then S t else 0) + (if t = ⟨n + 1, h⟩ then S t else 0) := fun t => by
    by_cases h1 : t.val ≤ n
    · rw [if_pos (by omega), if_pos h1, if_neg (fun e => by rw [e] at h1; exact absurd h1 (by show ¬ n + 1 ≤ n; omega)), add_zero]
    · by_cases h2 : t.val = n + 1
      · rw [if_pos (by omega), if_neg h1, if_pos (Fin.ext h2), zero_add]
      · rw [if_neg (by omega), if_neg h1, if_neg (fun e => h2 (by rw [e])), add_zero]
  rw [Finset.sum_congr rfl fun t _ => e t, Finset.sum_add_distrib,
    Finset.sum_ite_eq' Finset.univ (⟨n + 1, h⟩ : Fin N) S, if_pos (Finset.mem_univ _)]

/-- Once every point is in, the partial sum is the whole sum. -/
theorem sum_upto_all {N : ℕ} (S : Fin N → EReal) (n : ℕ) (h : N ≤ n + 1) :
    (∑ t : Fin N, if t.val ≤ n then S t else 0) = ∑ t : Fin N, S t :=
  Finset.sum_congr rfl fun t _ => if_pos (by have := t.isLt; omega)

/-- Node row `r` of point `t`: the points' blocks of 2000 rows follow one another. -/
def rowOf (t : Fin 50) (r : Fin 2000) : Fin 100000 := ⟨t.val * 2000 + r.val, by have := t.isLt; have := r.isLt; omega⟩

theorem rowOf_val (t : Fin 50) (r : Fin 2000) : (rowOf t r).val = t.val * 2000 + r.val := rfl

/-- Every node row is one row of one point. -/
def rowEquiv : Fin 50 × Fin 2000 ≃ Fin 100000 where
  toFun p := rowOf p.1 p.2
  invFun i := (⟨i.val / 2000, by have := i.isLt; omega⟩, ⟨i.val % 2000, by omega⟩)
  left_inv p := Prod.ext
    (Fin.ext (by show (p.1.val * 2000 + p.2.val) / 2000 = p.1.val; have := p.2.isLt; omega))
    (Fin.ext (by show (p.1.val * 2000 + p.2.val) % 2000 = p.2.val; have := p.2.isLt; omega))
  right_inv i := Fin.ext (by show i.val / 2000 * 2000 + i.val % 2000 = i.val; omega)

/-- A sum over all node rows is the sum over the points of the sums over each point's rows. -/
theorem sum_rows (Fn : Fin 100000 → EReal) : ∑ i, Fn i = ∑ t : Fin 50, ∑ r : Fin 2000, Fn (rowOf t r) := by
  rw [← Equiv.sum_comp rowEquiv Fn, Fintype.sum_prod_type]
  rfl

/-! ## Where an update row lands: the reference's scatter record read at an update index -/

/-- The reference's scatter record: updates [100000,64] at start indices [100000,1] into [1024,64]. -/
abbrev scat : ScatterDims S1024x64 S100000x1 S100000x64 := Cert.ReferenceIdeal.scatter_S1024x64_S100000x1_S100000x64_1_0_0_1

/-- On the graph axis the window starts at the update row's graph id, read signed. -/
theorem scat_start_0 (j : S100000x64.Idx) (idx : IVec S100000x1 32) :
    scat.start j idx 0 = (idx (ix2 (j 0) (0 : Fin 1))).toInt := by
  unfold ScatterDims.start
  rw [dif_pos (show (0 : Fin S1024x64.rank) ∈ scat.scatterDimsToOperandDims by decide)]
  have hsi : scat.siIdx j ⟨List.idxOf (0 : Fin S1024x64.rank) scat.scatterDimsToOperandDims,
      List.idxOf_lt_length_iff.2 (by decide)⟩ = ix2 (j 0) (0 : Fin 1) := by
    funext b; refine Fin.ext ?_
    match b with
    | ⟨0, _⟩ => rfl
    | ⟨1, _⟩ => rfl
  exact congrArg (fun k => (idx k).toInt) hsi

/-- On the feature axis the window starts at zero: the start indices name the graph axis only. -/
theorem scat_start_1 (j : S100000x64.Idx) (idx : IVec S100000x1 32) : scat.start j idx 1 = 0 := by
  unfold ScatterDims.start
  rw [dif_neg (show ¬(1 : Fin S1024x64.rank) ∈ scat.scatterDimsToOperandDims by decide)]

/-- The graph axis is inserted: the window has no extent on it. -/
theorem scat_window_0 (j : S100000x64.Idx) : scat.window j 0 = 0 := by
  unfold ScatterDims.window
  rw [dif_neg (show ¬(0 : Fin S1024x64.rank) ∈ scat.sKept by decide)]

/-- On the feature axis the window coordinate is the update's feature. -/
theorem scat_window_1 (j : S100000x64.Idx) : scat.window j 1 = (j 1).val := by
  unfold ScatterDims.window
  rw [dif_pos (show (1 : Fin S1024x64.rank) ∈ scat.sKept by decide)]
  rfl

/-- AN UPDATE LANDS on graph `g`, feature `f` exactly when its row's graph id is the word of `g` and its feature is
    `f`: an id outside the graphs' range lands nowhere. -/
theorem scat_lands_iff (j : S100000x64.Idx) (idx : IVec S100000x1 32) (g : Fin 1024) (f : Fin 64) :
    scat.resultIdx? j idx = some (ix2 g f) ↔ idx (ix2 (j 0) (0 : Fin 1)) = BitVec.ofNat 32 g.val ∧ j 1 = f := by
  rw [word_eq_iff_toInt]
  have s0 : scat.start j idx 0 + (scat.window j 0 : ℤ) = (idx (ix2 (j 0) (0 : Fin 1))).toInt := by
    rw [scat_start_0, scat_window_0]; simp
  have s1 : scat.start j idx 1 + (scat.window j 1 : ℤ) = ((j 1).val : ℤ) := by
    rw [scat_start_1, scat_window_1]; simp
  unfold ScatterDims.resultIdx?
  constructor
  · intro h
    split at h
    · rename_i hb
      have e := Option.some.inj h
      have e0 : (scat.start j idx 0 + (scat.window j 0 : ℤ)).toNat = g.val := congrArg (fun x => (x 0).val) e
      have e1 : (scat.start j idx 1 + (scat.window j 1 : ℤ)).toNat = f.val := congrArg (fun x => (x 1).val) e
      have b0 := (hb 0).1
      rw [s0] at e0 b0
      rw [s1] at e1
      exact ⟨by omega, Fin.ext (by omega)⟩
    · exact absurd h (by simp)
  · rintro ⟨h0, h1⟩
    have hg := g.isLt
    have hf := f.isLt
    have hb : ∀ a, 0 ≤ scat.start j idx a + (scat.window j a : ℤ) ∧ scat.start j idx a + (scat.window j a : ℤ) < (S1024x64.size a : ℤ) := by
      intro a
      match a with
      | ⟨0, _⟩ =>
        show 0 ≤ scat.start j idx 0 + (scat.window j 0 : ℤ) ∧ scat.start j idx 0 + (scat.window j 0 : ℤ) < ((1024 : ℕ) : ℤ)
        rw [s0, h0]; omega
      | ⟨1, _⟩ =>
        show 0 ≤ scat.start j idx 1 + (scat.window j 1 : ℤ) ∧ scat.start j idx 1 + (scat.window j 1 : ℤ) < ((64 : ℕ) : ℤ)
        rw [s1, h1]; omega
    rw [dif_pos hb]
    refine congrArg some (funext fun a => Fin.ext ?_)
    match a with
    | ⟨0, _⟩ =>
      show (scat.start j idx 0 + (scat.window j 0 : ℤ)).toNat = g.val
      rw [s0, h0]; omega
    | ⟨1, _⟩ =>
      show (scat.start j idx 1 + (scat.window j 1 : ℤ)).toNat = f.val
      rw [s1, h1]; omega

/-! ## One point's update at a graph and a feature -/

/-- The point's rows after bias and rectifier, as the payload forms them for the matrix unit. -/
def rectRows (x : Vec Ideal S2000x64 .f32) (b : Vec Ideal S64 .f32) : FVec Ideal S2000x64 .bf16 :=
  truncf .bf16 (maximumf (addf (shapeCast S2000x64 x shapeCasts_S2000x64_S2000x64)
      (broadcastTo S2000x64 (shapeCast S1x64 b shapeCasts_S64_S1x64) broadcasts_S1x64_S2000x64))
    (broadcast S2000x64 (Scalar.ofBits (F := Ideal) .f32 0x00000000#32))) bitsLt_bf16_f32

/-- The one-hot matrix of the point's graph ids, one row per node row and one column per graph, as the payload forms it. -/
def oneHot (id : Vec Ideal S2000x1 .i32) : FVec Ideal S2000x1024 .bf16 :=
  truncf .bf16 (sitofp .f32 (extui 32 (cmpi .eq
      (broadcastTo S2000x1024 (shapeCast S2000x1 id shapeCasts_S2000x1_S2000x1) broadcasts_S2000x1_S2000x1024)
      (iota .tc S2000x1024 32 [1] iota_S2000x1024_d1_w32)) natLt_1_32)) bitsLt_bf16_f32

/-- The payload is the scratch it read plus the one-hot matrix contracted with the rectified rows over the point's rows. -/
theorem pay2_eq (x : Vec Ideal S2000x64 .f32) (b : Vec Ideal S64 .f32) (id : Vec Ideal S2000x1 .i32) (prev : Vec Ideal S1024x64 .f32) :
    k2_pay2 (F := Ideal) x b id prev
      = shapeCast S1024x64 (addf prev (matmul dot_S2000x1024_S2000x64_S1024x64_0_0_1_1_n_n none (oneHot id) (rectRows x b)
          (constant S1024x64 .f32 0x00000000#32))) shapeCasts_S1024x64_S1024x64 := rfl

/-- A rectified row at a node row and a feature: the larger of the biased entry and zero. -/
theorem rectRows_apply (x : Vec Ideal S2000x64 .f32) (b : Vec Ideal S64 .f32) (r : Fin 2000) (f : Fin 64) :
    rectRows x b (ix2 r f) = max (x (ix2 r f) + b (ix1 f)) (Ideal.ofBits .f32 0x00000000#32) := by
  show max (shapeCast S2000x64 x shapeCasts_S2000x64_S2000x64 (ix2 r f)
      + broadcastTo S2000x64 (shapeCast S1x64 b shapeCasts_S64_S1x64) broadcasts_S1x64_S2000x64 (ix2 r f))
      (Ideal.ofBits .f32 0x00000000#32) = _
  rw [shapeCast_self, broadcastTo_1b_ab_apply, shapeCast_a_1a_apply]

/-- A column of ids broadcast along the graphs reads, at a node row and a graph, the row's id. -/
theorem broadcastTo_col_apply (v : IVec S2000x1 32) (r : Fin 2000) (g : Fin 1024) :
    broadcastTo S2000x1024 v broadcasts_S2000x1_S2000x1024 (ix2 r g) = v (ix2 r (0 : Fin 1)) := by
  refine broadcastTo_apply v broadcasts_S2000x1_S2000x1024 (ix2 r g) (ix2 r (0 : Fin 1)) fun ax => ?_
  match ax with
  | ⟨0, _⟩ =>
    show r.val = if (2000 : ℕ) = 1 then 0 else r.val
    rw [if_neg (by decide)]
  | ⟨1, _⟩ => rfl

/-- A one-hot entry at a node row and a graph: one where the row's id is the graph's word, zero elsewhere. -/
theorem oneHot_apply (id : Vec Ideal S2000x1 .i32) (r : Fin 2000) (g : Fin 1024) :
    oneHot id (ix2 r g) = if id (ix2 r (0 : Fin 1)) = BitVec.ofNat 32 g.val then (1 : EReal) else 0 := by
  show FloatOps.sitofp (F := Ideal) .f32 ((IntOp.cmpi .eq
      (broadcastTo S2000x1024 (shapeCast S2000x1 id shapeCasts_S2000x1_S2000x1) broadcasts_S2000x1_S2000x1024 (ix2 r g))
      (iota .tc S2000x1024 32 [1] iota_S2000x1024_d1_w32 (ix2 r g))).setWidth 32) = _
  rw [broadcastTo_col_apply, shapeCast_self, iota_single_apply, sitofp_extui_bit]
  exact if_congr (cmpi_eq_one_iff _ _) rfl rfl

/-! The matmul's operand indices at a result index and a contraction index, axis by axis: both operands are
    contracted over their first axis, the point's rows. -/

theorem lhs_pool_0 (i : S1024x64.Idx) (q : dot_S2000x1024_S2000x64_S1024x64_0_0_1_1_n_n.contr.Idx) :
    (dot_S2000x1024_S2000x64_S1024x64_0_0_1_1_n_n.lhsIdx i q 0).val = (q ⟨0, by decide⟩).val :=
  dot_S2000x1024_S2000x64_S1024x64_0_0_1_1_n_n.lhsIdx_val_of_single rfl i q
theorem lhs_pool_1 (i : S1024x64.Idx) (q : dot_S2000x1024_S2000x64_S1024x64_0_0_1_1_n_n.contr.Idx) :
    (dot_S2000x1024_S2000x64_S1024x64_0_0_1_1_n_n.lhsIdx i q 1).val = (i 0).val := by
  unfold DotDims.lhsIdx
  rw [dif_neg (show ¬(1 : Fin S2000x1024.rank) ∈ dot_S2000x1024_S2000x64_S1024x64_0_0_1_1_n_n.lhsBatch by decide), dif_pos (show (1 : Fin S2000x1024.rank) ∈ dot_S2000x1024_S2000x64_S1024x64_0_0_1_1_n_n.lhsNonContracting by decide)]
  rfl
theorem rhs_pool_0 (i : S1024x64.Idx) (q : dot_S2000x1024_S2000x64_S1024x64_0_0_1_1_n_n.contr.Idx) :
    (dot_S2000x1024_S2000x64_S1024x64_0_0_1_1_n_n.rhsIdx i q 0).val = (q ⟨0, by decide⟩).val :=
  dot_S2000x1024_S2000x64_S1024x64_0_0_1_1_n_n.rhsIdx_val_of_single rfl i q
theorem rhs_pool_1 (i : S1024x64.Idx) (q : dot_S2000x1024_S2000x64_S1024x64_0_0_1_1_n_n.contr.Idx) :
    (dot_S2000x1024_S2000x64_S1024x64_0_0_1_1_n_n.rhsIdx i q 1).val = (i 1).val := by
  unfold DotDims.rhsIdx
  rw [dif_neg (show ¬(1 : Fin S2000x64.rank) ∈ dot_S2000x1024_S2000x64_S1024x64_0_0_1_1_n_n.rhsBatch by decide), dif_pos (show (1 : Fin S2000x64.rank) ∈ dot_S2000x1024_S2000x64_S1024x64_0_0_1_1_n_n.rhsNonContracting by decide)]
  rfl

/-- The contraction at a graph and a feature: the sum over the point's rows of the one-hot entry times the row's entry. -/
theorem pool_matmul_apply (A : FVec Ideal S2000x1024 .bf16) (B : FVec Ideal S2000x64 .bf16) (g : Fin 1024) (f : Fin 64) :
    matmul dot_S2000x1024_S2000x64_S1024x64_0_0_1_1_n_n none A B (constant S1024x64 .f32 0x00000000#32) (ix2 g f)
      = ∑ r : Fin 2000, A (ix2 r g) * B (ix2 r f) := by
  refine (Ideal.matmul_constant_zero_apply dot_S2000x1024_S2000x64_S1024x64_0_0_1_1_n_n none A B (ix2 g f)).trans ?_
  rw [← Equiv.sum_comp (ValueIdx.contrEquiv1 dot_S2000x1024_S2000x64_S1024x64_0_0_1_1_n_n 2000 rfl rfl).symm]
  refine Finset.sum_congr rfl fun k _ => ?_
  have hk := ValueIdx.contrEquiv1_symm_val dot_S2000x1024_S2000x64_S1024x64_0_0_1_1_n_n 2000 rfl rfl k
  have el : dot_S2000x1024_S2000x64_S1024x64_0_0_1_1_n_n.lhsIdx (ix2 g f) ((ValueIdx.contrEquiv1 dot_S2000x1024_S2000x64_S1024x64_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x1024_S2000x64_S1024x64_0_0_1_1_n_n.rhsIdx (ix2 g f) ((ValueIdx.contrEquiv1 dot_S2000x1024_S2000x64_S1024x64_0_0_1_1_n_n 2000 rfl rfl).symm k) = ix2 k f := funext fun a => Fin.ext (by
    match a with
    | ⟨0, _⟩ => exact (rhs_pool_0 _ _).trans hk
    | ⟨1, _⟩ => exact rhs_pool_1 _ _)
  rw [el, er]

/-- ONE POINT'S UPDATE at graph `g` and feature `f`: what the scratch held there plus the rectified biased entries, at
    feature `f`, of the point's rows whose graph id is the word of `g`. -/
theorem pay2_apply (x : Vec Ideal S2000x64 .f32) (b : Vec Ideal S64 .f32) (id : Vec Ideal S2000x1 .i32) (prev : Vec Ideal S1024x64 .f32)
    (g : Fin 1024) (f : Fin 64) :
    k2_pay2 (F := Ideal) x b id prev (ix2 g f)
      = prev (ix2 g f) + ∑ r : Fin 2000, if id (ix2 r (0 : Fin 1)) = BitVec.ofNat 32 g.val
          then max (x (ix2 r f) + b (ix1 f)) (Ideal.ofBits .f32 0x00000000#32) else 0 := by
  rw [pay2_eq, shapeCast_self]
  show prev (ix2 g f) + matmul dot_S2000x1024_S2000x64_S1024x64_0_0_1_1_n_n none (oneHot id) (rectRows x b)
      (constant S1024x64 .f32 0x00000000#32) (ix2 g f) = _
  rw [pool_matmul_apply]
  refine congrArg (prev (ix2 g f) + ·) ?_
  rw [← sum_indicator_mul]
  exact Finset.sum_congr rfl fun r _ => by rw [oneHot_apply, rectRows_apply]

variable (V : (c : Dev nD) → (b : Ref sig .tc) → Buf (Elt Ideal) ((c : Thread nD τ).loc b))

/-- The arrays the region reads, at their literal types: the second aggregation, the second bias, the graph ids as a column. -/
abbrev agg2 (c : Dev nD) : FVec Ideal S100000x64 .f32 := V c main_v55
abbrev bias2 (c : Dev nD) : FVec Ideal S64 .f32 := V c main_arg4
abbrev gid2 (c : Dev nD) : IVec S100000x1 32 := V c main_v56

/-! ## The region's scratch and output buffers: the reset scratch, a point's step, the copy to the output window -/

theorem zeros2 : (![0, 0] : Fin 2 → Nat) = fun _ => 0 := funext fun a => by fin_cases a <;> rfl
theorem zeros1 : (![0] : Fin 1 → Nat) = fun _ => 0 := funext fun a => by fin_cases a <;> rfl

/-- The reset scratch is zero at every graph and feature. -/
theorem zeroAcc2_apply (g : Fin 1024) (f : Fin 64) : zeroAcc2 (F := Ideal) (ix2 g f) = 0 := by
  unfold zeroAcc2
  rw [View.canon_unit_zero zeros2]
  show shapeCast S1024x64 (broadcast S1024x64 (Scalar.ofBits (F := Ideal) .f32 0x00000000#32)) shapeCasts_S1024x64_S1024x64 (ix2 g f) = 0
  rw [shapeCast_self]
  exact Ideal.ofBits_zero_f32

/-- A point's step is the payload of its three blocks and the scratch before it. -/
theorem poolStep2_eq (x0 : Vec Ideal S2000x64 .f32) (x1 : Vec Ideal S64 .f32) (x2 : Vec Ideal S2000x1 .i32) (prev : Vec Ideal S1024x64 .f32) :
    poolStep2 (F := Ideal) x0 x1 x2 prev = k2_pay2 (F := Ideal) x0 x1 x2 prev := by
  unfold poolStep2
  rw [View.canon_unit_zero zeros2]
  simp only [View.ld_unit_zero (S := S2000x64) zeros2, View.ld_unit_zero (S := S64) zeros1,
    View.ld_unit_zero (S := S2000x1) zeros2, View.ld_unit_zero (S := S1024x64) zeros2]

/-- The output window's buffer after the copy is the scratch. -/
theorem outAt2_eq (c : Dev nD) (t : Fin cfg2.N) : outAt2 (F := Ideal) V c t = scratchAt2 (F := Ideal) V c t.val t.isLt := by
  unfold outAt2
  rw [View.canon_unit_zero zeros2, View.ld_unit_zero (S := S1024x64) zeros2]

/-! ## The blocks a point reads, through their windows -/

/-- The printed index maps over the grid: the rows' and the ids' blocks move with the point along the rows; the bias's and
    the output's blocks stay. -/
theorem idx_facts2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- The rows' block at a point reads the aggregation at the point's rows. -/
theorem rowsBlk_apply (c : Dev nD) (t : Fin cfg2.N) (ht : t.val < 50) (r : Fin 2000) (f : Fin 64) :
    iblk2 (F := Ideal) V c 0 t (ix2 r f) = agg2 V c (ix2 (rowOf ⟨t.val, ht⟩ r) f) := by
  obtain ⟨e0, e1, -⟩ := idx_facts2 t
  show V c main_v55 (((cfg2.win 0).blk t).view.emb (ix2 r f)) = V c main_v55 (ix2 (rowOf ⟨t.val, ht⟩ r) f)
  refine congrArg (V c main_v55) (funext fun a => Fin.ext ?_)
  match a with
  | ⟨0, _⟩ => show win2_0.index t (0 : Fin 2) * 2000 + 1 * r.val = t.val * 2000 + r.val; rw [e0]; omega
  | ⟨1, _⟩ => show win2_0.index t (1 : Fin 2) * 64 + 1 * f.val = f.val; rw [e1]; omega

/-- The bias's block at every point is the whole bias. -/
theorem biasBlk_apply (c : Dev nD) (t : Fin cfg2.N) (f : Fin 64) :
    iblk2 (F := Ideal) V c 1 t (ix1 f) = bias2 V c (ix1 f) := by
  obtain ⟨-, -, e2, -⟩ := idx_facts2 t
  show V c main_arg4 (((cfg2.win 1).blk t).view.emb (ix1 f)) = V c main_arg4 (ix1 f)
  refine congrArg (V c main_arg4) (funext fun a => Fin.ext ?_)
  match a with
  | ⟨0, _⟩ => show win2_1.index t (0 : Fin 1) * 64 + 1 * f.val = f.val; rw [e2]; omega

/-- The ids' block at a point reads the graph ids of the point's rows. -/
theorem idsBlk_apply (c : Dev nD) (t : Fin cfg2.N) (ht : t.val < 50) (r : Fin 2000) :
    iblk2 (F := Ideal) V c 2 t (ix2 r (0 : Fin 1)) = gid2 V c (ix2 (rowOf ⟨t.val, ht⟩ r) (0 : Fin 1)) := by
  obtain ⟨-, -, -, e3, e4, -⟩ := idx_facts2 t
  show V c main_v56 (((cfg2.win 2).blk t).view.emb (ix2 r (0 : Fin 1))) = V c main_v56 (ix2 (rowOf ⟨t.val, ht⟩ r) (0 : Fin 1))
  refine congrArg (V c main_v56) (funext fun a => Fin.ext ?_)
  match a with
  | ⟨0, _⟩ => show win2_2.index t (0 : Fin 2) * 2000 + 1 * r.val = t.val * 2000 + r.val; rw [e3]; omega
  | ⟨1, _⟩ => show win2_2.index t (1 : Fin 2) * 1 + 1 * 0 = 0; rw [e4]

/-! ## The reference's side at an index -/

/-- The reference's update rows: the aggregation plus the bias, rectified. -/
def upd2 (c : Dev nD) : FVec Ideal S100000x64 .f32 :=
  maximumf (addf (agg2 V c) (Cert.ReferenceIdeal.Read.val_main_v61 (F := Ideal) (bias2 V c)))
    (Cert.ReferenceIdeal.Read.val_main_call1_v0 (F := Ideal))

/-- An update row at a node row and a feature: the larger of the biased entry and zero. -/
theorem upd2_apply (c : Dev nD) (i : Fin 100000) (f : Fin 64) :
    upd2 V c (ix2 i f) = max (agg2 V c (ix2 i f) + bias2 V c (ix1 f)) (Ideal.ofBits .f32 0x00000000#32) := by
  show max (agg2 V c (ix2 i f) + Cert.ReferenceIdeal.Read.val_main_v61 (F := Ideal) (bias2 V c) (ix2 i f))
      (Cert.ReferenceIdeal.Read.val_main_call1_v0 (F := Ideal) (ix2 i f)) = _
  rw [Cert.ReferenceIdeal.Read.val_main_v61_apply, Cert.ReferenceIdeal.Read.val_main_v60_apply,
    Cert.ReferenceIdeal.Read.val_main_call1_v0_apply, Cert.ReferenceIdeal.Read.val_main_call1_cst_apply]
  have e : Cert.ReferenceIdeal.Read.idx_main_v60 (Cert.ReferenceIdeal.Read.idx_main_v61 (ix2 i f)) = ix1 f :=
    funext fun a => by match a with | ⟨0, _⟩ => rfl
  rw [e]
  rfl

/-- Node row `i`'s share of graph `g` at feature `f`: its update entry when its graph id is the word of `g`, nothing otherwise. -/
def share (c : Dev nD) (g : Fin 1024) (f : Fin 64) (i : Fin 100000) : EReal :=
  if gid2 V c (ix2 i (0 : Fin 1)) = BitVec.ofNat 32 g.val then upd2 V c (ix2 i f) else 0

/-- A sum over features of terms kept under a condition and at one feature only is that feature's term under the condition. -/
theorem sum_ite_and_eq {n : ℕ} (P : Prop) [Decidable P] (f : Fin n) (u : Fin n → EReal) :
    (∑ q : Fin n, if P ∧ q = f then u q else 0) = if P then u f else 0 := by
  by_cases hP : P
  · rw [if_pos hP]
    have e : ∀ q : Fin n, (if P ∧ q = f then u q else 0) = if q = f then u q else 0 :=
      fun q => if_congr (and_iff_right hP) rfl rfl
    rw [Finset.sum_congr rfl fun q _ => e q, Finset.sum_ite_eq' Finset.univ f u, if_pos (Finset.mem_univ _)]
  · rw [if_neg hP]
    exact Finset.sum_eq_zero fun q _ => if_neg fun h => hP h.1

/-- The reference's accumulating scatter, onto zeros, of the update rows at the graph ids. -/
def pooled (c : Dev nD) : FVec Ideal S1024x64 .f32 :=
  Host.scatterAdd (F := Ideal) Cert.ReferenceIdeal.scatter_S1024x64_S100000x1_S100000x64_1_0_0_1
    (Cert.ReferenceIdeal.Read.val_main_v64 (F := Ideal)) (gid2 V c) (upd2 V c)

/-- THE REFERENCE at graph `g` and feature `f`: the sum of every node row's share. -/
theorem pooled_apply (c : Dev nD) (g : Fin 1024) (f : Fin 64) :
    pooled V c (ix2 g f) = ∑ i : Fin 100000, share V c g f i := by
  show Ideal.hostScatterAdd scat (Cert.ReferenceIdeal.Read.val_main_v64 (F := Ideal)) (gid2 V c) (upd2 V c) (ix2 g f) = _
  dsimp only [Ideal.hostScatterAdd]
  rw [Cert.ReferenceIdeal.Read.val_main_v64_apply, Cert.ReferenceIdeal.Read.val_main_cst_11_apply]
  show Ideal.ofBits .f32 0x00000000#32 + _ = _
  rw [Ideal.ofBits_zero_f32, zero_add, Finset.sum_filter, sum_idx2]
  refine Finset.sum_congr rfl fun i _ => ?_
  unfold share
  rw [← sum_ite_and_eq (gid2 V c (ix2 i (0 : Fin 1)) = BitVec.ofNat 32 g.val) f (fun q => upd2 V c (ix2 i q))]
  exact Finset.sum_congr rfl fun q _ => if_congr (scat_lands_iff (ix2 i q) (gid2 V c) g f) rfl rfl

/-! ## The scratch after each point, by induction over the points -/

/-- A POINT'S STEP at graph `g` and feature `f`: the scratch before it plus the shares of the point's rows. -/
theorem point_apply (c : Dev nD) (t : Fin cfg2.N) (ht : t.val < 50) (prev : Vec Ideal S1024x64 .f32) (g : Fin 1024) (f : Fin 64) :
    poolStep2 (F := Ideal) (iblk2 (F := Ideal) V c 0 t) (iblk2 (F := Ideal) V c 1 t) (iblk2 (F := Ideal) V c 2 t) prev (ix2 g f)
      = prev (ix2 g f) + ∑ r : Fin 2000, share V c g f (rowOf ⟨t.val, ht⟩ r) := by
  refine (congrFun (poolStep2_eq (iblk2 (F := Ideal) V c 0 t) (iblk2 (F := Ideal) V c 1 t) (iblk2 (F := Ideal) V c 2 t) prev) (ix2 g f)).trans ?_
  refine (pay2_apply (iblk2 (F := Ideal) V c 0 t) (iblk2 (F := Ideal) V c 1 t) (iblk2 (F := Ideal) V c 2 t) prev g f).trans ?_
  refine congrArg (prev (ix2 g f) + ·) (Finset.sum_congr rfl fun r _ => ?_)
  unfold share
  rw [upd2_apply]
  refine if_congr ?_ ?_ rfl
  · rw [idsBlk_apply V c t ht r]
  · rw [rowsBlk_apply V c t ht r f, biasBlk_apply V c t f]

/-- THE SCRATCH AFTER POINT `n` at graph `g` and feature `f`: the shares of the rows of the points up to `n`. -/
theorem scratch_upto (c : Dev nD) (g : Fin 1024) (f : Fin 64) (n : ℕ) (h : n < cfg2.N) :
    scratchAt2 (F := Ideal) V c n h (ix2 g f)
      = ∑ t : Fin 50, if t.val ≤ n then ∑ r : Fin 2000, share V c g f (rowOf t r) else 0 := by
  induction n with
  | zero =>
    rw [sum_upto_zero (fun t : Fin 50 => ∑ r : Fin 2000, share V c g f (rowOf t r)) (by decide)]
    show poolStep2 (F := Ideal) (iblk2 (F := Ideal) V c 0 ⟨0, h⟩) (iblk2 (F := Ideal) V c 1 ⟨0, h⟩) (iblk2 (F := Ideal) V c 2 ⟨0, h⟩) zeroAcc2 (ix2 g f) = _
    rw [point_apply V c ⟨0, h⟩ (Nat.zero_lt_succ 49) zeroAcc2 g f, zeroAcc2_apply, zero_add]
  | succ n ih =>
    have h50 : n + 1 < 50 := Nat.lt_of_lt_of_eq h N_2
    rw [sum_upto_succ (fun t : Fin 50 => ∑ r : Fin 2000, share V c g f (rowOf t r)) n h50]
    show poolStep2 (F := Ideal) (iblk2 (F := Ideal) V c 0 ⟨n + 1, h⟩) (iblk2 (F := Ideal) V c 1 ⟨n + 1, h⟩) (iblk2 (F := Ideal) V c 2 ⟨n + 1, h⟩)
      (scratchAt2 (F := Ideal) V c n (Nat.lt_of_succ_lt h)) (ix2 g f) = _
    rw [point_apply V c ⟨n + 1, h⟩ h50 _ g f, ih]

/-- After the last point the scratch is the reference's scatter, at every graph and feature. -/
theorem scratch_last (c : Dev nD) (n : ℕ) (h : n < cfg2.N) (hn : n = 49) (j : S1024x64.Idx) :
    scratchAt2 (F := Ideal) V c n h j = pooled V c j := by
  obtain ⟨g, f, rfl⟩ : ∃ (g : Fin 1024) (f : Fin 64), j = ix2 g f := ⟨j 0, j 1, eq_ix2 j⟩
  rw [scratch_upto V c g f n h, sum_upto_all (fun t : Fin 50 => ∑ r : Fin 2000, share V c g f (rowOf t r)) n (by omega),
    pooled_apply, sum_rows]

/-! ## From the one block written back to the array -/

/-- WHAT THE LAST POINT WRITES BACK is the whole of the reference's scatter: the output's one block is its array. -/
theorem pooled_flushed_eq (c : Dev nD) (t : Fin cfg2.N) (hf : (cfg2.win 3).flush t = true) :
    (dat2 (F := Ideal) V c).flushed 3 t = ((cfg2.win 3).blk t).view.read (Elt Ideal) (pooled V c) := by
  have h49 : t.val = 49 := by
    have h1 := (flush2_3 t).mp hf
    have h2 : t.val < 50 := Nat.lt_of_lt_of_eq t.isLt N_2
    omega
  obtain ⟨-, -, -, -, -, e5, e6⟩ := idx_facts2 t
  show (cfg2.win 3).cut (grid2.coords t) ((dat2 (F := Ideal) V c).after 3 t) = _
  rw [after2_3, outAt2_eq]
  funext j
  show scratchAt2 (F := Ideal) V c t.val t.isLt j = pooled V c (((cfg2.win 3).blk t).view.emb j)
  have he : ((cfg2.win 3).blk t).view.emb j = j := funext fun a => Fin.ext (by
    match a with
    | ⟨0, _⟩ => show win2_3.index t (0 : Fin 2) * 1024 + 1 * (j 0).val = (j 0).val; rw [e5]; omega
    | ⟨1, _⟩ => show win2_3.index t (1 : Fin 2) * 64 + 1 * (j 1).val = (j 1).val; rw [e6]; omega)
  rw [he]
  exact scratch_last V c t.val t.isLt h49 j

/-- An index of the output array is in point `t`'s block iff each coordinate is in the block's range on its axis. -/
theorem mem_blk3 (t : Fin cfg2.N) (i : S1024x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v57).slice (win2_3.rect t)).set ↔ _
  rw [View.set_slice_whole, Rect.mem_set_unit]
  exact Iff.rfl

/-- Every index of the output array is in the block the last point writes back. -/
theorem cover3 (i : S1024x64.Idx) :
    ∃ t : Fin cfg2.N, (cfg2.win 3).flush t = true ∧ i ∈ ((cfg2.win 3).blk t).view.set := by
  have hN : 49 < cfg2.N := Nat.lt_of_lt_of_eq (by omega) N_2.symm
  refine ⟨⟨49, hN⟩, (flush2_3 ⟨49, hN⟩).mpr rfl, ?_⟩
  obtain ⟨-, -, -, -, -, e5, e6⟩ := idx_facts2 ⟨49, hN⟩
  rw [mem_blk3]
  intro a
  match a with
  | ⟨0, _⟩ =>
    show win2_3.index ⟨49, hN⟩ (0 : Fin 2) * 1024 ≤ (i 0).val ∧ (i 0).val < win2_3.index ⟨49, hN⟩ (0 : Fin 2) * 1024 + 1024
    have := idx2_lt0 i
    rw [e5]; omega
  | ⟨1, _⟩ =>
    show win2_3.index ⟨49, hN⟩ (1 : Fin 2) * 64 ≤ (i 1).val ∧ (i 1).val < win2_3.index ⟨49, hN⟩ (1 : Fin 2) * 64 + 64
    have := idx2_lt1 i
    rw [e6]; omega

/-- The output array after the region is the reference's scatter-add, onto zeros, of the rectified biased rows of the
    first array the region reads, at the graph ids of the third. -/
theorem final2 (c : Dev nD) :
    (dat2 (F := Ideal) V c).arrAt 3 cfg2.N
      = Host.scatterAdd (F := Ideal) Cert.ReferenceIdeal.scatter_S1024x64_S100000x1_S100000x64_1_0_0_1
          (Cert.ReferenceIdeal.Read.val_main_v64 (F := Ideal)) (gid2 V c)
          (maximumf (addf (agg2 V c) (Cert.ReferenceIdeal.Read.val_main_v61 (F := Ideal) (bias2 V c)))
            (Cert.ReferenceIdeal.Read.val_main_call1_v0 (F := Ideal))) :=
  (dat2 (F := Ideal) V c).arrAt_eq_of_cover 3 (pooled V c) (fun t hf => pooled_flushed_eq V c t hf) (fun i => cover3 i)

end Cert.KernelIdeal.Val

end
-- ==== Proof.ValueKernelIdeal.Value3.lean ====
/-
  What region 3 leaves in its output array, over the extended reals: its one grid point holds every array whole, and
  the block it writes back is the product of the pooled means and the last weight matrix plus the last bias on every
  row: the reference's last product and sum.
-/
import proofs.«407529_j25701084299499_1_alg».proof.Proof.FrameKernelIdeal.Region3
import proofs.«407529_j25701084299499_1_alg».proof.Proof.RefSide
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx (ix1 ix2 eq_ix2)

variable (V : (c : Dev nD) → (b : Ref sig .tc) → Buf (Elt Ideal) ((c : Thread nD τ).loc b))

/-- The arrays the region reads, at their literal types: the pooled means, the last weights, the last bias. -/
abbrev mean3 (c : Dev nD) : FVec Ideal S1024x64 .f32 := V c main_v66
abbrev wts3 (c : Dev nD) : FVec Ideal S64x3 .f32 := V c main_arg5
abbrev bias3 (c : Dev nD) : FVec Ideal S3 .f32 := V c main_arg6

/-! ## The body's payload at an entry -/

/-- On the left operand's row axis the kernel's product reads the output's row. -/
theorem lastdot_lhs_0 (j : S1024x3.Idx) (q : dot_S1024x64_S64x3_S1024x3_1_0_0_1_n_n.contr.Idx) :
    (dot_S1024x64_S64x3_S1024x3_1_0_0_1_n_n.lhsIdx j q 0).val = (j 0).val := by
  unfold DotDims.lhsIdx
  rw [dif_neg (show ¬(0 : Fin S1024x64.rank) ∈ dot_S1024x64_S64x3_S1024x3_1_0_0_1_n_n.lhsBatch by decide), dif_pos (show (0 : Fin S1024x64.rank) ∈ dot_S1024x64_S64x3_S1024x3_1_0_0_1_n_n.lhsNonContracting by decide)]
  rfl
/-- On the left operand's feature axis it reads the summation index. -/
theorem lastdot_lhs_1 (j : S1024x3.Idx) (q : dot_S1024x64_S64x3_S1024x3_1_0_0_1_n_n.contr.Idx) :
    (dot_S1024x64_S64x3_S1024x3_1_0_0_1_n_n.lhsIdx j q 1).val = (q ⟨0, by decide⟩).val :=
  dot_S1024x64_S64x3_S1024x3_1_0_0_1_n_n.lhsIdx_val_of_single rfl j q
/-- On the right operand's feature axis it reads the summation index. -/
theorem lastdot_rhs_0 (j : S1024x3.Idx) (q : dot_S1024x64_S64x3_S1024x3_1_0_0_1_n_n.contr.Idx) :
    (dot_S1024x64_S64x3_S1024x3_1_0_0_1_n_n.rhsIdx j q 0).val = (q ⟨0, by decide⟩).val :=
  dot_S1024x64_S64x3_S1024x3_1_0_0_1_n_n.rhsIdx_val_of_single rfl j q
/-- On the right operand's class axis it reads the output's column. -/
theorem lastdot_rhs_1 (j : S1024x3.Idx) (q : dot_S1024x64_S64x3_S1024x3_1_0_0_1_n_n.contr.Idx) :
    (dot_S1024x64_S64x3_S1024x3_1_0_0_1_n_n.rhsIdx j q 1).val = (j 1).val := by
  unfold DotDims.rhsIdx
  rw [dif_neg (show ¬(1 : Fin S64x3.rank) ∈ dot_S1024x64_S64x3_S1024x3_1_0_0_1_n_n.rhsBatch by decide), dif_pos (show (1 : Fin S64x3.rank) ∈ dot_S1024x64_S64x3_S1024x3_1_0_0_1_n_n.rhsNonContracting by decide)]
  rfl

/-- The body's payload at graph `p`, class `q`: over the extended reals the roundings to bf16 are the identity, the
    product onto the zero accumulator is the plain sum over the 64 features, and the bias, viewed as one row and
    repeated on every row, adds its entry `q`. -/
theorem classifier_payload_apply (x0 : Vec Ideal S1024x64 .f32) (x1 : Vec Ideal S64x3 .f32) (x2 : Vec Ideal S3 .f32)
    (p : Fin 1024) (q : Fin 3) :
    k3_pay1 (F := Ideal) x0 x1 x2 (ix2 p q) = (∑ k : Fin 64, x0 (ix2 p k) * x1 (ix2 k q)) + x2 (ix1 q) := by
  unfold k3_pay1
  simp only [shapeCast_self]
  refine (ValueIdx.addf_apply _ _ _).trans ?_
  refine congrArg₂ (· + ·) ?_ ?_
  · refine (Ideal.matmul_constant_zero_apply dot_S1024x64_S64x3_S1024x3_1_0_0_1_n_n none _ _ (ix2 p q)).trans ?_
    rw [← Equiv.sum_comp (ValueIdx.contrEquiv1 dot_S1024x64_S64x3_S1024x3_1_0_0_1_n_n 64 rfl rfl).symm]
    refine Finset.sum_congr rfl fun k _ => ?_
    have hk := ValueIdx.contrEquiv1_symm_val dot_S1024x64_S64x3_S1024x3_1_0_0_1_n_n 64 rfl rfl k
    have el : dot_S1024x64_S64x3_S1024x3_1_0_0_1_n_n.lhsIdx (ix2 p q) ((ValueIdx.contrEquiv1 dot_S1024x64_S64x3_S1024x3_1_0_0_1_n_n 64 rfl rfl).symm k) = ix2 p k := funext fun a => Fin.ext (by
      match a with
      | ⟨0, _⟩ => exact lastdot_lhs_0 _ _
      | ⟨1, _⟩ => exact (lastdot_lhs_1 _ _).trans hk)
    have er : dot_S1024x64_S64x3_S1024x3_1_0_0_1_n_n.rhsIdx (ix2 p q) ((ValueIdx.contrEquiv1 dot_S1024x64_S64x3_S1024x3_1_0_0_1_n_n 64 rfl rfl).symm k) = ix2 k q := funext fun a => Fin.ext (by
      match a with
      | ⟨0, _⟩ => exact (lastdot_rhs_0 _ _).trans hk
      | ⟨1, _⟩ => exact lastdot_rhs_1 _ _)
    rw [el, er]
    rfl
  · refine (ValueIdx.broadcastTo_1b_ab_apply _ _ p q).trans ?_
    exact ValueIdx.shapeCast_a_1a_apply x2 _ 0 q

/-! ## The reference's last product and sum at the same entry -/

/-- The reference's product of the pooled means and the weights plus its twice-broadcast bias, at graph `p`, class `q`:
    the same sum over the 64 features plus the bias's entry `q`. -/
theorem ref_classifier_apply (m : FVec Ideal S1024x64 .f32) (w : FVec Ideal S64x3 .f32) (b : FVec Ideal S3 .f32)
    (p : Fin 1024) (q : Fin 3) :
    addf (Host.dotGeneral (F := Ideal) Cert.ReferenceIdeal.dot_S1024x64_S64x3_S1024x3_1_0_0_1_n_n none m w) (Cert.ReferenceIdeal.Read.val_main_v78 (F := Ideal) b) (ix2 p q)
      = (∑ k : Fin 64, m (ix2 p k) * w (ix2 k q)) + b (ix1 q) := by
  refine (ValueIdx.addf_apply _ _ _).trans ?_
  refine congrArg₂ (· + ·) ?_ ?_
  · simp only [Host.dotGeneral]
    rw [Ideal.dotGeneral_apply, ← Equiv.sum_comp (ValueIdx.contrEquiv1 Cert.ReferenceIdeal.dot_S1024x64_S64x3_S1024x3_1_0_0_1_n_n 64 rfl rfl).symm]
    refine Finset.sum_congr rfl fun k _ => ?_
    have hk := ValueIdx.contrEquiv1_symm_val Cert.ReferenceIdeal.dot_S1024x64_S64x3_S1024x3_1_0_0_1_n_n 64 rfl rfl k
    have el : Cert.ReferenceIdeal.dot_S1024x64_S64x3_S1024x3_1_0_0_1_n_n.lhsIdx (ix2 p q) ((ValueIdx.contrEquiv1 Cert.ReferenceIdeal.dot_S1024x64_S64x3_S1024x3_1_0_0_1_n_n 64 rfl rfl).symm k) = ix2 p k := funext fun a => Fin.ext (by
      match a with
      | ⟨0, _⟩ => exact Cert.ReferenceIdeal.Read.lhs_main_v76_0 _ _
      | ⟨1, _⟩ => exact (Cert.ReferenceIdeal.Read.lhs_main_v76_1 _ _).trans hk)
    have er : Cert.ReferenceIdeal.dot_S1024x64_S64x3_S1024x3_1_0_0_1_n_n.rhsIdx (ix2 p q) ((ValueIdx.contrEquiv1 Cert.ReferenceIdeal.dot_S1024x64_S64x3_S1024x3_1_0_0_1_n_n 64 rfl rfl).symm k) = ix2 k q := funext fun a => Fin.ext (by
      match a with
      | ⟨0, _⟩ => exact (Cert.ReferenceIdeal.Read.rhs_main_v76_0 _ _).trans hk
      | ⟨1, _⟩ => exact Cert.ReferenceIdeal.Read.rhs_main_v76_1 _ _)
    rw [el, er]
  · rw [Cert.ReferenceIdeal.Read.val_main_v78_apply, Cert.ReferenceIdeal.Read.val_main_v77_apply]
    refine congrArg b (funext fun a => Fin.ext ?_)
    match a with
    | ⟨0, _⟩ => rfl

/-! ## The blocks the body finds: each array whole -/

/-- The blocks in the body's buffers at the point. -/
abbrev meanBlk3 (c : Dev nD) (t : Fin cfg3.N) : Vec Ideal S1024x64 .f32 := iblk3 V c 0 t
abbrev wtsBlk3 (c : Dev nD) (t : Fin cfg3.N) : Vec Ideal S64x3 .f32 := iblk3 V c 1 t
abbrev biasBlk3 (c : Dev nD) (t : Fin cfg3.N) : Vec Ideal S3 .f32 := iblk3 V c 2 t

theorem zero_offsets3 : (![0, 0] : Fin 2 → Nat) = fun _ => 0 := funext fun a => by fin_cases a <;> rfl
theorem zero_offset3 : (![0] : Fin 1 → Nat) = fun _ => 0 := funext fun a => by fin_cases a; rfl

/-- The printed index maps at the grid's one point: every window's block index is zero on every axis. -/
theorem block_indices3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

/-- The pooled means' block is the pooled means, -/
theorem meanBlk3_eq (c : Dev nD) (t : Fin cfg3.N) : meanBlk3 V c t = mean3 V c := by
  obtain ⟨e0, e1, -⟩ := block_indices3 t
  funext y
  show mean3 V c (((cfg3.win 0).blk t).view.emb y) = mean3 V c y
  refine congrArg (mean3 V c) (funext fun a => Fin.ext ?_)
  match a with
  | ⟨0, _⟩ => show win3_0.index t (0 : Fin 2) * 1024 + 1 * (y 0).val = (y 0).val; omega
  | ⟨1, _⟩ => show win3_0.index t (1 : Fin 2) * 64 + 1 * (y 1).val = (y 1).val; omega

/-- the weights' block the weights, -/
theorem wtsBlk3_eq (c : Dev nD) (t : Fin cfg3.N) : wtsBlk3 V c t = wts3 V c := by
  obtain ⟨-, -, e0, e1, -⟩ := block_indices3 t
  funext y
  show wts3 V c (((cfg3.win 1).blk t).view.emb y) = wts3 V c y
  refine congrArg (wts3 V c) (funext fun a => Fin.ext ?_)
  match a with
  | ⟨0, _⟩ => show win3_1.index t (0 : Fin 2) * 64 + 1 * (y 0).val = (y 0).val; omega
  | ⟨1, _⟩ => show win3_1.index t (1 : Fin 2) * 3 + 1 * (y 1).val = (y 1).val; omega

/-- and the bias's block the bias. -/
theorem biasBlk3_eq (c : Dev nD) (t : Fin cfg3.N) : biasBlk3 V c t = bias3 V c := by
  obtain ⟨-, -, -, -, e0, -⟩ := block_indices3 t
  funext y
  show bias3 V c (((cfg3.win 2).blk t).view.emb y) = bias3 V c y
  refine congrArg (bias3 V c) (funext fun a => Fin.ext ?_)
  match a with
  | ⟨0, _⟩ => show win3_2.index t (0 : Fin 1) * 3 + 1 * (y 0).val = (y 0).val; omega

/-! ## What the point writes back, and the array after the region -/

/-- The reference's last product plus its broadcast bias, of the arrays the region reads. -/
abbrev logits3 (c : Dev nD) : FVec Ideal S1024x3 .f32 :=
  addf (Host.dotGeneral (F := Ideal) Cert.ReferenceIdeal.dot_S1024x64_S64x3_S1024x3_1_0_0_1_n_n none (mean3 V c) (wts3 V c))
    (Cert.ReferenceIdeal.Read.val_main_v78 (F := Ideal) (bias3 V c))

/-- The payload of the point's blocks at an entry is the reference's term at the entry with the same coordinates:
    both are the sum over the 64 features plus the bias's entry. -/
theorem classifier_at3 (c : Dev nD) (t : Fin cfg3.N) (j i : S1024x3.Idx)
    (h0 : (i 0).val = (j 0).val) (h1 : (i 1).val = (j 1).val) :
    k3_pay1 (F := Ideal) (meanBlk3 V c t) (wtsBlk3 V c t) (biasBlk3 V c t) j = logits3 V c i := by
  obtain rfl : i = j := funext fun a => Fin.ext (match a with | ⟨0, _⟩ => h0 | ⟨1, _⟩ => h1)
  obtain ⟨p, q, rfl⟩ : ∃ (p : Fin 1024) (q : Fin 3), i = ix2 p q := ⟨i 0, i 1, eq_ix2 i⟩
  rw [meanBlk3_eq V c t, wtsBlk3_eq V c t, biasBlk3_eq V c t]
  refine (classifier_payload_apply (mean3 V c) (wts3 V c) (bias3 V c) p q).trans ?_
  exact (ref_classifier_apply (mean3 V c) (wts3 V c) (bias3 V c) p q).symm

/-- What the point writes back is its block, the whole, of the reference's term. -/
theorem flushed3_eq (c : Dev nD) (t : Fin cfg3.N) :
    (dat3 (F := Ideal) V c).flushed 3 t = ((cfg3.win 3).blk t).view.read (Elt Ideal) (logits3 V c) := by
  show (cfg3.win 3).cut (grid3.coords t) ((dat3 (F := Ideal) V c).after 3 t) = _
  rw [after3_3]
  unfold out3_3
  rw [View.canon_unit_zero zero_offsets3]
  simp only [View.ld_unit_zero (S := S1024x64) zero_offsets3, View.ld_unit_zero (S := S64x3) zero_offsets3,
    View.ld_unit_zero (S := S3) zero_offset3]
  obtain ⟨-, -, -, -, -, e0, e1⟩ := block_indices3 t
  funext y
  refine classifier_at3 V c t ((cfg3.win 3).xinj (grid3.coords t) y) (((cfg3.win 3).blk t).view.emb y) ?_ ?_
  · show win3_3.index t (0 : Fin 2) * 1024 + 1 * (y 0).val = (y 0).val; omega
  · show win3_3.index t (1 : Fin 2) * 3 + 1 * (y 1).val = (y 1).val; omega

/-- An entry of the array is in the point's block iff on each axis its coordinate is in the block's range. -/
theorem mem_outBlk3 (t : Fin cfg3.N) (i : S1024x3.Idx) :
    i ∈ ((cfg3.win 3).blk t).view.set ↔ ∀ a : Fin 2, win3_3.index t a * S1024x3.size a ≤ (i a).val ∧ (i a).val < win3_3.index t a * S1024x3.size a + S1024x3.size a := by
  show i ∈ ((View.whole main_v67).slice (win3_3.rect t)).set ↔ _
  rw [View.set_slice_whole, Rect.mem_set_unit]
  exact Iff.rfl

/-- The one point's block is the whole array, and the point writes back. -/
theorem covered3 (i : S1024x3.Idx) :
    ∃ t : Fin cfg3.N, (cfg3.win 3).flush t = true ∧ i ∈ ((cfg3.win 3).blk t).view.set := by
  have hi0 : (i 0).val < 1024 := (i 0).isLt
  have hi1 : (i 1).val < 3 := (i 1).isLt
  obtain ⟨-, -, -, -, -, e0, e1⟩ := block_indices3 t3_0
  refine ⟨t3_0, flush3_3 t3_0, ?_⟩
  rw [mem_outBlk3]
  intro a
  match a with
  | ⟨0, _⟩ => show win3_3.index t3_0 (0 : Fin 2) * 1024 ≤ (i 0).val ∧ (i 0).val < win3_3.index t3_0 (0 : Fin 2) * 1024 + 1024; omega
  | ⟨1, _⟩ => show win3_3.index t3_0 (1 : Fin 2) * 3 ≤ (i 1).val ∧ (i 1).val < win3_3.index t3_0 (1 : Fin 2) * 3 + 3; omega

/-- The output array after the region is the reference's last product plus its broadcast bias. -/
theorem final3 (c : Dev nD) :
    (dat3 (F := Ideal) V c).arrAt 3 cfg3.N
      = addf (Host.dotGeneral (F := Ideal) Cert.ReferenceIdeal.dot_S1024x64_S64x3_S1024x3_1_0_0_1_n_n none (mean3 V c) (wts3 V c))
          (Cert.ReferenceIdeal.Read.val_main_v78 (F := Ideal) (bias3 V c)) :=
  (dat3 (F := Ideal) V c).arrAt_eq_of_cover 3 (logits3 V c) (fun t _ => flushed3_eq V c t) covered3

end Cert.KernelIdeal.Val

end
-- ==== Proof.ValueKernelIdeal.Bridge.lean ====
/-
  The kernel program's result as a function of the argument arrays, over the extended reals: through the fold of the
  buffers' contents, each region's output array is the reference's stage of the same name (the four value lemmas),
  and each stretch of host operations applies to those arrays the very operations the reference applies between the
  same stages; so the last region's output array is the reference's result term.

  Each stretch is carried as one function of the arrays it reads. The first stretch makes, from the edge list alone,
  the source and destination indices (the edges followed by one self-loop per node) and the symmetric normalisation
  of each edge: the reference's stages of the same numbers. The second and third stretches are one and the same
  normalised aggregation (`aggregate`), applied to the rows the region before them left; the third also reads the
  graph ids as a column. The last stretch divides each graph's pooled sum by its node count.
-/
import proofs.«407529_j25701084299499_1_alg».proof.Proof.FrameKernelIdeal.Fold
import proofs.«407529_j25701084299499_1_alg».proof.Proof.ValueKernelIdeal.Value0
import proofs.«407529_j25701084299499_1_alg».proof.Proof.ValueKernelIdeal.Value1
import proofs.«407529_j25701084299499_1_alg».proof.Proof.ValueKernelIdeal.Value2
import proofs.«407529_j25701084299499_1_alg».proof.Proof.ValueKernelIdeal.Value3
import proofs.«407529_j25701084299499_1_alg».proof.Proof.RefSide
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)

/-! ## The stretches as functions of the arrays they read -/

/-- One round of normalised neighbourhood aggregation of the node rows `h`: the row at each edge's source index (a
    negative index wrapped by the node count) is scaled by the edge's norm, and the scaled rows are summed, from
    zeros, at the edges' destination indices. -/
def aggregate (h : FVec Ideal S100000x64 .f32) (src dst : IVec S3300000 32) (nrm : FVec Ideal S3300000x1 .f32) :
    FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 dst)
    (mulf
      (Host.gather gather_S100000x64_S3300000x1_S3300000x64_1_0_n_n_0_1_164 h
        (broadcastInDim S3300000x1 ![0] bcast_S3300000_S3300000x1_0
          (select
            (cmpi .slt src (broadcastInDim S3300000 ![] bcast_S_S3300000 (constantI S_ 32 0#32)))
            (addi src (broadcastInDim S3300000 ![] bcast_S_S3300000 (constantI S_ 32 100000#32)))
            src)))
      (broadcastInDim S3300000x64 ![0, 1] bcast_S3300000x1_S3300000x64_0_1 nrm))

section Reference

open Cert.ReferenceIdeal.Read

/-- The reference's first aggregation is `aggregate` of its first product, its indices and its norm. -/
theorem ref_agg_first (x0 : FVec Ideal S100000x256 .f32) (x1 : FVec Ideal S256x64 .f32) (x7 : IVec S2x3200000 32) :
    val_main_v42 (F := Ideal) x0 x1 x7
      = aggregate (val_main_v30 (F := Ideal) x0 x1) (val_main_v3 (F := Ideal) x7) (val_main_v6 (F := Ideal) x7)
          (val_main_v29 (F := Ideal) x7) := by
  unfold val_main_v42 val_main_v41 val_main_v40 val_main_cst_7 val_main_v39 val_main_v38 val_main_v37 val_main_v36
    val_main_v35 val_main_v34 val_main_v33 val_main_c_6 val_main_v32 val_main_v31 val_main_c_5 aggregate
  rfl

/-- The reference's second aggregation is `aggregate` of its second product, the same indices and the same norm. -/
theorem ref_agg_second (x0 : FVec Ideal S100000x256 .f32) (x1 : FVec Ideal S256x64 .f32) (x2 : FVec Ideal S64 .f32)
    (x3 : FVec Ideal S64x64 .f32) (x7 : IVec S2x3200000 32) :
    val_main_v59 (F := Ideal) x0 x1 x2 x3 x7
      = aggregate (val_main_v47 (F := Ideal) x0 x1 x2 x3 x7) (val_main_v3 (F := Ideal) x7) (val_main_v6 (F := Ideal) x7)
          (val_main_v29 (F := Ideal) x7) := by
  unfold val_main_v59 val_main_v58 val_main_v57 val_main_cst_10 val_main_v56 val_main_v55 val_main_v54 val_main_v53
    val_main_v52 val_main_v51 val_main_v50 val_main_c_9 val_main_v49 val_main_v48 val_main_c_8 aggregate
  rfl

/-- A vector read as a one-column matrix holds, in each row, the vector's entry of that row: the reference's broadcast
    of the graph ids along a new unit axis. -/
theorem column_of_vector (g : IVec S100000 32) :
    shapeCast S100000x1 g shapeCasts_S100000_S100000x1 = val_main_v65 (F := Ideal) g := by
  funext i
  rw [val_main_v65_apply]
  refine shapeCast_apply g _ i _ ?_
  rw [Shape.rowMajor_val_one, Shape.rowMajor_val_two]
  have h1 : (i 1).val < 1 := (i 1).isLt
  show (i 0).val = (i 0).val * 1 + (i 1).val
  omega

end Reference

/-! ## What each stretch leaves, from any contents `W` -/

section Stretches

variable (W : Valuation τ sig (Elt Ideal))

/-! The first stretch: the indices and the norm are the reference's stages of the edge list. -/

set_option maxHeartbeats 1000000 in
theorem src_of_edges :
    StableHlo.after hostOps0 W (Proc.devRef .tc main_v3)
      = Cert.ReferenceIdeal.Read.val_main_v3 (F := Ideal) (W (Proc.devRef .tc main_arg7)) := by
  after_results_simp
  rfl

set_option maxHeartbeats 1000000 in
theorem dst_of_edges :
    StableHlo.after hostOps0 W (Proc.devRef .tc main_v6)
      = Cert.ReferenceIdeal.Read.val_main_v6 (F := Ideal) (W (Proc.devRef .tc main_arg7)) := by
  after_results_simp
  rfl

set_option maxHeartbeats 1000000 in
theorem norm_of_edges :
    StableHlo.after hostOps0 W (Proc.devRef .tc main_v29)
      = Cert.ReferenceIdeal.Read.val_main_v29 (F := Ideal) (W (Proc.devRef .tc main_arg7)) := by
  after_results_simp
  rfl

/-! The second and third stretches: the aggregation of the rows the region before left; the graph ids as a column. -/

set_option maxHeartbeats 1000000 in
theorem agg_first :
    StableHlo.after hostOps1 W (Proc.devRef .tc main_v42)
      = aggregate (W (Proc.devRef .tc main_v30)) (W (Proc.devRef .tc main_v3)) (W (Proc.devRef .tc main_v6))
          (W (Proc.devRef .tc main_v29)) := by
  after_results_simp
  rfl

set_option maxHeartbeats 1000000 in
theorem agg_second :
    StableHlo.after hostOps2 W (Proc.devRef .tc main_v55)
      = aggregate (W (Proc.devRef .tc main_v43)) (W (Proc.devRef .tc main_v3)) (W (Proc.devRef .tc main_v6))
          (W (Proc.devRef .tc main_v29)) := by
  after_results_simp
  rfl

set_option maxHeartbeats 1000000 in
theorem gid_column :
    StableHlo.after hostOps2 W (Proc.devRef .tc main_v56)
      = Cert.ReferenceIdeal.Read.val_main_v65 (F := Ideal) (W (Proc.devRef .tc main_arg8)) := by
  after_results_simp
  exact column_of_vector (W (Proc.devRef .tc main_arg8))

/-! The last stretch: the pooled sums over the reference's node counts of the graph ids. -/

set_option maxHeartbeats 1000000 in
theorem mean_of_sums :
    StableHlo.after hostOps3 W (Proc.devRef .tc main_v66)
      = @Host.divf Ideal _ S1024x64 .f32 (W (Proc.devRef .tc main_v57))
          (Cert.ReferenceIdeal.Read.val_main_v74 (F := Ideal) (W (Proc.devRef .tc main_arg8))) := by
  after_results_simp
  rfl

/-! A stretch leaves every array it does not write as it found it. -/

theorem keep0_arg0 : StableHlo.after hostOps0 W (Proc.devRef .tc main_arg0) = W (Proc.devRef .tc main_arg0) := by after_results_simp
theorem keep0_arg1 : StableHlo.after hostOps0 W (Proc.devRef .tc main_arg1) = W (Proc.devRef .tc main_arg1) := by after_results_simp
theorem keep0_arg2 : StableHlo.after hostOps0 W (Proc.devRef .tc main_arg2) = W (Proc.devRef .tc main_arg2) := by after_results_simp
theorem keep0_arg3 : StableHlo.after hostOps0 W (Proc.devRef .tc main_arg3) = W (Proc.devRef .tc main_arg3) := by after_results_simp
theorem keep0_arg4 : StableHlo.after hostOps0 W (Proc.devRef .tc main_arg4) = W (Proc.devRef .tc main_arg4) := by after_results_simp
theorem keep0_arg5 : StableHlo.after hostOps0 W (Proc.devRef .tc main_arg5) = W (Proc.devRef .tc main_arg5) := by after_results_simp
theorem keep0_arg6 : StableHlo.after hostOps0 W (Proc.devRef .tc main_arg6) = W (Proc.devRef .tc main_arg6) := by after_results_simp
theorem keep0_arg8 : StableHlo.after hostOps0 W (Proc.devRef .tc main_arg8) = W (Proc.devRef .tc main_arg8) := by after_results_simp

theorem keep1_arg2 : StableHlo.after hostOps1 W (Proc.devRef .tc main_arg2) = W (Proc.devRef .tc main_arg2) := by after_results_simp
theorem keep1_arg3 : StableHlo.after hostOps1 W (Proc.devRef .tc main_arg3) = W (Proc.devRef .tc main_arg3) := by after_results_simp
theorem keep1_arg4 : StableHlo.after hostOps1 W (Proc.devRef .tc main_arg4) = W (Proc.devRef .tc main_arg4) := by after_results_simp
theorem keep1_arg5 : StableHlo.after hostOps1 W (Proc.devRef .tc main_arg5) = W (Proc.devRef .tc main_arg5) := by after_results_simp
theorem keep1_arg6 : StableHlo.after hostOps1 W (Proc.devRef .tc main_arg6) = W (Proc.devRef .tc main_arg6) := by after_results_simp
theorem keep1_arg8 : StableHlo.after hostOps1 W (Proc.devRef .tc main_arg8) = W (Proc.devRef .tc main_arg8) := by after_results_simp
theorem keep1_src : StableHlo.after hostOps1 W (Proc.devRef .tc main_v3) = W (Proc.devRef .tc main_v3) := by after_results_simp
theorem keep1_dst : StableHlo.after hostOps1 W (Proc.devRef .tc main_v6) = W (Proc.devRef .tc main_v6) := by after_results_simp
theorem keep1_norm : StableHlo.after hostOps1 W (Proc.devRef .tc main_v29) = W (Proc.devRef .tc main_v29) := by after_results_simp

theorem keep2_arg4 : StableHlo.after hostOps2 W (Proc.devRef .tc main_arg4) = W (Proc.devRef .tc main_arg4) := by after_results_simp
theorem keep2_arg5 : StableHlo.after hostOps2 W (Proc.devRef .tc main_arg5) = W (Proc.devRef .tc main_arg5) := by after_results_simp
theorem keep2_arg6 : StableHlo.after hostOps2 W (Proc.devRef .tc main_arg6) = W (Proc.devRef .tc main_arg6) := by after_results_simp
theorem keep2_arg8 : StableHlo.after hostOps2 W (Proc.devRef .tc main_arg8) = W (Proc.devRef .tc main_arg8) := by after_results_simp

theorem keep3_arg5 : StableHlo.after hostOps3 W (Proc.devRef .tc main_arg5) = W (Proc.devRef .tc main_arg5) := by after_results_simp
theorem keep3_arg6 : StableHlo.after hostOps3 W (Proc.devRef .tc main_arg6) = W (Proc.devRef .tc main_arg6) := by after_results_simp

end Stretches

/-! ## The fold, boundary by boundary -/

variable (m : (ℓ : Loc nD τ sig) → Buf (Elt Ideal) ℓ) (ρ : Dev nD → PrngReg)

/-- The launch memory's argument arrays at core `c`, at their literal types: the node features, the three weight
    matrices and the three biases, the edge list, the graph id of each node. -/
abbrev nodeFeat (c : Dev nD) : FVec Ideal S100000x256 .f32 := m ((c.tc : Thread nD τ).loc main_arg0)
abbrev wIn (c : Dev nD) : FVec Ideal S256x64 .f32 := m ((c.tc : Thread nD τ).loc main_arg1)
abbrev bIn (c : Dev nD) : FVec Ideal S64 .f32 := m ((c.tc : Thread nD τ).loc main_arg2)
abbrev wMid (c : Dev nD) : FVec Ideal S64x64 .f32 := m ((c.tc : Thread nD τ).loc main_arg3)
abbrev bMid (c : Dev nD) : FVec Ideal S64 .f32 := m ((c.tc : Thread nD τ).loc main_arg4)
abbrev wOut (c : Dev nD) : FVec Ideal S64x3 .f32 := m ((c.tc : Thread nD τ).loc main_arg5)
abbrev bOut (c : Dev nD) : FVec Ideal S3 .f32 := m ((c.tc : Thread nD τ).loc main_arg6)
abbrev edgeList (c : Dev nD) : IVec S2x3200000 32 := m ((c.tc : Thread nD τ).loc main_arg7)
abbrev graphId (c : Dev nD) : IVec S100000 32 := m ((c.tc : Thread nD τ).loc main_arg8)

open Cert.ReferenceIdeal.Read

/-! After the first stretch. -/

theorem src_at1 (c : Dev nD) : W1 m ρ c (Proc.devRef .tc main_v3) = val_main_v3 (F := Ideal) (edgeList m c) :=
  src_of_edges (W0 m ρ c)
theorem dst_at1 (c : Dev nD) : W1 m ρ c (Proc.devRef .tc main_v6) = val_main_v6 (F := Ideal) (edgeList m c) :=
  dst_of_edges (W0 m ρ c)
theorem norm_at1 (c : Dev nD) : W1 m ρ c (Proc.devRef .tc main_v29) = val_main_v29 (F := Ideal) (edgeList m c) :=
  norm_of_edges (W0 m ρ c)

/-! After the first region: its product; the indices and the norm untouched. -/

theorem prod_at2 (c : Dev nD) :
    W2 m ρ c (Proc.devRef .tc main_v30) = val_main_v30 (F := Ideal) (nodeFeat m c) (wIn m c) := by
  refine (W2_arr m ρ c 2).trans ((final0 (V1 m ρ) c).trans ?_)
  have e0 : V1 m ρ c main_arg0 = nodeFeat m c := keep0_arg0 (W0 m ρ c)
  have e1 : V1 m ρ c main_arg1 = wIn m c := keep0_arg1 (W0 m ρ c)
  rw [e0, e1]
theorem src_at2 (c : Dev nD) : W2 m ρ c (Proc.devRef .tc main_v3) = val_main_v3 (F := Ideal) (edgeList m c) :=
  (W2_of_ne m ρ c main_v3 (by decide)).trans (src_at1 m ρ c)
theorem dst_at2 (c : Dev nD) : W2 m ρ c (Proc.devRef .tc main_v6) = val_main_v6 (F := Ideal) (edgeList m c) :=
  (W2_of_ne m ρ c main_v6 (by decide)).trans (dst_at1 m ρ c)
theorem norm_at2 (c : Dev nD) : W2 m ρ c (Proc.devRef .tc main_v29) = val_main_v29 (F := Ideal) (edgeList m c) :=
  (W2_of_ne m ρ c main_v29 (by decide)).trans (norm_at1 m ρ c)

/-! After the second stretch: the first aggregation; the first bias and the second weights as launched. -/

theorem agg_at3 (c : Dev nD) :
    W3 m ρ c (Proc.devRef .tc main_v42) = val_main_v42 (F := Ideal) (nodeFeat m c) (wIn m c) (edgeList m c) := by
  refine (agg_first (W2 m ρ c)).trans ?_
  rw [prod_at2, src_at2, dst_at2, norm_at2]
  exact (ref_agg_first _ _ _).symm
theorem bIn_at3 (c : Dev nD) : W3 m ρ c (Proc.devRef .tc main_arg2) = bIn m c :=
  (keep1_arg2 (W2 m ρ c)).trans <| (W2_of_ne m ρ c main_arg2 (by decide)).trans <| keep0_arg2 (W0 m ρ c)
theorem wMid_at3 (c : Dev nD) : W3 m ρ c (Proc.devRef .tc main_arg3) = wMid m c :=
  (keep1_arg3 (W2 m ρ c)).trans <| (W2_of_ne m ρ c main_arg3 (by decide)).trans <| keep0_arg3 (W0 m ρ c)

/-! After the second region: the reference's second product; the indices, the norm and the graph ids untouched. -/

theorem prod_at4 (c : Dev nD) :
    W4 m ρ c (Proc.devRef .tc main_v43)
      = val_main_v47 (F := Ideal) (nodeFeat m c) (wIn m c) (bIn m c) (wMid m c) (edgeList m c) := by
  refine (W4_arr m ρ c 3).trans ((final1 (V3 m ρ) c).trans ?_)
  have e0 : agg1 (V3 m ρ) c = val_main_v42 (F := Ideal) (nodeFeat m c) (wIn m c) (edgeList m c) := agg_at3 m ρ c
  have e1 : bias1 (V3 m ρ) c = bIn m c := bIn_at3 m ρ c
  have e2 : wts1 (V3 m ρ) c = wMid m c := wMid_at3 m ρ c
  rw [e0, e1, e2]
  rfl
theorem src_at4 (c : Dev nD) : W4 m ρ c (Proc.devRef .tc main_v3) = val_main_v3 (F := Ideal) (edgeList m c) :=
  (W4_of_ne m ρ c main_v3 (by decide)).trans <| (keep1_src (W2 m ρ c)).trans <| src_at2 m ρ c
theorem dst_at4 (c : Dev nD) : W4 m ρ c (Proc.devRef .tc main_v6) = val_main_v6 (F := Ideal) (edgeList m c) :=
  (W4_of_ne m ρ c main_v6 (by decide)).trans <| (keep1_dst (W2 m ρ c)).trans <| dst_at2 m ρ c
theorem norm_at4 (c : Dev nD) : W4 m ρ c (Proc.devRef .tc main_v29) = val_main_v29 (F := Ideal) (edgeList m c) :=
  (W4_of_ne m ρ c main_v29 (by decide)).trans <| (keep1_norm (W2 m ρ c)).trans <| norm_at2 m ρ c
theorem graphId_at4 (c : Dev nD) : W4 m ρ c (Proc.devRef .tc main_arg8) = graphId m c :=
  (W4_of_ne m ρ c main_arg8 (by decide)).trans <| (keep1_arg8 (W2 m ρ c)).trans <|
    (W2_of_ne m ρ c main_arg8 (by decide)).trans <| keep0_arg8 (W0 m ρ c)

/-! After the third stretch: the second aggregation, the graph ids as a column; the second bias as launched. -/

theorem agg_at5 (c : Dev nD) :
    W5 m ρ c (Proc.devRef .tc main_v55)
      = val_main_v59 (F := Ideal) (nodeFeat m c) (wIn m c) (bIn m c) (wMid m c) (edgeList m c) := by
  refine (agg_second (W4 m ρ c)).trans ?_
  rw [prod_at4, src_at4, dst_at4, norm_at4]
  exact (ref_agg_second _ _ _ _ _).symm
theorem gidCol_at5 (c : Dev nD) : W5 m ρ c (Proc.devRef .tc main_v56) = val_main_v65 (F := Ideal) (graphId m c) :=
  (gid_column (W4 m ρ c)).trans (congrArg (val_main_v65 (F := Ideal)) (graphId_at4 m ρ c))
theorem bMid_at5 (c : Dev nD) : W5 m ρ c (Proc.devRef .tc main_arg4) = bMid m c :=
  (keep2_arg4 (W4 m ρ c)).trans <| (W4_of_ne m ρ c main_arg4 (by decide)).trans <| (keep1_arg4 (W2 m ρ c)).trans <|
    (W2_of_ne m ρ c main_arg4 (by decide)).trans <| keep0_arg4 (W0 m ρ c)

/-! After the third region: the reference's pooled sums; the graph ids untouched. -/

theorem pool_at6 (c : Dev nD) :
    W6 m ρ c (Proc.devRef .tc main_v57)
      = val_main_v66 (F := Ideal) (nodeFeat m c) (wIn m c) (bIn m c) (wMid m c) (bMid m c) (edgeList m c) (graphId m c) := by
  refine (W6_arr m ρ c 3).trans ((final2 (V5 m ρ) c).trans ?_)
  have e0 : agg2 (V5 m ρ) c
      = val_main_v59 (F := Ideal) (nodeFeat m c) (wIn m c) (bIn m c) (wMid m c) (edgeList m c) := agg_at5 m ρ c
  have e1 : bias2 (V5 m ρ) c = bMid m c := bMid_at5 m ρ c
  have e2 : gid2 (V5 m ρ) c = val_main_v65 (F := Ideal) (graphId m c) := gidCol_at5 m ρ c
  rw [e0, e1, e2]
  rfl
theorem graphId_at6 (c : Dev nD) : W6 m ρ c (Proc.devRef .tc main_arg8) = graphId m c :=
  (W6_of_ne m ρ c main_arg8 (by decide)).trans <| (keep2_arg8 (W4 m ρ c)).trans <| graphId_at4 m ρ c

/-! After the last stretch: the reference's pooled means; the last weights and bias as launched. -/

theorem mean_at7 (c : Dev nD) :
    W7 m ρ c (Proc.devRef .tc main_v66)
      = val_main_v75 (F := Ideal) (nodeFeat m c) (wIn m c) (bIn m c) (wMid m c) (bMid m c) (edgeList m c) (graphId m c) := by
  refine (mean_of_sums (W6 m ρ c)).trans ?_
  rw [pool_at6, graphId_at6]
  rfl
theorem wOut_at7 (c : Dev nD) : W7 m ρ c (Proc.devRef .tc main_arg5) = wOut m c :=
  (keep3_arg5 (W6 m ρ c)).trans <| (W6_of_ne m ρ c main_arg5 (by decide)).trans <| (keep2_arg5 (W4 m ρ c)).trans <|
    (W4_of_ne m ρ c main_arg5 (by decide)).trans <| (keep1_arg5 (W2 m ρ c)).trans <|
    (W2_of_ne m ρ c main_arg5 (by decide)).trans <| keep0_arg5 (W0 m ρ c)
theorem bOut_at7 (c : Dev nD) : W7 m ρ c (Proc.devRef .tc main_arg6) = bOut m c :=
  (keep3_arg6 (W6 m ρ c)).trans <| (W6_of_ne m ρ c main_arg6 (by decide)).trans <| (keep2_arg6 (W4 m ρ c)).trans <|
    (W4_of_ne m ρ c main_arg6 (by decide)).trans <| (keep1_arg6 (W2 m ρ c)).trans <|
    (W2_of_ne m ρ c main_arg6 (by decide)).trans <| keep0_arg6 (W0 m ρ c)

/-- The result buffer at the last boundary is the reference's result term of the launch memory's argument arrays. -/
theorem kernel_value (c : Dev nD) :
    W8 (F := Ideal) m ρ c (Proc.devRef .tc main_v67)
      = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 3).trans ((final3 (V7 m ρ) c).trans ?_)
  have e0 : mean3 (V7 m ρ) c
      = val_main_v75 (F := Ideal) (nodeFeat m c) (wIn m c) (bIn m c) (wMid m c) (bMid m c) (edgeList m c) (graphId m c) :=
    mean_at7 m ρ c
  have e1 : wts3 (V7 m ρ) c = wOut m c := wOut_at7 m ρ c
  have e2 : bias3 (V7 m ρ) c = bOut m c := bOut_at7 m ρ c
  rw [e0, e1, e2]
  rfl

end Cert.KernelIdeal.Val

end
-- ==== Proof.lean ====
/-
  The certificate of the graph-convolution kernel against its reference.

  Both programs compute, over the extended reals, the same function of the arguments: the symmetric normalisation
  of the edges (the same host operations on both sides), two rounds of "transform the node features by a weight
  matrix, gather along the edges, scale, sum at the destinations", each followed by a bias and a rectifier, the sum of
  the node rows of each graph divided by the graph's size, and a last product with a bias. The kernel program does the
  three products and the per-graph sum in four kernel regions: a product is computed block of rows by block of rows,
  which over the extended reals is the whole product row by row; the per-graph sum is accumulated over blocks of rows
  as the product of a one-hot matrix of the graph ids with the rows, and since a one-hot entry is one or zero and
  zero times any extended real is zero, that is the sum of exactly the rows of the graph, the reference's accumulating
  scatter. Everything between the regions is the reference's own operations on the same values.

  The frames: the kernel program's main function is four stretches of host operations and four regions; each region's
  body is run symbolically at a generic grid point, the regions are composed with the host stretches, and the final
  memory holds every buffer at the last boundary's contents, the arguments as launched. The reference is host
  operations only.
-/
import proofs.«407529_j25701084299499_1_alg».proof.Defs
import proofs.«407529_j25701084299499_1_alg».proof.Proof.Gen.Kernel
import proofs.«407529_j25701084299499_1_alg».proof.Proof.Gen.KernelIdeal
import proofs.«407529_j25701084299499_1_alg».proof.Proof.Gen.ReferenceIdeal
import proofs.«407529_j25701084299499_1_alg».proof.Proof.Gen.Pre_finite_inputs
import proofs.«407529_j25701084299499_1_alg».proof.Proof.FrameKernel.Run
import proofs.«407529_j25701084299499_1_alg».proof.Proof.FrameKernelIdeal.Run
import proofs.«407529_j25701084299499_1_alg».proof.Proof.ValueKernelIdeal.Bridge
import proofs.«407529_j25701084299499_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Frame.frame (F := Bits) m ρ

/-- So does the idealized kernel program. -/
theorem frame_kernelIdeal : Cert.frame_KernelIdeal := fun m ρ _ => Cert.KernelIdeal.Frame.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the reference's result term of the (agreeing) arguments. -/
theorem algebraic : Cert.algebraic_KernelIdeal_ReferenceIdeal := by
  intro m ρ m' ρ' _ hagree
  refine ⟨fun c => Cert.ReferenceIdeal.Read.val_main_v79 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Frame.mem_uc Cert.KernelIdeal.main_v67 (by decide))).trans (Cert.KernelIdeal.Val.kernel_value m ρ c),
       (h c _ (Cert.KernelIdeal.Frame.mem_uc Cert.KernelIdeal.main_arg0 (by decide))).trans (Cert.KernelIdeal.Frame.W8_main_arg0 m ρ c),
       (h c _ (Cert.KernelIdeal.Frame.mem_uc Cert.KernelIdeal.main_arg1 (by decide))).trans (Cert.KernelIdeal.Frame.W8_main_arg1 m ρ c),
       (h c _ (Cert.KernelIdeal.Frame.mem_uc Cert.KernelIdeal.main_arg2 (by decide))).trans (Cert.KernelIdeal.Frame.W8_main_arg2 m ρ c),
       (h c _ (Cert.KernelIdeal.Frame.mem_uc Cert.KernelIdeal.main_arg3 (by decide))).trans (Cert.KernelIdeal.Frame.W8_main_arg3 m ρ c),
       (h c _ (Cert.KernelIdeal.Frame.mem_uc Cert.KernelIdeal.main_arg4 (by decide))).trans (Cert.KernelIdeal.Frame.W8_main_arg4 m ρ c),
       (h c _ (Cert.KernelIdeal.Frame.mem_uc Cert.KernelIdeal.main_arg5 (by decide))).trans (Cert.KernelIdeal.Frame.W8_main_arg5 m ρ c),
       (h c _ (Cert.KernelIdeal.Frame.mem_uc Cert.KernelIdeal.main_arg6 (by decide))).trans (Cert.KernelIdeal.Frame.W8_main_arg6 m ρ c),
       (h c _ (Cert.KernelIdeal.Frame.mem_uc Cert.KernelIdeal.main_arg7 (by decide))).trans (Cert.KernelIdeal.Frame.W8_main_arg7 m ρ c),
       (h c _ (Cert.KernelIdeal.Frame.mem_uc Cert.KernelIdeal.main_arg8 (by decide))).trans (Cert.KernelIdeal.Frame.W8_main_arg8 m ρ c)⟩)
      (Cert.KernelIdeal.Frame.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v79_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
